-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x64 : Shape := ⟨3, ![4, 4096, 64]⟩
abbrev S4x4096x2048 : Shape := ⟨3, ![4, 4096, 2048]⟩
abbrev S64x64 : Shape := ⟨2, ![64, 64]⟩
abbrev S64 : Shape := ⟨1, ![64]⟩
abbrev S_ : Shape := ⟨0, ![]⟩

class Facts : Prop where
  bcast_S_S4x4096x64 : S_.BroadcastsInDim S4x4096x64 (![] : Fin 0 → Fin S4x4096x64.rank)
  reducesTo_S4x4096x64_S_d0_1_2 : S4x4096x64.ReducesTo [0, 1, 2] S_
  h_S_ : 0 < S_.numel
  bcast_S_S4x4096x2048 : S_.BroadcastsInDim S4x4096x2048 (![] : Fin 0 → Fin S4x4096x2048.rank)
  reducesTo_S4x4096x2048_S_d0_1_2 : S4x4096x2048.ReducesTo [0, 1, 2] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg1 : FVec F S4x4096x2048 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_cst_6 : FVec F S_ .f32 := constant S_ .f32 0x00000000#32
  let main_v19 : FVec F S4x4096x2048 .f32 := broadcastInDim S4x4096x2048 ![] bcast_S_S4x4096x2048 main_cst_6
  let main_v20 : IVec S4x4096x2048 1 := cmpf .oeq main_arg1 main_v19
  let main_cst_7 : FVec F S_ .f32 := constant S_ .f32 0x3F800000#32
  let main_v21 : FVec F S4x4096x2048 .f32 := broadcastInDim S4x4096x2048 ![] bcast_S_S4x4096x2048 main_cst_7
  let main_v22 : IVec S4x4096x2048 1 := cmpf .oeq main_arg1 main_v21
  let main_v23 : IVec S4x4096x2048 1 := ori main_v20 main_v22
  let main_c_8 : IVec S_ 1 := constantI S_ 1 1#1
  let main_v24 : IVec S_ 1 := (fun x v => Host.reduce IntOp.andi x v reducesTo_S4x4096x2048_S_d0_1_2 h_S_) main_v23 main_c_8
  let main_v25 : IVec S_ 1 := andi main_v18 main_v24
  main_v25

def fn {F : FTy → Type} [FloatOps F] (main_arg0 : FVec F S4x4096x64 .f32) (main_arg1 : FVec F S4x4096x2048 .f32) (main_arg2 : FVec F S64x64 .f32) (main_arg3 : FVec F S64 .f32) : IVec S_ 1 :=
  let main_v0 : FVec F S4x4096x64 .f32 := Host.absf main_arg0
  let main_cst : FVec F S_ .f32 := constant S_ .f32 0x7F800000#32
  let main_v1 : FVec F S4x4096x64 .f32 := broadcastInDim S4x4096x64 ![] bcast_S_S4x4096x64 main_cst
  let main_v2 : IVec S4x4096x64 1 := cmpf .olt main_v0 main_v1
  let main_c : IVec S_ 1 := constantI S_ 1 1#1
  let main_v3 : IVec S_ 1 := (fun x v => Host.reduce IntOp.andi x v reducesTo_S4x4096x64_S_d0_1_2 h_S_) main_v2 main_c
  let main_v4 : FVec F S4x4096x2048 .f32 := Host.absf main_arg1
  let main_cst_0 : FVec F S_ .f32 := constant S_ .f32 0x7F800000#32
  let main_v5 : FVec F S4x4096x2048 .f32 := broadcastInDim S4x4096x2048 ![] bcast_S_S4x4096x2048 main_cst_0
  let main_v6 : IVec S4x4096x2048 1 := cmpf .olt main_v4 main_v5
  let main_c_1 : IVec S_ 1 := constantI S_ 1 1#1
  let main_v7 : IVec S_ 1 := (fun x v => Host.reduce IntOp.andi x v reducesTo_S4x4096x2048_S_d0_1_2 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_v13 main_v16
-- ==== Kernel.lean ====
abbrev S4x4096x64 : Shape := ⟨3, ![4, 4096, 64]⟩
abbrev S4x4096x2048 : Shape := ⟨3, ![4, 4096, 2048]⟩
abbrev S64x64 : Shape := ⟨2, ![64, 64]⟩
abbrev S64 : Shape := ⟨1, ![64]⟩
abbrev S1x4096x64 : Shape := ⟨3, ![1, 4096, 64]⟩
abbrev S4096x2048 : Shape := ⟨2, ![4096, 2048]⟩
abbrev S2x256x2048 : Shape := ⟨3, ![2, 256, 2048]⟩
abbrev S2048x65 : Shape := ⟨2, ![2048, 65]⟩
abbrev S256x65 : Shape := ⟨2, ![256, 65]⟩
abbrev S2 : Shape := ⟨1, ![2]⟩
abbrev S1 : Shape := ⟨1, ![1]⟩
abbrev S_ : Shape := ⟨0, ![]⟩
abbrev S1x256x2048 : Shape := ⟨3, ![1, 256, 2048]⟩
abbrev S256x2048 : Shape := ⟨2, ![256, 2048]⟩
abbrev S1x4096x2048 : Shape := ⟨3, ![1, 4096, 2048]⟩
abbrev S1x256x64 : Shape := ⟨3, ![1, 256, 64]⟩
abbrev S256x64 : Shape := ⟨2, ![256, 64]⟩
abbrev S256x1 : Shape := ⟨2, ![256, 1]⟩
abbrev S2048x1 : Shape := ⟨2, ![2048, 1]⟩
abbrev S2048x64 : Shape := ⟨2, ![2048, 64]⟩
abbrev S1x64 : Shape := ⟨2, ![1, 64]⟩

abbrev nBuf : Space → Nat
  | .hbm => 5
  | .vmem => 10
  | .smem => 0
  | _ => 0

abbrev bufTy : (tb : Table) → Fin (tcTables nBuf tb) → BufTy
  | .hbm, ⟨0, _⟩ => ⟨S4x4096x64, .f32⟩
  | .hbm, ⟨1, _⟩ => ⟨S4x4096x2048, .f32⟩
  | .hbm, ⟨2, _⟩ => ⟨S64x64, .f32⟩
  | .hbm, ⟨3, _⟩ => ⟨S64, .f32⟩
  | .hbm, ⟨4, _⟩ => ⟨S4x4096x64, .f32⟩
  | .local _ .vmem, ⟨0, _⟩ => ⟨S1x4096x64, .f32⟩
  | .local _ .vmem, ⟨1, _⟩ => ⟨S1x4096x64, .f32⟩
  | .local _ .vmem, ⟨2, _⟩ => ⟨S64x64, .f32⟩
  | .local _ .vmem, ⟨3, _⟩ => ⟨S64, .f32⟩
  | .local _ .vmem, ⟨4, _⟩ => ⟨S1x4096x64, .f32⟩
  | .local _ .vmem, ⟨5, _⟩ => ⟨S1x4096x64, .f32⟩
  | .local _ .vmem, ⟨6, _⟩ => ⟨S4096x2048, .bf16⟩
  | .local _ .vmem, ⟨7, _⟩ => ⟨S2x256x2048, .f32⟩
  | .local _ .vmem, ⟨8, _⟩ => ⟨S2048x65, .f32⟩
  | .local _ .vmem, ⟨9, _⟩ => ⟨S256x65, .f32⟩
  | _, _ => ⟨S4x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def k0_off1 (i : grid0.Coords) : Fin 3 → Nat :=
  let arg0 : BitVec 32 := BitVec.ofNat 32 (i 0).val
  let c0_i32_3 : BitVec 32 := 0#32
  let c0_i32_4 : BitVec 32 := 0#32
  ![arg0.toNat, 0, 0]
def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S2_S1_0 : ∀ a, (![0] : Fin 1 → Nat) a + S1.size a ≤ S2.size a
  squeezes_S1_S_ : S1.Squeezes S_
  inb_S2x256x2048_S1x256x2048_0_0_0 : ∀ a, (![0, 0, 0] : Fin 3 → Nat) a + S1x256x2048.size a ≤ S2x256x2048.size a
  squeezes_S1x256x2048_S256x2048 : S1x256x2048.Squeezes S256x2048
  squeezes_S1x4096x2048_S4096x2048 : S1x4096x2048.Squeezes S4096x2048
  inb_S4096x2048_S256x2048_0_0 : ∀ a, (![0, 0] : Fin 2 → Nat) a + S256x2048.size a ≤ S4096x2048.size a
  inb_S2_S1_1 : ∀ a, (![1] : Fin 1 → Nat) a + S1.size a ≤ S2.size a
  inb_S2x256x2048_S1x256x2048_1_0_0 : ∀ a, (![1, 0, 0] : Fin 3 → Nat) a + S1x256x2048.size a ≤ S2x256x2048.size a
  inb_S4096x2048_S256x2048_256_0 : ∀ a, (![256, 0] : Fin 2 → Nat) a + S256x2048.size a ≤ S4096x2048.size a
  h_S1x256x2048 : 0 < S1x256x2048.numel
  shapeCasts_S1x256x2048_S256x2048 : S1x256x2048.ShapeCasts S256x2048
  bitsLt_bf16_f32 : FTy.bits .bf16 < FTy.bits .f32
  h_S256x2048 : 0 < S256x2048.numel
  shapeCasts_S256x2048_S256x2048 : S256x2048.ShapeCasts S256x2048
  packedbf16_S4096x2048_S256x2048_0_0 : (Rect.unit (s := S4096x2048) ![0, 0] S256x2048.size inb_S4096x2048_S256x2048_0_0).PackedRows (EltTy.packing .bf16)
  inb_S4096x2048_S256x2048_512_0 : ∀ a, (![512, 0] : Fin 2 → Nat) a + S256x2048.size a ≤ S4096x2048.size a
  packedbf16_S4096x2048_S256x2048_256_0 : (Rect.unit (s := S4096x2048) ![256, 0] S256x2048.size inb_S4096x2048_S256x2048_256_0).PackedRows (EltTy.packing .bf16)
  inb_S4096x2048_S256x2048_768_0 : ∀ a, (![768, 0] : Fin 2 → Nat) a + S256x2048.size a ≤ S4096x2048.size a
  packedbf16_S4096x2048_S256x2048_512_0 : (Rect.unit (s := S4096x2048) ![512, 0] S256x2048.size inb_S4096x2048_S256x2048_512_0).PackedRows (EltTy.packing .bf16)
  inb_S4096x2048_S256x2048_1024_0 : ∀ a, (![1024, 0] : Fin 2 → Nat) a + S256x2048.size a ≤ S4096x2048.size a
  packedbf16_S4096x2048_S256x2048_768_0 : (Rect.unit (s := S4096x2048) ![768, 0] S256x2048.size inb_S4096x2048_S256x2048_768_0).PackedRows (EltTy.packing .bf16)
  inb_S4096x2048_S256x2048_1280_0 : ∀ a, (![1280, 0] : Fin 2 → Nat) a + S256x2048.size a ≤ S4096x2048.size a
  packedbf16_S4096x2048_S256x2048_1024_0 : (Rect.unit (s := S4096x2048) ![1024, 0] S256x2048.size inb_S4096x2048_S256x2048_1024_0).PackedRows (EltTy.packing .bf16)
  inb_S4096x2048_S256x2048_1536_0 : ∀ a, (![1536, 0] : Fin 2 → Nat) a + S256x2048.size a ≤ S4096x2048.size a
  packedbf16_S4096x2048_S256x2048_1280_0 : (Rect.unit (s := S4096x2048) ![1280, 0] S256x2048.size inb_S4096x2048_S256x2048_1280_0).PackedRows (EltTy.packing .bf16)
  inb_S4096x2048_S256x2048_1792_0 : ∀ a, (![1792, 0] : Fin 2 → Nat) a + S256x2048.size a ≤ S4096x2048.size a
  packedbf16_S4096x2048_S256x2048_1536_0 : (Rect.unit (s := S4096x2048) ![1536, 0] S256x2048.size inb_S4096x2048_S256x2048_1536_0).PackedRows (EltTy.packing .bf16)
  inb_S4096x2048_S256x2048_2048_0 : ∀ a, (![2048, 0] : Fin 2 → Nat) a + S256x2048.size a ≤ S4096x2048.size a
  packedbf16_S4096x2048_S256x2048_1792_0 : (Rect.unit (s := S4096x2048) ![1792, 0] S256x2048.size inb_S4096x2048_S256x2048_1792_0).PackedRows (EltTy.packing .bf16)
  inb_S4096x2048_S256x2048_2304_0 : ∀ a, (![2304, 0] : Fin 2 → Nat) a + S256x2048.size a ≤ S4096x2048.size a
  packedbf16_S4096x2048_S256x2048_2048_0 : (Rect.unit (s := S4096x2048) ![2048, 0] S256x2048.size inb_S4096x2048_S256x2048_2048_0).PackedRows (EltTy.packing .bf16)
  inb_S4096x2048_S256x2048_2560_0 : ∀ a, (![2560, 0] : Fin 2 → Nat) a + S256x2048.size a ≤ S4096x2048.size a
  packedbf16_S4096x2048_S256x2048_2304_0 : (Rect.unit (s := S4096x2048) ![2304, 0] S256x2048.size inb_S4096x2048_S256x2048_2304_0).PackedRows (EltTy.packing .bf16)
  inb_S4096x2048_S256x2048_2816_0 : ∀ a, (![2816, 0] : Fin 2 → Nat) a + S256x2048.size a ≤ S4096x2048.size a
  packedbf16_S4096x2048_S256x2048_2560_0 : (Rect.unit (s := S4096x2048) ![2560, 0] S256x2048.size inb_S4096x2048_S256x2048_2560_0).PackedRows (EltTy.packing .bf16)
  inb_S4096x2048_S256x2048_3072_0 : ∀ a, (![3072, 0] : Fin 2 → Nat) a + S256x2048.size a ≤ S4096x2048.size a
  packedbf16_S4096x2048_S256x2048_2816_0 : (Rect.unit (s := S4096x2048) ![2816, 0] S256x2048.size inb_S4096x2048_S256x2048_2816_0).PackedRows (EltTy.packing .bf16)
  inb_S4096x2048_S256x2048_3328_0 : ∀ a, (![3328, 0] : Fin 2 → Nat) a + S256x2048.size a ≤ S4096x2048.size a
  packedbf16_S4096x2048_S256x2048_3072_0 : (Rect.unit (s := S4096x2048) ![3072, 0] S256x2048.size inb_S4096x2048_S256x2048_3072_0).PackedRows (EltTy.packing .bf16)
  inb_S4096x2048_S256x2048_3584_0 : ∀ a, (![3584, 0] : Fin 2 → Nat) a + S256x2048.size a ≤ S4096x2048.size a
  packedbf16_S4096x2048_S256x2048_3328_0 : (Rect.unit (s := S4096x2048) ![3328, 0] S256x2048.size inb_S4096x2048_S256x2048_3328_0).PackedRows (EltTy.packing .bf16)
  inb_S4096x2048_S256x2048_3840_0 : ∀ a, (![3840, 0] : Fin 2 → Nat) a + S256x2048.size a ≤ S4096x2048.size a
  packedbf16_S4096x2048_S256x2048_3584_0 : (Rect.unit (s := S4096x2048) ![3584, 0] S256x2048.size inb_S4096x2048_S256x2048_3584_0).PackedRows (EltTy.packing .bf16)
  packedbf16_S4096x2048_S256x2048_3840_0 : (Rect.unit (s := S4096x2048) ![3840, 0] S256x2048.size inb_S4096x2048_S256x2048_3840_0).PackedRows (EltTy.packing .bf16)
  inb_S2048x65_S2048x65_0_0 : ∀ a, (![0, 0] : Fin 2 → Nat) a + S2048x65.size a ≤ S2048x65.size a
  h_S2048x65 : 0 < S2048x65.numel
  shapeCasts_S2048x65_S2048x65 : S2048x65.ShapeCasts S2048x65
  inb_S64x64_S64x64_0_0 : ∀ a, (![0, 0] : Fin 2 → Nat) a + S64x64.size a ≤ S64x64.size a
  h_S64x64 : 0 < S64x64.numel
  inb_S1x4096x64_S1x256x64_0_0_0 : ∀ a, (![0, 0, 0] : Fin 3 → Nat) a + S1x256x64.size a ≤ S1x4096x64.size a
  h_S1x256x64 : 0 < S1x256x64.numel
  shapeCasts_S1x256x64_S256x64 : S1x256x64.ShapeCasts S256x64
  inb_S256x65_S256x64_0_0 : ∀ a, (![0, 0] : Fin 2 → Nat) a + S256x64.size a ≤ S256x65.size a
  h_S256x64 : 0 < S256x64.numel
  shapeCasts_S256x64_S256x64 : S256x64.ShapeCasts S256x64
  inb_S256x65_S256x1_0_64 : ∀ a, (![0, 64] : Fin 2 → Nat) a + S256x1.size a ≤ S256x65.size a
  h_S256x1 : 0 < S256x1.numel
  shapeCasts_S256x1_S256x1 : S256x1.ShapeCasts S256x1
  inb_S256x65_S256x65_0_0 : ∀ a, (![0, 0] : Fin 2 → Nat) a + S256x65.size a ≤ S256x65.size a
  h_S256x65 : 0 < S256x65.numel
  inb_S1x4096x64_S1x256x64_0_256_0 : ∀ a, (![0, 256, 0] : Fin 3 → Nat) a + S1x256x64.size a ≤ S1x4096x64.size a
  inb_S1x4096x64_S1x256x64_0_512_0 : ∀ a, (![0, 512, 0] : Fin 3 → Nat) a + S1x256x64.size a ≤ S1x4096x64.size a
  inb_S1x4096x64_S1x256x64_0_768_0 : ∀ a, (![0, 768, 0] : Fin 3 → Nat) a + S1x256x64.size a ≤ S1x4096x64.size a
  inb_S1x4096x64_S1x256x64_0_1024_0 : ∀ a, (![0, 1024, 0] : Fin 3 → Nat) a + S1x256x64.size a ≤ S1x4096x64.size a
  inb_S1x4096x64_S1x256x64_0_1280_0 : ∀ a, (![0, 1280, 0] : Fin 3 → Nat) a + S1x256x64.size a ≤ S1x4096x64.size a
  inb_S1x4096x64_S1x256x64_0_1536_0 : ∀ a, (![0, 1536, 0] : Fin 3 → Nat) a + S1x256x64.size a ≤ S1x4096x64.size a
  inb_S1x4096x64_S1x256x64_0_1792_0 : ∀ a, (![0, 1792, 0] : Fin 3 → Nat) a + S1x256x64.size a ≤ S1x4096x64.size a
  inb_S1x4096x64_S1x256x64_0_2048_0 : ∀ a, (![0, 2048, 0] : Fin 3 → Nat) a + S1x256x64.size a ≤ S1x4096x64.size a
  inb_S1x4096x64_S1x256x64_0_2304_0 : ∀ a, (![0, 2304, 0] : Fin 3 → Nat) a + S1x256x64.size a ≤ S1x4096x64.size a
  inb_S1x4096x64_S1x256x64_0_2560_0 : ∀ a, (![0, 2560, 0] : Fin 3 → Nat) a + S1x256x64.size a ≤ S1x4096x64.size a
  inb_S1x4096x64_S1x256x64_0_2816_0 : ∀ a, (![0, 2816, 0] : Fin 3 → Nat) a + S1x256x64.size a ≤ S1x4096x64.size a
  inb_S1x4096x64_S1x256x64_0_3072_0 : ∀ a, (![0, 3072, 0] : Fin 3 → Nat) a + S1x256x64.size a ≤ S1x4096x64.size a
  inb_S1x4096x64_S1x256x64_0_3328_0 : ∀ a, (![0, 3328, 0] : Fin 3 → Nat) a + S1x256x64.size a ≤ S1x4096x64.size a
  inb_S1x4096x64_S1x256x64_0_3584_0 : ∀ a, (![0, 3584, 0] : Fin 3 → Nat) a + S1x256x64.size a ≤ S1x4096x64.size a
  inb_S1x4096x64_S1x256x64_0_3840_0 : ∀ a, (![0, 3840, 0] : Fin 3 → Nat) a + S1x256x64.size a ≤ S1x4096x64.size a
  slices_S2048x65_o0_64_S2048x1 : S2048x65.Slices ![0, 64] S2048x1
  slices_S2048x65_o0_0_S2048x64 : S2048x65.Slices ![0, 0] S2048x64
  broadcasts_S2048x1_S2048x64 : S2048x1.Broadcasts S2048x64
  inb_S2048x65_S2048x64_0_0 : ∀ a, (![0, 0] : Fin 2 → Nat) a + S2048x64.size a ≤ S2048x65.size a
  h_S2048x64 : 0 < S2048x64.numel
  shapeCasts_S2048x64_S2048x64 : S2048x64.ShapeCasts S2048x64
  inb_S2048x65_S2048x1_0_64 : ∀ a, (![0, 64] : Fin 2 → Nat) a + S2048x1.size a ≤ S2048x65.size a
  h_S2048x1 : 0 < S2048x1.numel
  shapeCasts_S2048x1_S2048x1 : S2048x1.ShapeCasts S2048x1
  inb_S64_S64_0 : ∀ a, (![0] : Fin 1 → Nat) a + S64.size a ≤ S64.size a
  h_S64 : 0 < S64.numel
  slices_S256x65_o0_64_S256x1 : S256x65.Slices ![0, 64] S256x1
  slices_S256x65_o0_0_S256x64 : S256x65.Slices ![0, 0] S256x64
  broadcasts_S256x1_S256x64 : S256x1.Broadcasts S256x64
  shapeCasts_S64_S1x64 : S64.ShapeCasts S1x64
  broadcasts_S1x64_S256x64 : S1x64.Broadcasts S256x64
  shapeCasts_S256x64_S1x256x64 : S256x64.ShapeCasts S1x256x64
  dot_S256x64_S64x64_S256x64_1_0_0_1_n_n_wf : DotDims.WF S256x64 S64x64 S256x64 [1] [0] [0] [1] [] []
  dot_S256x2048_S256x65_S2048x65_0_0_1_1_n_n_wf : DotDims.WF S256x2048 S256x65 S2048x65 [0] [0] [1] [1] [] []
  dot_S256x2048_S2048x65_S256x65_1_0_0_1_n_n_wf : DotDims.WF S256x2048 S2048x65 S256x65 [1] [0] [0] [1] [] []
  hcc0_scratch4 : 6 + S2.numel ≤ 8
  hrank0 : 0 < grid0.rank
  k0_off1_inb : ∀ i : grid0.Coords, ∀ a, (k0_off1 i) a + S1x4096x2048.size a ≤ S4x4096x2048.size a
  hstage0_0 : ∀ j, (stage0_0 j).IsWhole
  nbuf0_0 : grid0.bufCount reads0_0 false = 2
  hreads0_0 : ∀ i i' : grid0.Coords, (∀ a, reads0_0 a = true → i a = i' a) → cc0_transform_1 i = cc0_transform_1 i'
  hinb0_0 : ∀ (i : grid0.Coords) a, (cc0_transform_1 i a + 1) * S1x4096x64.size a ≤ S4x4096x64.size a
  hwx0_0 : ∀ i : grid0.Coords, EltTy.bits .f32 = 32 ∨ (Rect.block (s := S4x4096x64) S1x4096x64.size (cc0_transform_1 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_2 i = cc0_transform_2 i'
  hinb0_1 : ∀ (i : grid0.Coords) a, (cc0_transform_2 i a + 1) * S64x64.size a ≤ S64x64.size a
  hwx0_1 : ∀ i : grid0.Coords, EltTy.bits .f32 = 32 ∨ (Rect.block (s := S64x64) S64x64.size (cc0_transform_2 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_3 i = cc0_transform_3 i'
  hinb0_2 : ∀ (i : grid0.Coords) a, (cc0_transform_3 i a + 1) * S64.size a ≤ S64.size a
  hwx0_2 : ∀ i : grid0.Coords, EltTy.bits .f32 = 32 ∨ (Rect.block (s := S64) S64.size (cc0_transform_3 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_4 i = cc0_transform_4 i'
  hinb0_3 : ∀ (i : grid0.Coords) a, (cc0_transform_4 i a + 1) * S1x4096x64.size a ≤ S4x4096x64.size a
  hwx0_3 : ∀ i : grid0.Coords, EltTy.bits .f32 = 32 ∨ (Rect.block (s := S4x4096x64) S1x4096x64.size (cc0_transform_4 i) (hinb0_3 i)).WholeWords (EltTy.packing .f32)

variable [Facts₀]

abbrev cc0_scratch4 : DmaSems sig S2 := SemArray.consecutive 6 S2 hcc0_scratch4
def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf
def dot_S256x2048_S256x65_S2048x65_0_0_1_1_n_n : DotDims S256x2048 S256x65 S2048x65 where
  lhsContracting := [0]
  rhsContracting := [0]
  lhsNonContracting := [1]
  rhsNonContracting := [1]
  lhsBatch := []
  rhsBatch := []
  wf := dot_S256x2048_S256x65_S2048x65_0_0_1_1_n_n_wf
def dot_S256x2048_S2048x65_S256x65_1_0_0_1_n_n : DotDims S256x2048 S2048x65 S256x65 where
  lhsContracting := [1]
  rhsContracting := [0]
  lhsNonContracting := [0]
  rhsNonContracting := [1]
  lhsBatch := []
  rhsBatch := []
  wf := dot_S256x2048_S2048x65_S256x65_1_0_0_1_n_n_wf

abbrev win0_0 : Pipeline.Window sig grid0 :=
  Pipeline.Window.ofSpec (Memref.whole main_arg0) S1x4096x64.size cc0_transform_1 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_2 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_3 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x4096x64.size cc0_transform_4 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x64 : Shape := ⟨3, ![4, 4096, 64]⟩
abbrev S4x4096x2048 : Shape := ⟨3, ![4, 4096, 2048]⟩
abbrev S64x64 : Shape := ⟨2, ![64, 64]⟩
abbrev S64 : Shape := ⟨1, ![64]⟩
abbrev S_ : Shape := ⟨0, ![]⟩
abbrev S4x4096 : Shape := ⟨2, ![4, 4096]⟩
abbrev S4x2048 : Shape := ⟨2, ![4, 2048]⟩
abbrev S4x1x2048 : Shape := ⟨3, ![4, 1, 2048]⟩
abbrev S4x2048x64 : Shape := ⟨3, ![4, 2048, 64]⟩
abbrev S4x4096x1 : Shape := ⟨3, ![4, 4096, 1]⟩
abbrev S1x1x64 : Shape := ⟨3, ![1, 1, 64]⟩

abbrev nBuf : Space → Nat
  | .hbm => 26
  | .vmem => 0
  | .smem => 0
  | _ => 0

abbrev bufTy : (tb : Table) → Fin (tcTables nBuf tb) → BufTy
  | .hbm, ⟨0, _⟩ => ⟨S4x4096x64, .f32⟩
  | .hbm, ⟨1, _⟩ => ⟨S4x4096x2048, .f32⟩
  | .hbm, ⟨2, _⟩ => ⟨S64x64, .f32⟩
  | .hbm, ⟨3, _⟩ => ⟨S64, .f32⟩
  | .hbm, ⟨4, _⟩ => ⟨S_, .f32⟩
  | .hbm, ⟨5, _⟩ => ⟨S4x4096, .f32⟩
  | .hbm, ⟨6, _⟩ => ⟨S_, .f32⟩
  | .hbm, ⟨7, _⟩ => ⟨S4x4096, .f32⟩
  | .hbm, ⟨8, _⟩ => ⟨S4x4096, .f32⟩
  | .hbm, ⟨9, _⟩ => ⟨S_, .f32⟩
  | .hbm, ⟨10, _⟩ => ⟨S4x2048, .f32⟩
  | .hbm, ⟨11, _⟩ => ⟨S_, .f32⟩
  | .hbm, ⟨12, _⟩ => ⟨S4x2048, .f32⟩
  | .hbm, ⟨13, _⟩ => ⟨S4x2048, .f32⟩
  | .hbm, ⟨14, _⟩ => ⟨S4x4096x64, .f32⟩
  | .hbm, ⟨15, _⟩ => ⟨S4x1x2048, .f32⟩
  | .hbm, ⟨16, _⟩ => ⟨S4x4096x2048, .f32⟩
  | .hbm, ⟨17, _⟩ => ⟨S4x4096x2048, .f32⟩
  | .hbm, ⟨18, _⟩ => ⟨S4x2048x64, .f32⟩
  | .hbm, ⟨19, _⟩ => ⟨S4x4096x1, .f32⟩
  | .hbm, ⟨20, _⟩ => ⟨S4x4096x2048, .f32⟩
  | .hbm, ⟨21, _⟩ => ⟨S4x4096x2048, .f32⟩
  | .hbm, ⟨22, _⟩ => ⟨S4x4096x64, .f32⟩
  | .hbm, ⟨23, _⟩ => ⟨S1x1x64, .f32⟩
  | .hbm, ⟨24, _⟩ => ⟨S4x4096x64, .f32⟩
  | .hbm, ⟨25, _⟩ => ⟨S4x4096x64, .f32⟩
  | _, _ => ⟨S4x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_cst_2 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  reducesTo_S4x4096x2048_S4x4096_d2 : S4x4096x2048.ReducesTo [2] S4x4096
  h_S_ : 0 < S_.numel
  bcast_S_S4x4096 : S_.BroadcastsInDim S4x4096 (![] : Fin 0 → Fin S4x4096.rank)
  reducesTo_S4x4096x2048_S4x2048_d1 : S4x4096x2048.ReducesTo [1] S4x2048
  bcast_S_S4x2048 : S_.BroadcastsInDim S4x2048 (![] : Fin 0 → Fin S4x2048.rank)
  bcast_S4x2048_S4x1x2048_0_2 : S4x2048.BroadcastsInDim S4x1x2048 (![0, 2] : Fin 2 → Fin S4x1x2048.rank)
  bcast_S4x1x2048_S4x4096x2048_0_1_2 : S4x1x2048.BroadcastsInDim S4x4096x2048 (![0, 1, 2] : Fin 3 → Fin S4x4096x2048.rank)
  bcast_S4x4096_S4x4096x1_0_1 : S4x4096.BroadcastsInDim S4x4096x1 (![0, 1] : Fin 2 → Fin S4x4096x1.rank)
  bcast_S4x4096x1_S4x4096x2048_0_1_2 : S4x4096x1.BroadcastsInDim S4x4096x2048 (![0, 1, 2] : Fin 3 → Fin S4x4096x2048.rank)
  bcast_S64_S1x1x64_2 : S64.BroadcastsInDim S1x1x64 (![2] : Fin 1 → Fin S1x1x64.rank)
  bcast_S1x1x64_S4x4096x64_0_1_2 : S1x1x64.BroadcastsInDim S4x4096x64 (![0, 1, 2] : Fin 3 → Fin S4x4096x64.rank)
  dot_S4x4096x64_S64x64_S4x4096x64_2_0_01_1_n_n_wf : DotDims.WF S4x4096x64 S64x64 S4x4096x64 [2] [0] [0, 1] [1] [] []
  dot_S4x4096x2048_S4x4096x64_S4x2048x64_1_1_2_2_0_0_wf : DotDims.WF S4x4096x2048 S4x4096x64 S4x2048x64 [1] [1] [2] [2] [0] [0]
  dot_S4x4096x2048_S4x2048x64_S4x4096x64_2_1_1_2_0_0_wf : DotDims.WF S4x4096x2048 S4x2048x64 S4x4096x64 [2] [1] [1] [2] [0] [0]

variable [Facts₀]

def dot_S4x4096x64_S64x64_S4x4096x64_2_0_01_1_n_n : DotDims S4x4096x64 S64x64 S4x4096x64 where
  lhsContracting := [2]
  rhsContracting := [0]
  lhsNonContracting := [0, 1]
  rhsNonContracting := [1]
  lhsBatch := []
  rhsBatch := []
  wf := dot_S4x4096x64_S64x64_S4x4096x64_2_0_01_1_n_n_wf
def dot_S4x4096x2048_S4x4096x64_S4x2048x64_1_1_2_2_0_0 : DotDims S4x4096x2048 S4x4096x64 S4x2048x64 where
  lhsContracting := [1]
  rhsContracting := [1]
  lhsNonContracting := [2]
  rhsNonContracting := [2]
  lhsBatch := [0]
  rhsBatch := [0]
  wf := dot_S4x4096x2048_S4x4096x64_S4x2048x64_1_1_2_2_0_0_wf
def dot_S4x4096x2048_S4x2048x64_S4x4096x64_2_1_1_2_0_0 : DotDims S4x4096x2048 S4x2048x64 S4x4096x64 where
  lhsContracting := [2]
  rhsContracting := [1]
  lhsNonContracting := [1]
  rhsNonContracting := [2]
  lhsBatch := [0]
  rhsBatch := [0]
  wf := dot_S4x4096x2048_S4x2048x64_S4x4096x64_2_1_1_2_0_0_wf

class Facts : Prop extends Facts₀ where

variable [Facts]
-- ==== Proof.KernelSlotRead.lean ====
/-
  Reading a slot of the two-slot staging buffer.

  The staging buffer holds two slots of 256 × 2048 words. A transfer lands a 256 × 2048 block in ONE slot, through the
  slot's own view (the buffer sliced at the slot and the unit axis dropped); the body then loads that slot through the
  whole buffer's view, as a 1 × 256 × 2048 rectangle at the slot's offset. Two facts:
  * a slot read through a landing IN THAT SLOT is the landed block, whatever the buffer held before
    (the index behind the unit axis);
  * a slot read through a landing in THE OTHER slot is the slot read of what the buffer held before.
-/
import proofs.«414075_j24292335026750_3_alg».proof.Proof.Gen.Kernel.Skeleton
import Idealize.ShloMosaic.Lib.Pipeline.Value

set_option maxRecDepth 16384

noncomputable section

namespace Cert.Kernel.SlotRead

open Idealize.ShloMosaic Idealize.SL.Sem Cert.Kernel Cert.Kernel.Gen

variable {F : FTy → Type} [FloatOps F]

/-! ## Two general facts about a view, its rectangles and a re-indexing of one of them -/

section General

variable {sig' : RefSig} {κ : Kind} {sp : Space} {s s' : Shape} {e : EltTy} {Val : EltTy → Type}

/-- A view read after an unmasked write through a re-indexing of it: the payload at the matched index. The re-indexed
    view places index `x'` where the view places the index matched with `x'`, so the view's index `x` sits where the
    re-indexed view places the index matched with `x` the other way. -/
theorem read_write_reshape (v : View sig' κ sp s e) (h : s'.numel = s.numel) (f : v.ty.Contents Val) (w : s'.Idx → Val e) :
    v.read Val ((v.reshape s' h).write Val f w Finset.univ) = fun x => w ((Shape.reshapeEquiv h).symm x) := by
  funext x
  have e1 : v.read Val ((v.reshape s' h).write Val f w Finset.univ) x
      = (v.reshape s' h).read Val ((v.reshape s' h).write Val f w Finset.univ) ((Shape.reshapeEquiv h).symm x) := by
    have hx : v.emb x = (v.reshape s' h).emb ((Shape.reshapeEquiv h).symm x) := by
      show v.emb x = v.emb (Shape.reshapeEquiv h ((Shape.reshapeEquiv h).symm x))
      rw [Equiv.apply_symm_apply]
    rw [View.read_apply, View.read_apply, hx]
  rw [e1, View.read_write_univ]

/-- A rectangle of a view read after an unmasked write through a re-indexing of a DISJOINT rectangle of it: the old
    contents. The write changes only the elements under the other rectangle. -/
theorem read_slice_write_reshape_of_disjoint (v : View sig' κ sp s e) (r r' : Rect s) (h : s'.numel = r'.shape.numel)
    (f : v.ty.Contents Val) (w : s'.Idx → Val e) (hd : Disjoint r.set r'.set) :
    (v.slice r).read Val (((v.slice r').reshape s' h).write Val f w Finset.univ) = (v.slice r).read Val f := by
  refine View.read_congr fun i hi => View.write_of_not_mem _ _ _ fun hm => ?_
  rw [View.setOn_univ, View.set_reshape, View.set_slice] at hm
  rw [View.set_slice] at hi
  exact Finset.disjoint_left.mp ((Finset.disjoint_map v.emb).mpr hd) hi hm

end General

/-! ## The index behind the unit axis -/

/-- An index of the `1 × 256 × 2048` rectangle is matched, row-major, with its last two coordinates. -/
theorem unsqueeze_idx (h : S256x2048.numel = (⟨3, S1x256x2048.size⟩ : Shape).numel) (y : (⟨3, S1x256x2048.size⟩ : Shape).Idx) :
    (Shape.reshapeEquiv h).symm y = (fun a : Fin 2 => (y a.succ).cast rfl : S256x2048.Idx) := by
  rw [Equiv.symm_apply_eq]
  refine (Shape.reshapeEquiv_cons_one (n := 2) (d := ![256, 2048]) h _).symm ▸ ?_
  funext a
  refine Fin.cases ?_ (fun i => ?_) a
  · have h0 : (y 0).val < 1 := (y 0).isLt
    exact Fin.ext (by show (y 0).val = 0; omega)
  · exact Fin.ext rfl

/-- Slot 0 read through a landing in slot 0: the landed block. The slot's view is written out: the buffer's
    view cut at the slot's rectangle and re-indexed without the unit axis. -/
theorem read0_land0 (arg7 : Memref sig .tc .vmem S2x256x2048 .f32) (inb0 : ∀ a, (![0, 0, 0] : Fin 3 → Nat) a + (![1, 256, 2048] : Fin 3 → Nat) a ≤ S2x256x2048.size a)
    (h0 : S256x2048.numel = (Rect.unit (s := S2x256x2048) ![0, 0, 0] ![1, 256, 2048] inb0).shape.numel)
    (prev : BufTy.Contents (Elt F) arg7.view.ty) (data : S256x2048.Idx → Elt F .f32) :
    View.readAt (Elt F) arg7.view (Rect.unit (s := S2x256x2048) ![0, 0, 0] ![1, 256, 2048] inb0).toLoadRect
        (View.write (Elt F) ((arg7.view.slice (Rect.unit (s := S2x256x2048) ![0, 0, 0] ![1, 256, 2048] inb0)).reshape S256x2048 h0)
          prev data Finset.univ)
      = fun y => data (fun a => (y a.succ).cast rfl) := by
  rw [View.readAt_rect]
  refine (read_write_reshape (Val := Elt F) (arg7.view.slice (Rect.unit (s := S2x256x2048) ![0, 0, 0] ![1, 256, 2048] inb0)) h0 prev data).trans ?_
  funext y
  exact congrArg data (unsqueeze_idx _ y)

/-- Slot 1 read through a landing in slot 1: the landed block. The slot's view is written out: the buffer's
    view cut at the slot's rectangle and re-indexed without the unit axis. -/
theorem read1_land1 (arg7 : Memref sig .tc .vmem S2x256x2048 .f32) (inb1 : ∀ a, (![1, 0, 0] : Fin 3 → Nat) a + (![1, 256, 2048] : Fin 3 → Nat) a ≤ S2x256x2048.size a)
    (h1 : S256x2048.numel = (Rect.unit (s := S2x256x2048) ![1, 0, 0] ![1, 256, 2048] inb1).shape.numel)
    (prev : BufTy.Contents (Elt F) arg7.view.ty) (data : S256x2048.Idx → Elt F .f32) :
    View.readAt (Elt F) arg7.view (Rect.unit (s := S2x256x2048) ![1, 0, 0] ![1, 256, 2048] inb1).toLoadRect
        (View.write (Elt F) ((arg7.view.slice (Rect.unit (s := S2x256x2048) ![1, 0, 0] ![1, 256, 2048] inb1)).reshape S256x2048 h1)
          prev data Finset.univ)
      = fun y => data (fun a => (y a.succ).cast rfl) := by
  rw [View.readAt_rect]
  refine (read_write_reshape (Val := Elt F) (arg7.view.slice (Rect.unit (s := S2x256x2048) ![1, 0, 0] ![1, 256, 2048] inb1)) h1 prev data).trans ?_
  funext y
  exact congrArg data (unsqueeze_idx _ y)

/-- Slot 0 read through a landing in slot 1: what was there before. -/
theorem read0_land1 (arg7 : Memref sig .tc .vmem S2x256x2048 .f32) (inb0 : ∀ a, (![0, 0, 0] : Fin 3 → Nat) a + (![1, 256, 2048] : Fin 3 → Nat) a ≤ S2x256x2048.size a) (inb1 : ∀ a, (![1, 0, 0] : Fin 3 → Nat) a + (![1, 256, 2048] : Fin 3 → Nat) a ≤ S2x256x2048.size a)
    (h1 : S256x2048.numel = (Rect.unit (s := S2x256x2048) ![1, 0, 0] ![1, 256, 2048] inb1).shape.numel)
    (prev : BufTy.Contents (Elt F) arg7.view.ty) (data : S256x2048.Idx → Elt F .f32) :
    View.readAt (Elt F) arg7.view (Rect.unit (s := S2x256x2048) ![0, 0, 0] ![1, 256, 2048] inb0).toLoadRect
        (View.write (Elt F) ((arg7.view.slice (Rect.unit (s := S2x256x2048) ![1, 0, 0] ![1, 256, 2048] inb1)).reshape S256x2048 h1)
          prev data Finset.univ)
      = View.readAt (Elt F) arg7.view (Rect.unit (s := S2x256x2048) ![0, 0, 0] ![1, 256, 2048] inb0).toLoadRect prev := by
  rw [View.readAt_rect, View.readAt_rect]
  exact read_slice_write_reshape_of_disjoint (Val := Elt F) arg7.view (Rect.unit (s := S2x256x2048) ![0, 0, 0] ![1, 256, 2048] inb0)
    (Rect.unit (s := S2x256x2048) ![1, 0, 0] ![1, 256, 2048] inb1) h1 prev data
    (Rect.unit_disjoint (0 : Fin 3) (by decide))

/-- Slot 1 read through a landing in slot 0: what was there before. -/
theorem read1_land0 (arg7 : Memref sig .tc .vmem S2x256x2048 .f32) (inb1 : ∀ a, (![1, 0, 0] : Fin 3 → Nat) a + (![1, 256, 2048] : Fin 3 → Nat) a ≤ S2x256x2048.size a) (inb0 : ∀ a, (![0, 0, 0] : Fin 3 → Nat) a + (![1, 256, 2048] : Fin 3 → Nat) a ≤ S2x256x2048.size a)
    (h0 : S256x2048.numel = (Rect.unit (s := S2x256x2048) ![0, 0, 0] ![1, 256, 2048] inb0).shape.numel)
    (prev : BufTy.Contents (Elt F) arg7.view.ty) (data : S256x2048.Idx → Elt F .f32) :
    View.readAt (Elt F) arg7.view (Rect.unit (s := S2x256x2048) ![1, 0, 0] ![1, 256, 2048] inb1).toLoadRect
        (View.write (Elt F) ((arg7.view.slice (Rect.unit (s := S2x256x2048) ![0, 0, 0] ![1, 256, 2048] inb0)).reshape S256x2048 h0)
          prev data Finset.univ)
      = View.readAt (Elt F) arg7.view (Rect.unit (s := S2x256x2048) ![1, 0, 0] ![1, 256, 2048] inb1).toLoadRect prev := by
  rw [View.readAt_rect, View.readAt_rect]
  exact read_slice_write_reshape_of_disjoint (Val := Elt F) arg7.view (Rect.unit (s := S2x256x2048) ![1, 0, 0] ![1, 256, 2048] inb1)
    (Rect.unit (s := S2x256x2048) ![0, 0, 0] ![1, 256, 2048] inb0) h0 prev data
    (Rect.unit_disjoint (0 : Fin 3) (by decide))

end Cert.Kernel.SlotRead

end
-- ==== Proof.KernelRunA.lean ====
/-
  The body's run with a witness that does not mention the staging buffer's prior contents.

  The body streams the incidence matrix through a two-slot staging buffer. Every slot is overwritten by a landed
  block before the body loads it, so what the body computes does not depend on what the staging buffer held when the
  body began (`found_indep`: a slot read through a landing in that slot is the landed block, through a landing in the
  other slot it is the read of the older contents). The pieces the body's stores leave in the output block are
  therefore those of the run started from ANY staging contents; they are named here at the junk contents, and the
  body's triple is restated with that witness, the staging buffer's contents quantified as every other scratch's.
-/
import proofs.«414075_j24292335026750_3_alg».proof.Proof.KernelRunRaw
import proofs.«414075_j24292335026750_3_alg».proof.Proof.KernelSlotRead

-- membership in a rectangle of production extents (`View.cover_of_tiled`): the elaborator's structural look
-- recurses once per coordinate of the long axes
set_option maxRecDepth 16384

noncomputable section

namespace Cert.Kernel.GenP

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- THE FOUND PIECES DO NOT DEPEND ON THE STAGING BUFFER'S PRIOR CONTENTS. -/
theorem found_indep (c : Dev nD) (i : grid0.Coords) (arg2 : Memref sig .tc .vmem S1x4096x64 .f32) (harg2 : arg2.IsWhole) (arg3 : Memref sig .tc .vmem S64x64 .f32) (harg3 : arg3.IsWhole) (arg4 : Memref sig .tc .vmem S64 .f32) (harg4 : arg4.IsWhole) (arg5 : Memref sig .tc .vmem S1x4096x64 .f32) (harg5 : arg5.IsWhole) (arg6 : Memref sig .tc .vmem S4096x2048 .bf16) (harg6 : arg6.IsWhole) (arg7 : Memref sig .tc .vmem S2x256x2048 .f32) (harg7 : arg7.IsWhole) (arg8 : Memref sig .tc .vmem S2048x65 .f32) (harg8 : arg8.IsWhole) (arg9 : Memref sig .tc .vmem S256x65 .f32) (harg9 : arg9.IsWhole)
    (x0 : Vec F S1x4096x64 .f32) (x1 : Vec F S64x64 .f32) (x2 : Vec F S64 .f32) (fh0 : HbBuf0 (F := F) c hbM0_0) (fs1 fs1' : BufTy.Contents (Elt F) arg7.view.ty) :
    (kernelRunRaw c i arg2 harg2 arg3 harg3 arg4 harg4 arg5 harg5 arg6 harg6 arg7 harg7 arg8 harg8 arg9 harg9 x0 x1 x2 fh0 fs1).1 = (kernelRunRaw c i arg2 harg2 arg3 harg3 arg4 harg4 arg5 harg5 arg6 harg6 arg7 harg7 arg8 harg8 arg9 harg9 x0 x1 x2 fh0 fs1').1 := by
  unfold kernelRunRaw
  dsimp only
  sl_unfold_words
  simp only [Cert.Kernel.SlotRead.read0_land0, Cert.Kernel.SlotRead.read1_land1, Cert.Kernel.SlotRead.read0_land1,
    Cert.Kernel.SlotRead.read1_land0]

set_option maxHeartbeats 2000000 in
/-- What the body's stores leave in the output's staging memref, as pieces (last first), with the proof that on whole
    staging memrefs the body runs to the continuation with those pieces written: the run from given staging contents,
    its pieces renamed by `found_indep`. -/
noncomputable def kernelRun0_A (c : Dev nD) (i : grid0.Coords) (arg2 : Memref sig .tc .vmem S1x4096x64 .f32) (harg2 : arg2.IsWhole) (arg3 : Memref sig .tc .vmem S64x64 .f32) (harg3 : arg3.IsWhole) (arg4 : Memref sig .tc .vmem S64 .f32) (harg4 : arg4.IsWhole) (arg5 : Memref sig .tc .vmem S1x4096x64 .f32) (harg5 : arg5.IsWhole) (arg6 : Memref sig .tc .vmem S4096x2048 .bf16) (harg6 : arg6.IsWhole) (arg7 : Memref sig .tc .vmem S2x256x2048 .f32) (harg7 : arg7.IsWhole) (arg8 : Memref sig .tc .vmem S2048x65 .f32) (harg8 : arg8.IsWhole) (arg9 : Memref sig .tc .vmem S256x65 .f32) (harg9 : arg9.IsWhole)
    (x0 : Vec F S1x4096x64 .f32) (x1 : Vec F S64x64 .f32) (x2 : Vec F S64 .f32) (fh0 : HbBuf0 (F := F) c hbM0_0) :
    { L3 : List (View.Piece (Elt F) S1x4096x64 .f32) //
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ semVal ((c : Thread nD τ), SemLoc.dma 6) 0 ∗ semVal ((c : Thread nD τ), SemLoc.dma 7) 0 ∗ hbPt0 c hbM0_0 fh0 ∗ owes (c : Thread nD τ) 0 W
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ semVal ((c : Thread nD τ), SemLoc.dma 6) 0 ∗ semVal ((c : Thread nD τ), SemLoc.dma 7) 0 ∗ hbPt0 c hbM0_0 fh0 ∗ (∃ W', owes (c : Thread nD τ) 0 W')) -∗ K ⟨⟩))
          ⊢ wp frame (wpE (defs₀ (F := F)) Variants.none c none) Set.univ (cc0__fused_kernel i (Memref.whole main_arg1) (Memref.isWhole_whole _) arg2 harg2 arg3 harg3 arg4 harg4 arg5 harg5 arg6 harg6 arg7 harg7 arg8 harg8 arg9 harg9 cc0_scratch4) K } :=
  ⟨(kernelRunRaw c i arg2 harg2 arg3 harg3 arg4 harg4 arg5 harg5 arg6 harg6 arg7 harg7 arg8 harg8 arg9 harg9 x0 x1 x2 fh0 arg7.view.junk).1, fun W K => by
    unfold owns
    iintro ⟨H0, H1, H2, H3, HS0, ⟨%ds1, %fs1, -, HS1⟩, HS2, HS3, Hq0, Hq1, Hh0, HW, Hk⟩
    have h := (kernelRunRaw c i arg2 harg2 arg3 harg3 arg4 harg4 arg5 harg5 arg6 harg6 arg7 harg7 arg8 harg8 arg9 harg9 x0 x1 x2 fh0 fs1).2 W K
    rw [found_indep c i arg2 harg2 arg3 harg3 arg4 harg4 arg5 harg5 arg6 harg6 arg7 harg7 arg8 harg8 arg9 harg9 x0 x1 x2 fh0 fs1 arg7.view.junk] at h
    unfold owns at h
    iapply h
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    isplitl [HS3]; · iexact HS3
    isplitl [Hq0]; · iexact Hq0
    isplitl [Hq1]; · iexact Hq1
    isplitl [Hh0]; · iexact Hh0
    isplitl [HW]; · iexact HW
    iexact Hk⟩

end Cert.Kernel.GenP

end
-- ==== Proof.KernelIdealSlotRead.lean ====
/-
  Reading a slot of the two-slot staging buffer.

  The staging buffer holds two slots of 256 × 2048 words. A transfer lands a 256 × 2048 block in ONE slot, through the
  slot's own view (the buffer sliced at the slot and the unit axis dropped); the body then loads that slot through the
  whole buffer's view, as a 1 × 256 × 2048 rectangle at the slot's offset. Two facts:
  * a slot read through a landing IN THAT SLOT is the landed block, whatever the buffer held before
    (the index behind the unit axis);
  * a slot read through a landing in THE OTHER slot is the slot read of what the buffer held before.
-/
import proofs.«414075_j24292335026750_3_alg».proof.Proof.Gen.KernelIdeal.Skeleton
import Idealize.ShloMosaic.Lib.Pipeline.Value

set_option maxRecDepth 16384

noncomputable section

namespace Cert.KernelIdeal.SlotRead

open Idealize.ShloMosaic Idealize.SL.Sem Cert.KernelIdeal Cert.KernelIdeal.Gen

variable {F : FTy → Type} [FloatOps F]

/-! ## Two general facts about a view, its rectangles and a re-indexing of one of them -/

section General

variable {sig' : RefSig} {κ : Kind} {sp : Space} {s s' : Shape} {e : EltTy} {Val : EltTy → Type}

/-- A view read after an unmasked write through a re-indexing of it: the payload at the matched index. The re-indexed
    view places index `x'` where the view places the index matched with `x'`, so the view's index `x` sits where the
    re-indexed view places the index matched with `x` the other way. -/
theorem read_write_reshape (v : View sig' κ sp s e) (h : s'.numel = s.numel) (f : v.ty.Contents Val) (w : s'.Idx → Val e) :
    v.read Val ((v.reshape s' h).write Val f w Finset.univ) = fun x => w ((Shape.reshapeEquiv h).symm x) := by
  funext x
  have e1 : v.read Val ((v.reshape s' h).write Val f w Finset.univ) x
      = (v.reshape s' h).read Val ((v.reshape s' h).write Val f w Finset.univ) ((Shape.reshapeEquiv h).symm x) := by
    have hx : v.emb x = (v.reshape s' h).emb ((Shape.reshapeEquiv h).symm x) := by
      show v.emb x = v.emb (Shape.reshapeEquiv h ((Shape.reshapeEquiv h).symm x))
      rw [Equiv.apply_symm_apply]
    rw [View.read_apply, View.read_apply, hx]
  rw [e1, View.read_write_univ]

/-- A rectangle of a view read after an unmasked write through a re-indexing of a DISJOINT rectangle of it: the old
    contents. The write changes only the elements under the other rectangle. -/
theorem read_slice_write_reshape_of_disjoint (v : View sig' κ sp s e) (r r' : Rect s) (h : s'.numel = r'.shape.numel)
    (f : v.ty.Contents Val) (w : s'.Idx → Val e) (hd : Disjoint r.set r'.set) :
    (v.slice r).read Val (((v.slice r').reshape s' h).write Val f w Finset.univ) = (v.slice r).read Val f := by
  refine View.read_congr fun i hi => View.write_of_not_mem _ _ _ fun hm => ?_
  rw [View.setOn_univ, View.set_reshape, View.set_slice] at hm
  rw [View.set_slice] at hi
  exact Finset.disjoint_left.mp ((Finset.disjoint_map v.emb).mpr hd) hi hm

end General

/-! ## The index behind the unit axis -/

/-- An index of the `1 × 256 × 2048` rectangle is matched, row-major, with its last two coordinates. -/
theorem unsqueeze_idx (h : S256x2048.numel = (⟨3, S1x256x2048.size⟩ : Shape).numel) (y : (⟨3, S1x256x2048.size⟩ : Shape).Idx) :
    (Shape.reshapeEquiv h).symm y = (fun a : Fin 2 => (y a.succ).cast rfl : S256x2048.Idx) := by
  rw [Equiv.symm_apply_eq]
  refine (Shape.reshapeEquiv_cons_one (n := 2) (d := ![256, 2048]) h _).symm ▸ ?_
  funext a
  refine Fin.cases ?_ (fun i => ?_) a
  · have h0 : (y 0).val < 1 := (y 0).isLt
    exact Fin.ext (by show (y 0).val = 0; omega)
  · exact Fin.ext rfl

/-- Slot 0 read through a landing in slot 0: the landed block. The slot's view is written out: the buffer's
    view cut at the slot's rectangle and re-indexed without the unit axis. -/
theorem read0_land0 (arg7 : Memref sig .tc .vmem S2x256x2048 .f32) (inb0 : ∀ a, (![0, 0, 0] : Fin 3 → Nat) a + (![1, 256, 2048] : Fin 3 → Nat) a ≤ S2x256x2048.size a)
    (h0 : S256x2048.numel = (Rect.unit (s := S2x256x2048) ![0, 0, 0] ![1, 256, 2048] inb0).shape.numel)
    (prev : BufTy.Contents (Elt F) arg7.view.ty) (data : S256x2048.Idx → Elt F .f32) :
    View.readAt (Elt F) arg7.view (Rect.unit (s := S2x256x2048) ![0, 0, 0] ![1, 256, 2048] inb0).toLoadRect
        (View.write (Elt F) ((arg7.view.slice (Rect.unit (s := S2x256x2048) ![0, 0, 0] ![1, 256, 2048] inb0)).reshape S256x2048 h0)
          prev data Finset.univ)
      = fun y => data (fun a => (y a.succ).cast rfl) := by
  rw [View.readAt_rect]
  refine (read_write_reshape (Val := Elt F) (arg7.view.slice (Rect.unit (s := S2x256x2048) ![0, 0, 0] ![1, 256, 2048] inb0)) h0 prev data).trans ?_
  funext y
  exact congrArg data (unsqueeze_idx _ y)

/-- Slot 1 read through a landing in slot 1: the landed block. The slot's view is written out: the buffer's
    view cut at the slot's rectangle and re-indexed without the unit axis. -/
theorem read1_land1 (arg7 : Memref sig .tc .vmem S2x256x2048 .f32) (inb1 : ∀ a, (![1, 0, 0] : Fin 3 → Nat) a + (![1, 256, 2048] : Fin 3 → Nat) a ≤ S2x256x2048.size a)
    (h1 : S256x2048.numel = (Rect.unit (s := S2x256x2048) ![1, 0, 0] ![1, 256, 2048] inb1).shape.numel)
    (prev : BufTy.Contents (Elt F) arg7.view.ty) (data : S256x2048.Idx → Elt F .f32) :
    View.readAt (Elt F) arg7.view (Rect.unit (s := S2x256x2048) ![1, 0, 0] ![1, 256, 2048] inb1).toLoadRect
        (View.write (Elt F) ((arg7.view.slice (Rect.unit (s := S2x256x2048) ![1, 0, 0] ![1, 256, 2048] inb1)).reshape S256x2048 h1)
          prev data Finset.univ)
      = fun y => data (fun a => (y a.succ).cast rfl) := by
  rw [View.readAt_rect]
  refine (read_write_reshape (Val := Elt F) (arg7.view.slice (Rect.unit (s := S2x256x2048) ![1, 0, 0] ![1, 256, 2048] inb1)) h1 prev data).trans ?_
  funext y
  exact congrArg data (unsqueeze_idx _ y)

/-- Slot 0 read through a landing in slot 1: what was there before. -/
theorem read0_land1 (arg7 : Memref sig .tc .vmem S2x256x2048 .f32) (inb0 : ∀ a, (![0, 0, 0] : Fin 3 → Nat) a + (![1, 256, 2048] : Fin 3 → Nat) a ≤ S2x256x2048.size a) (inb1 : ∀ a, (![1, 0, 0] : Fin 3 → Nat) a + (![1, 256, 2048] : Fin 3 → Nat) a ≤ S2x256x2048.size a)
    (h1 : S256x2048.numel = (Rect.unit (s := S2x256x2048) ![1, 0, 0] ![1, 256, 2048] inb1).shape.numel)
    (prev : BufTy.Contents (Elt F) arg7.view.ty) (data : S256x2048.Idx → Elt F .f32) :
    View.readAt (Elt F) arg7.view (Rect.unit (s := S2x256x2048) ![0, 0, 0] ![1, 256, 2048] inb0).toLoadRect
        (View.write (Elt F) ((arg7.view.slice (Rect.unit (s := S2x256x2048) ![1, 0, 0] ![1, 256, 2048] inb1)).reshape S256x2048 h1)
          prev data Finset.univ)
      = View.readAt (Elt F) arg7.view (Rect.unit (s := S2x256x2048) ![0, 0, 0] ![1, 256, 2048] inb0).toLoadRect prev := by
  rw [View.readAt_rect, View.readAt_rect]
  exact read_slice_write_reshape_of_disjoint (Val := Elt F) arg7.view (Rect.unit (s := S2x256x2048) ![0, 0, 0] ![1, 256, 2048] inb0)
    (Rect.unit (s := S2x256x2048) ![1, 0, 0] ![1, 256, 2048] inb1) h1 prev data
    (Rect.unit_disjoint (0 : Fin 3) (by decide))

/-- Slot 1 read through a landing in slot 0: what was there before. -/
theorem read1_land0 (arg7 : Memref sig .tc .vmem S2x256x2048 .f32) (inb1 : ∀ a, (![1, 0, 0] : Fin 3 → Nat) a + (![1, 256, 2048] : Fin 3 → Nat) a ≤ S2x256x2048.size a) (inb0 : ∀ a, (![0, 0, 0] : Fin 3 → Nat) a + (![1, 256, 2048] : Fin 3 → Nat) a ≤ S2x256x2048.size a)
    (h0 : S256x2048.numel = (Rect.unit (s := S2x256x2048) ![0, 0, 0] ![1, 256, 2048] inb0).shape.numel)
    (prev : BufTy.Contents (Elt F) arg7.view.ty) (data : S256x2048.Idx → Elt F .f32) :
    View.readAt (Elt F) arg7.view (Rect.unit (s := S2x256x2048) ![1, 0, 0] ![1, 256, 2048] inb1).toLoadRect
        (View.write (Elt F) ((arg7.view.slice (Rect.unit (s := S2x256x2048) ![0, 0, 0] ![1, 256, 2048] inb0)).reshape S256x2048 h0)
          prev data Finset.univ)
      = View.readAt (Elt F) arg7.view (Rect.unit (s := S2x256x2048) ![1, 0, 0] ![1, 256, 2048] inb1).toLoadRect prev := by
  rw [View.readAt_rect, View.readAt_rect]
  exact read_slice_write_reshape_of_disjoint (Val := Elt F) arg7.view (Rect.unit (s := S2x256x2048) ![1, 0, 0] ![1, 256, 2048] inb1)
    (Rect.unit (s := S2x256x2048) ![0, 0, 0] ![1, 256, 2048] inb0) h0 prev data
    (Rect.unit_disjoint (0 : Fin 3) (by decide))

end Cert.KernelIdeal.SlotRead

end
-- ==== Proof.KernelIdealRunA.lean ====
/-
  The body's run with a witness that does not mention the staging buffer's prior contents.

  The body streams the incidence matrix through a two-slot staging buffer. Every slot is overwritten by a landed
  block before the body loads it, so what the body computes does not depend on what the staging buffer held when the
  body began (`found_indep`: a slot read through a landing in that slot is the landed block, through a landing in the
  other slot it is the read of the older contents). The pieces the body's stores leave in the output block are
  therefore those of the run started from ANY staging contents; they are named here at the junk contents, and the
  body's triple is restated with that witness, the staging buffer's contents quantified as every other scratch's.
-/
import proofs.«414075_j24292335026750_3_alg».proof.Proof.KernelIdealRunRaw
import proofs.«414075_j24292335026750_3_alg».proof.Proof.KernelIdealSlotRead

-- membership in a rectangle of production extents (`View.cover_of_tiled`): the elaborator's structural look
-- recurses once per coordinate of the long axes
set_option maxRecDepth 16384

noncomputable section

namespace Cert.KernelIdeal.GenP

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- THE FOUND PIECES DO NOT DEPEND ON THE STAGING BUFFER'S PRIOR CONTENTS. -/
theorem found_indep (c : Dev nD) (i : grid0.Coords) (arg2 : Memref sig .tc .vmem S1x4096x64 .f32) (harg2 : arg2.IsWhole) (arg3 : Memref sig .tc .vmem S64x64 .f32) (harg3 : arg3.IsWhole) (arg4 : Memref sig .tc .vmem S64 .f32) (harg4 : arg4.IsWhole) (arg5 : Memref sig .tc .vmem S1x4096x64 .f32) (harg5 : arg5.IsWhole) (arg6 : Memref sig .tc .vmem S4096x2048 .bf16) (harg6 : arg6.IsWhole) (arg7 : Memref sig .tc .vmem S2x256x2048 .f32) (harg7 : arg7.IsWhole) (arg8 : Memref sig .tc .vmem S2048x65 .f32) (harg8 : arg8.IsWhole) (arg9 : Memref sig .tc .vmem S256x65 .f32) (harg9 : arg9.IsWhole)
    (x0 : Vec F S1x4096x64 .f32) (x1 : Vec F S64x64 .f32) (x2 : Vec F S64 .f32) (fh0 : HbBuf0 (F := F) c hbM0_0) (fs1 fs1' : BufTy.Contents (Elt F) arg7.view.ty) :
    (kernelRunRaw c i arg2 harg2 arg3 harg3 arg4 harg4 arg5 harg5 arg6 harg6 arg7 harg7 arg8 harg8 arg9 harg9 x0 x1 x2 fh0 fs1).1 = (kernelRunRaw c i arg2 harg2 arg3 harg3 arg4 harg4 arg5 harg5 arg6 harg6 arg7 harg7 arg8 harg8 arg9 harg9 x0 x1 x2 fh0 fs1').1 := by
  unfold kernelRunRaw
  dsimp only
  sl_unfold_words
  simp only [Cert.KernelIdeal.SlotRead.read0_land0, Cert.KernelIdeal.SlotRead.read1_land1, Cert.KernelIdeal.SlotRead.read0_land1,
    Cert.KernelIdeal.SlotRead.read1_land0]

set_option maxHeartbeats 2000000 in
/-- What the body's stores leave in the output's staging memref, as pieces (last first), with the proof that on whole
    staging memrefs the body runs to the continuation with those pieces written: the run from given staging contents,
    its pieces renamed by `found_indep`. -/
noncomputable def kernelRun0_A (c : Dev nD) (i : grid0.Coords) (arg2 : Memref sig .tc .vmem S1x4096x64 .f32) (harg2 : arg2.IsWhole) (arg3 : Memref sig .tc .vmem S64x64 .f32) (harg3 : arg3.IsWhole) (arg4 : Memref sig .tc .vmem S64 .f32) (harg4 : arg4.IsWhole) (arg5 : Memref sig .tc .vmem S1x4096x64 .f32) (harg5 : arg5.IsWhole) (arg6 : Memref sig .tc .vmem S4096x2048 .bf16) (harg6 : arg6.IsWhole) (arg7 : Memref sig .tc .vmem S2x256x2048 .f32) (harg7 : arg7.IsWhole) (arg8 : Memref sig .tc .vmem S2048x65 .f32) (harg8 : arg8.IsWhole) (arg9 : Memref sig .tc .vmem S256x65 .f32) (harg9 : arg9.IsWhole)
    (x0 : Vec F S1x4096x64 .f32) (x1 : Vec F S64x64 .f32) (x2 : Vec F S64 .f32) (fh0 : HbBuf0 (F := F) c hbM0_0) :
    { L3 : List (View.Piece (Elt F) S1x4096x64 .f32) //
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ semVal ((c : Thread nD τ), SemLoc.dma 6) 0 ∗ semVal ((c : Thread nD τ), SemLoc.dma 7) 0 ∗ hbPt0 c hbM0_0 fh0 ∗ owes (c : Thread nD τ) 0 W
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ semVal ((c : Thread nD τ), SemLoc.dma 6) 0 ∗ semVal ((c : Thread nD τ), SemLoc.dma 7) 0 ∗ hbPt0 c hbM0_0 fh0 ∗ (∃ W', owes (c : Thread nD τ) 0 W')) -∗ K ⟨⟩))
          ⊢ wp frame (wpE (defs₀ (F := F)) Variants.none c none) Set.univ (cc0__fused_kernel i (Memref.whole main_arg1) (Memref.isWhole_whole _) arg2 harg2 arg3 harg3 arg4 harg4 arg5 harg5 arg6 harg6 arg7 harg7 arg8 harg8 arg9 harg9 cc0_scratch4) K } :=
  ⟨(kernelRunRaw c i arg2 harg2 arg3 harg3 arg4 harg4 arg5 harg5 arg6 harg6 arg7 harg7 arg8 harg8 arg9 harg9 x0 x1 x2 fh0 arg7.view.junk).1, fun W K => by
    unfold owns
    iintro ⟨H0, H1, H2, H3, HS0, ⟨%ds1, %fs1, -, HS1⟩, HS2, HS3, Hq0, Hq1, Hh0, HW, Hk⟩
    have h := (kernelRunRaw c i arg2 harg2 arg3 harg3 arg4 harg4 arg5 harg5 arg6 harg6 arg7 harg7 arg8 harg8 arg9 harg9 x0 x1 x2 fh0 fs1).2 W K
    rw [found_indep c i arg2 harg2 arg3 harg3 arg4 harg4 arg5 harg5 arg6 harg6 arg7 harg7 arg8 harg8 arg9 harg9 x0 x1 x2 fh0 fs1 arg7.view.junk] at h
    unfold owns at h
    iapply h
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    isplitl [HS3]; · iexact HS3
    isplitl [Hq0]; · iexact Hq0
    isplitl [Hq1]; · iexact Hq1
    isplitl [Hh0]; · iexact Hh0
    isplitl [HW]; · iexact HW
    iexact Hk⟩

end Cert.KernelIdeal.GenP

end
-- ==== Proof.PreDecode.lean ====
/-
  Reading the precondition. The printed predicate is the conjunction of five whole-array tests: each of the four
  float arguments is finite (its absolute value is below +∞ everywhere), and every entry of the incidence
  argument equals 0 or equals 1. When the predicate is all ones, each test holds at every index: the first four
  say every entry is a real number, the fifth that every incidence entry is the extended real 0 or 1.
-/
import proofs.«414075_j24292335026750_3_alg».proof.Pre_finite_inputs
import proofs.«414075_j24292335026750_3_alg».proof.Proof.Gen.Pre_finite_inputs
import Idealize.ShloMosaic.Lib.ReduceAll
import Idealize.ShloMosaic.Lib.StableHlo.Predicate
import Idealize.ShloMosaic.Lib.IdealHost
import Idealize.ShloMosaic.Lib.ValueIdx
import Idealize.ShloMosaic.PureOps.Ideal.Laws

noncomputable section

namespace Cert.Hgnn.PreDecode

open Idealize.ShloMosaic Cert.Pre_finite_inputs

/-- The scalar shape has exactly one index: an index is a function out of the empty type. -/
instance subsingleton_scalar_idx : Subsingleton S_.Idx := ⟨fun _ _ => funext fun d => d.elim0⟩

/-- The bit pattern with all exponent bits set and a zero mantissa denotes +∞. -/
theorem ofBits_inf_f32 : Ideal.ofBits .f32 0x7F800000#32 = ⊤ := by simp [Ideal.ofBits, Ideal.ieee]

/-- An extended real whose absolute value `max x (-x)` is strictly below +∞ is a real number: at `⊤` the maximum
    is `⊤`, at `⊥` the negation is `⊤`, and neither is below `⊤`. -/
theorem real_of_abs_lt_top (x : EReal) (h : Ideal.cmp .olt (max x (-x)) ⊤ = 1#1) : ∃ r : ℝ, x = (r : EReal) := by
  unfold Ideal.cmp at h
  rw [StableHlo.Predicate.ofBool_eq_one_iff, decide_eq_true_eq, max_lt_iff] at h
  induction x using EReal.rec with
  | bot => exact absurd h.2 (by simp)
  | top => exact absurd h.1 (by simp)
  | coe r => exact ⟨r, rfl⟩

/-- A whole-array test "the absolute value is below +∞ everywhere" that came out true says that every entry of
    the array is a real number. The reduction by conjunction into the one-index result is true only if the compared
    bit is set at every index; there the comparison is of `max (a i) (-(a i))` against the broadcast +∞. -/
theorem real_of_all_finite {s : Shape} {axes : List (Fin s.rank)} (a : FVec Ideal s .f32)
    (hb : S_.BroadcastsInDim s (![] : Fin 0 → Fin s.rank)) (hr : s.ReducesTo axes S_) (hu : 0 < S_.numel)
    (h : Host.reduce IntOp.andi (cmpf .olt (Host.absf a) (broadcastInDim s ![] hb (constant S_ .f32 0x7F800000#32)))
        (constantI S_ 1 1#1) hr hu ValueIdx.ix0 = 1#1) (i : s.Idx) : ∃ r : ℝ, a i = (r : EReal) := by
  have e := Host.reduce_andi_all _ _ hr hu _ h i
  change Ideal.cmp .olt (max (a i) (-(a i))) (Ideal.ofBits .f32 0x7F800000#32) = 1#1 at e
  rw [ofBits_inf_f32] at e
  exact real_of_abs_lt_top (a i) e

/-- A whole-array test "the entry equals 0 or equals 1 everywhere" that came out true says just that of every
    entry: the two broadcast constants denote the extended reals 0 and 1, and a disjunction of two one-bit words is
    set exactly when one of them is. -/
theorem zero_or_one_of_all {s : Shape} {axes : List (Fin s.rank)} (a : FVec Ideal s .f32)
    (hb : S_.BroadcastsInDim s (![] : Fin 0 → Fin s.rank)) (hr : s.ReducesTo axes S_) (hu : 0 < S_.numel)
    (h : Host.reduce IntOp.andi
        (ori (cmpf .oeq a (broadcastInDim s ![] hb (constant S_ .f32 0x00000000#32)))
          (cmpf .oeq a (broadcastInDim s ![] hb (constant S_ .f32 0x3F800000#32))))
        (constantI S_ 1 1#1) hr hu ValueIdx.ix0 = 1#1) (i : s.Idx) : a i = 0 ∨ a i = 1 := by
  have e := Host.reduce_andi_all _ _ hr hu _ h i
  change IntOp.ori (Ideal.cmp .oeq (a i) (Ideal.ofBits .f32 0x00000000#32))
      (Ideal.cmp .oeq (a i) (Ideal.ofBits .f32 0x3F800000#32)) = 1#1 at e
  rw [IntOp.ori_eq_one, Ideal.ofBits_zero_f32, Ideal.ofBits_one_f32] at e
  unfold Ideal.cmp at e
  simpa only [StableHlo.Predicate.ofBool_eq_one_iff, decide_eq_true_eq] using e

/-- What the precondition says of the four argument arrays, entry by entry. -/
theorem decode [Cert.Pre_finite_inputs.Facts]
    (a0 : FVec Ideal S4x4096x64 .f32) (a1 : FVec Ideal S4x4096x2048 .f32) (a2 : FVec Ideal S64x64 .f32)
    (a3 : FVec Ideal S64 .f32)
    (h : Cert.Pre_finite_inputs.fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, a1 i = 0 ∨ a1 i = 1) := by
  -- the predicate at its one index, with the printed chain of operations in view
  have h0 := congrFun h ValueIdx.ix0
  dsimp only [fn, fn_part1] at h0
  -- the result is the conjunction, nested to the left, of the five reductions
  simp only [Idealize.ShloMosaic.andi, IntOp.andi_eq_one] at h0
  obtain ⟨⟨⟨⟨t0, t1⟩, t2⟩, t3⟩, t4⟩ := h0
  exact ⟨real_of_all_finite a0 _ _ _ t0, real_of_all_finite a1 _ _ _ t1, real_of_all_finite a2 _ _ _ t2,
    real_of_all_finite a3 _ _ _ t3, zero_or_one_of_all a1 _ _ _ t4⟩

end Cert.Hgnn.PreDecode

end
-- ==== Proof.Spec.lean ====
/-
  The mathematics of the certificate, with no program in sight.

  A hypergraph has vertices `V`, hyperedges `E` and an incidence matrix `h : V → E → ℝ` with entries 0 or 1.
  The degree of a hyperedge is its column sum, the degree of a vertex its row sum. One round of hypergraph
  message passing takes a vertex signal `y`, averages it over each hyperedge's members (`edgeMean`), and then
  averages the hyperedge values over each vertex's hyperedges (`vertMean`).

  Two arrangements of that computation meet here.
  * SUM FIRST, DIVIDE AFTER, with the divisor clamped below by one:
      (∑ v, h v e * y v) / max (deg e) 1.
  * SCALE THE INCIDENCE FIRST by the reciprocal degree, unclamped, then sum:
      ∑ v, (h v e * (1 / deg e)) * y v.
  On the reals the first is `∑ v, (h v e / max (deg e) 1) * y v` with no hypothesis at all (`vertMean_edgeMean`).
  The second agrees with that entry by entry exactly because the incidence is 0 or 1 (`incidence_scaled`): where
  `h v e = 0` both scaled entries are zero, whatever the reciprocal of the degree is (even the reciprocal of zero,
  which is +∞ on the extended reals, is annihilated by the zero factor); where `h v e = 1` the degree is a sum of
  non-negative terms one of which is 1, so it is at least 1 and the clamp does nothing.
-/
import Idealize.ShloMosaic.PureOps.Ideal.Laws
import Idealize.ShloMosaic.Lib.IdealHost
import Mathlib.Algebra.BigOperators.Field
import Mathlib.Algebra.Order.BigOperators.Group.Finset
import Mathlib.Data.EReal.Operations

noncomputable section

namespace Cert.Hgnn

open Idealize.ShloMosaic
open scoped BigOperators

/-! ## Extended reals: coercions of sums and of the clamp -/

/-- The coercion of a finite sum of reals is the sum of the coercions. -/
theorem coe_sum {ι : Type} (s : Finset ι) (f : ι → ℝ) : ((∑ i ∈ s, f i : ℝ) : EReal) = ∑ i ∈ s, (f i : EReal) := by
  induction s using Finset.cons_induction with
  | empty => simp
  | cons a s ha ih => rw [Finset.sum_cons, Finset.sum_cons, EReal.coe_add, ih]

/-- The coercion of a finite sum of products of reals. -/
theorem coe_sum_mul {ι : Type} (s : Finset ι) (f g : ι → ℝ) :
    ((∑ i ∈ s, f i * g i : ℝ) : EReal) = ∑ i ∈ s, (f i : EReal) * (g i : EReal) := by
  rw [coe_sum]; exact Finset.sum_congr rfl fun i _ => EReal.coe_mul _ _

/-- The maximum of two reals, coerced. -/
theorem coe_max (x y : ℝ) : max (x : EReal) (y : EReal) = ((max x y : ℝ) : EReal) := by
  rcases le_total x y with h | h
  · rw [max_eq_right h, max_eq_right (EReal.coe_le_coe_iff.2 h)]
  · rw [max_eq_left h, max_eq_left (EReal.coe_le_coe_iff.2 h)]

/-- A real divided by a real clamped below by one: the divisor is positive, so the quotient is the real one. -/
theorem div_max_one (a d : ℝ) : Ideal.div (a : EReal) (max (d : EReal) 1) = ((a / max d 1 : ℝ) : EReal) := by
  have hpos : max d 1 ≠ 0 := (lt_of_lt_of_le one_pos (le_max_right d 1)).ne'
  rw [← EReal.coe_one, coe_max, Ideal.div_coe hpos, ← EReal.coe_mul, mul_one_div]

/-- AN INCIDENCE ENTRY TIMES THE RECIPROCAL DEGREE. For an entry that is 0, or that is 1 with degree at least 1, the
    product with the extended-real reciprocal of the degree is the entry over the clamped degree. -/
theorem incidence_scaled {a d : ℝ} (h : a = 0 ∨ (a = 1 ∧ 1 ≤ d)) :
    (a : EReal) * Ideal.div 1 (d : EReal) = ((a / max d 1 : ℝ) : EReal) := by
  rcases h with rfl | ⟨rfl, hd⟩
  · rw [EReal.coe_zero, zero_mul, zero_div, EReal.coe_zero]
  · have hd0 : d ≠ 0 := (lt_of_lt_of_le one_pos hd).ne'
    rw [Ideal.div_coe hd0, max_eq_left hd, EReal.coe_one, one_mul, one_mul]

/-! ## Splitting a sum over 4096 rows into 16 chunks of 256 -/

/-- Row `256 * j + r` of 4096, for chunk `j` of 16 and row `r` of the chunk. -/
def chunkRow (j : Fin 16) (r : Fin 256) : Fin 4096 := ⟨256 * j.val + r.val, by have := j.isLt; have := r.isLt; omega⟩

/-- A sum over 4096 rows is the sum over 16 chunks of the sums over the chunk's 256 rows. -/
theorem sum_chunks {M : Type} [AddCommMonoid M] (f : Fin 4096 → M) :
    ∑ v : Fin 4096, f v = ∑ j : Fin 16, ∑ r : Fin 256, f (chunkRow j r) := by
  rw [← Fintype.sum_prod_type']
  refine (Fintype.sum_equiv (finProdFinEquiv (m := 16) (n := 256)) _ _ fun p => ?_).symm
  congr 1
  apply Fin.ext
  simp only [chunkRow, finProdFinEquiv_apply_val]
  omega

/-- Row `256 * k + r` of 4096 for a chunk number given as a natural number (reduced modulo 4096, so that it is total). -/
def chunkRowN (k : ℕ) (r : Fin 256) : Fin 4096 := ⟨(256 * k + r.val) % 4096, Nat.mod_lt _ (by norm_num)⟩

theorem chunkRowN_eq (j : Fin 16) (r : Fin 256) : chunkRowN j.val r = chunkRow j r := by
  apply Fin.ext
  have := j.isLt; have := r.isLt
  simp only [chunkRowN, chunkRow]
  omega

/-! ## The specification -/

section Spec
variable {V E : Type} [Fintype V] [Fintype E]

/-- The degree of a hyperedge: its column sum. -/
def degE (h : V → E → ℝ) (e : E) : ℝ := ∑ v, h v e
/-- The degree of a vertex: its row sum. -/
def degV (h : V → E → ℝ) (v : V) : ℝ := ∑ e, h v e
/-- Vertex signal to hyperedges: the incidence-weighted sum over the degree clamped below by one. -/
def edgeMean (h : V → E → ℝ) (y : V → ℝ) (e : E) : ℝ := (∑ v, h v e * y v) / max (degE h e) 1
/-- Hyperedge signal to vertices: the incidence-weighted sum over the degree clamped below by one. -/
def vertMean (h : V → E → ℝ) (z : E → ℝ) (v : V) : ℝ := (∑ e, h v e * z e) / max (degV h v) 1

/-- THE LAW ON THE REALS: dividing after the sum is scaling the incidence before it. No hypothesis. -/
theorem vertMean_edgeMean (h : V → E → ℝ) (y : V → ℝ) (v : V) :
    vertMean h (edgeMean h y) v
      = ∑ e, (h v e / max (degV h v) 1) * ∑ v', (h v' e / max (degE h e) 1) * y v' := by
  unfold vertMean edgeMean
  rw [Finset.sum_div]
  refine Finset.sum_congr rfl fun e _ => ?_
  have : ∑ v', (h v' e / max (degE h e) 1) * y v' = (∑ v', h v' e * y v') / max (degE h e) 1 := by
    rw [Finset.sum_div]; exact Finset.sum_congr rfl fun v' _ => div_mul_eq_mul_div _ _ _
  rw [this, div_mul_eq_mul_div]

/-- With entries 0 or 1, an entry equal to 1 forces its hyperedge's degree to be at least 1. -/
theorem one_le_degE {h : V → E → ℝ} (h01 : ∀ v e, h v e = 0 ∨ h v e = 1) {v : V} {e : E} (hve : h v e = 1) :
    1 ≤ degE h e := by
  have hnn : ∀ v' ∈ Finset.univ, 0 ≤ h v' e := fun v' _ => by
    rcases h01 v' e with h0 | h1
    · rw [h0]
    · rw [h1]; exact zero_le_one
  calc (1 : ℝ) = h v e := hve.symm
    _ ≤ ∑ v', h v' e := Finset.single_le_sum hnn (Finset.mem_univ v)

/-- The same for a vertex. -/
theorem one_le_degV {h : V → E → ℝ} (h01 : ∀ v e, h v e = 0 ∨ h v e = 1) {v : V} {e : E} (hve : h v e = 1) :
    1 ≤ degV h v := by
  have hnn : ∀ e' ∈ Finset.univ, 0 ≤ h v e' := fun e' _ => by
    rcases h01 v e' with h0 | h1
    · rw [h0]
    · rw [h1]; exact zero_le_one
  calc (1 : ℝ) = h v e := hve.symm
    _ ≤ ∑ e', h v e' := Finset.single_le_sum hnn (Finset.mem_univ e)

/-- The incidence scaled by the extended-real reciprocal of the hyperedge degree (a sum started from zero). -/
theorem scaled_by_degE {h : V → E → ℝ} (h01 : ∀ v e, h v e = 0 ∨ h v e = 1) (v : V) (e : E) :
    (h v e : EReal) * Ideal.div 1 (0 + ∑ v', (h v' e : EReal)) = ((h v e / max (degE h e) 1 : ℝ) : EReal) := by
  rw [zero_add, ← coe_sum]
  exact incidence_scaled ((h01 v e).imp id fun h1 => ⟨h1, one_le_degE h01 h1⟩)

/-- The incidence scaled by the extended-real reciprocal of the vertex degree (a sum started from zero). -/
theorem scaled_by_degV {h : V → E → ℝ} (h01 : ∀ v e, h v e = 0 ∨ h v e = 1) (v : V) (e : E) :
    (h v e : EReal) * Ideal.div 1 (0 + ∑ e', (h v e' : EReal)) = ((h v e / max (degV h v) 1 : ℝ) : EReal) := by
  rw [zero_add, ← coe_sum]
  exact incidence_scaled ((h01 v e).imp id fun h1 => ⟨h1, one_le_degV h01 h1⟩)

/-- THE SCALE-FIRST ARRANGEMENT ON THE EXTENDED REALS, for a 0/1 incidence, is the specification. -/
theorem scale_first_eq {h : V → E → ℝ} (h01 : ∀ v e, h v e = 0 ∨ h v e = 1) (y : V → ℝ) (v : V) :
    ∑ e, ((h v e : EReal) * Ideal.div 1 (0 + ∑ e', (h v e' : EReal)))
        * ∑ v', ((h v' e : EReal) * Ideal.div 1 (0 + ∑ v'', (h v'' e : EReal))) * (y v' : EReal)
      = ((vertMean h (edgeMean h y) v : ℝ) : EReal) := by
  rw [vertMean_edgeMean, coe_sum]
  refine Finset.sum_congr rfl fun e _ => ?_
  rw [scaled_by_degV h01, EReal.coe_mul, coe_sum]
  congr 1
  refine Finset.sum_congr rfl fun v' _ => ?_
  rw [scaled_by_degE h01, EReal.coe_mul]

end Spec

/-! ## The kernel's intermediate quantities -/

/-- The projected features of a batch element with a column of ones appended as column 64. -/
def yaug (xr : Fin 4096 → Fin 64 → ℝ) (θ : Fin 64 → Fin 64 → ℝ) (v : Fin 4096) (o : Fin 65) : ℝ :=
  if hlt : o.val < 64 then ∑ k, xr v k * θ k ⟨o.val, hlt⟩ else 1

/-- The vertex → hyperedge contraction over the first `k` chunks of 256 vertices. -/
def zpart (h : Fin 4096 → Fin 2048 → ℝ) (ya : Fin 4096 → Fin 65 → ℝ) : ℕ → Fin 2048 → Fin 65 → ℝ
  | 0, _, _ => 0
  | k + 1, e, o => zpart h ya k e o + ∑ r : Fin 256, h (chunkRowN k r) e * ya (chunkRowN k r) o

/-- Sixteen chunks are all 4096 vertices. -/
theorem zpart_sixteen (h : Fin 4096 → Fin 2048 → ℝ) (ya : Fin 4096 → Fin 65 → ℝ) (e : Fin 2048) (o : Fin 65) :
    zpart h ya 16 e o = ∑ v, h v e * ya v o := by
  have key : ∀ k : ℕ, zpart h ya k e o
      = ∑ j ∈ Finset.range k, ∑ r : Fin 256, h (chunkRowN j r) e * ya (chunkRowN j r) o := by
    intro k
    induction k with
    | zero => simp [zpart]
    | succ k ih => rw [Finset.sum_range_succ, ← ih]; rfl
  rw [key, sum_chunks (fun v => h v e * ya v o), Finset.sum_range]
  exact Finset.sum_congr rfl fun j _ => Finset.sum_congr rfl fun r _ => by rw [chunkRowN_eq]

/-! ## The result over the four argument arrays -/

/-- The projected vertex features `x · θ` of batch element `n`. -/
def proj (x : Fin 4 → Fin 4096 → Fin 64 → ℝ) (θ : Fin 64 → Fin 64 → ℝ) (n : Fin 4) (v : Fin 4096) (o : Fin 64) : ℝ :=
  ∑ c, x n v c * θ c o

/-- The layer's output: project, pass vertex → hyperedge → vertex with clamped mean normalisation, add the bias. -/
def result (x : Fin 4 → Fin 4096 → Fin 64 → ℝ) (H : Fin 4 → Fin 4096 → Fin 2048 → ℝ) (θ : Fin 64 → Fin 64 → ℝ)
    (b : Fin 64 → ℝ) (n : Fin 4) (v : Fin 4096) (o : Fin 64) : ℝ :=
  vertMean (H n) (edgeMean (H n) fun v' => proj x θ n v' o) v + b o

end Cert.Hgnn

end
-- ==== Proof.RefSide.lean ====
/-
  The reference program's result, entry by entry, is the specification.

  The reference scales the incidence matrix by the reciprocal degrees first and contracts afterwards:
  with h = H n, y = x n · θ,
    out n v o = (∑ e, (h v e * (1 / ∑ e', h v e')) * ∑ v', (h v' e * (1 / ∑ v'', h v'' e)) * y v' o) + b o,
  each degree sum started from zero. For real-valued arguments whose incidence entries are 0 or 1 this is the
  specification's sum-then-divide form with the clamped degree (Spec: scale_first_eq).

  The file reads the reference one stage at a time, each at explicit coordinates:
  the two degree sums, their reciprocals, the two scaled incidences, the projection x · θ, the
  vertex-to-hyperedge contraction, the bias, and last the hyperedge-to-vertex contraction plus the bias.
-/
import proofs.«414075_j24292335026750_3_alg».proof.Proof.Gen.ReferenceIdeal.Read
import proofs.«414075_j24292335026750_3_alg».proof.Proof.Spec
import Idealize.ShloMosaic.Lib.ValueIdx
import Idealize.ShloMosaic.Lib.IdealHost
import Idealize.ShloMosaic.PureOps.Ideal.Laws

noncomputable section

namespace Cert.Hgnn.RefSide

open Idealize.ShloMosaic Idealize.ShloMosaic.ValueIdx Cert.ReferenceIdeal Cert.ReferenceIdeal.Gen
open Cert.ReferenceIdeal.Read
open scoped BigOperators

/-! ## The incidence side: degree sums, their reciprocals, the scaled incidences -/

section Incidence
variable (a1 : (⟨S4x4096x2048, .f32⟩ : BufTy).Contents (Elt Ideal)) (H : Fin 4 → Fin 4096 → Fin 2048 → ℝ)
  (hH : ∀ n v e, a1 (ix3 n v e) = (H n v e : EReal))
include hH

/-- The row sum of the incidence (a vertex's degree), started from zero. -/
theorem rowSum_eq (n : Fin 4) (v : Fin 4096) :
    val_main_v0 (F := Ideal) a1 (ix2 n v) = 0 + ∑ e : Fin 2048, (H n v e : EReal) := by
  rw [val_main_v0_apply, val_main_cst_apply, Ideal.ofBits_def, Ideal.ofBits_zero_f32]
  refine congrArg (0 + ·) (Finset.sum_congr rfl fun k _ => ?_)
  rw [show idx_main_v0 (ix2 n v) k = ix3 n v k from
    funext fun a => match a with | ⟨0, _⟩ => rfl | ⟨1, _⟩ => rfl | ⟨2, _⟩ => rfl]
  exact hH n v k

/-- The column sum of the incidence (a hyperedge's degree), started from zero. -/
theorem colSum_eq (n : Fin 4) (e : Fin 2048) :
    val_main_v3 (F := Ideal) a1 (ix2 n e) = 0 + ∑ v : Fin 4096, (H n v e : EReal) := by
  rw [val_main_v3_apply, val_main_cst_1_apply, Ideal.ofBits_def, Ideal.ofBits_zero_f32]
  refine congrArg (0 + ·) (Finset.sum_congr rfl fun k _ => ?_)
  rw [show idx_main_v3 (ix2 n e) k = ix3 n k e from
    funext fun a => match a with | ⟨0, _⟩ => rfl | ⟨1, _⟩ => rfl | ⟨2, _⟩ => rfl]
  exact hH n k e

/-- The reciprocal of a vertex's degree. -/
theorem rowRecip_eq (n : Fin 4) (v : Fin 4096) :
    val_main_v2 (F := Ideal) a1 (ix2 n v) = Ideal.div 1 (0 + ∑ e : Fin 2048, (H n v e : EReal)) := by
  rw [val_main_v2_apply, val_main_v1_apply, val_main_cst_0_apply, Ideal.ofBits_def, Ideal.ofBits_one_f32,
    Ideal.hostDivf_def, rowSum_eq a1 H hH]

/-- The reciprocal of a hyperedge's degree. -/
theorem colRecip_eq (n : Fin 4) (e : Fin 2048) :
    val_main_v5 (F := Ideal) a1 (ix2 n e) = Ideal.div 1 (0 + ∑ v : Fin 4096, (H n v e : EReal)) := by
  rw [val_main_v5_apply, val_main_v4_apply, val_main_cst_2_apply, Ideal.ofBits_def, Ideal.ofBits_one_f32,
    Ideal.hostDivf_def, colSum_eq a1 H hH]

/-- The incidence scaled by the reciprocal vertex degree. -/
theorem rowScaled_eq (n : Fin 4) (v : Fin 4096) (e : Fin 2048) :
    val_main_v13 (F := Ideal) a1 (ix3 n v e)
      = (H n v e : EReal) * Ideal.div 1 (0 + ∑ e' : Fin 2048, (H n v e' : EReal)) := by
  rw [val_main_v13_apply, val_main_v12_apply, val_main_v11_apply, Ideal.mulf_def, hH]
  rw [show idx_main_v11 (idx_main_v12 (ix3 n v e)) = ix2 n v from
    funext fun a => match a with | ⟨0, _⟩ => rfl | ⟨1, _⟩ => rfl]
  rw [rowRecip_eq a1 H hH]

/-- The incidence scaled by the reciprocal hyperedge degree. -/
theorem colScaled_eq (n : Fin 4) (v : Fin 4096) (e : Fin 2048) :
    val_main_v9 (F := Ideal) a1 (ix3 n v e)
      = (H n v e : EReal) * Ideal.div 1 (0 + ∑ v' : Fin 4096, (H n v' e : EReal)) := by
  rw [val_main_v9_apply, val_main_v8_apply, val_main_v7_apply, Ideal.mulf_def, hH]
  rw [show idx_main_v7 (idx_main_v8 (ix3 n v e)) = ix2 n e from
    funext fun a => match a with | ⟨0, _⟩ => rfl | ⟨1, _⟩ => rfl]
  rw [colRecip_eq a1 H hH]

end Incidence

/-! ## The signal side: the projection and the bias -/

/-- The projected vertex features: the contraction of x with θ over the input channel is the real projection. -/
theorem proj_eq (a0 : (⟨S4x4096x64, .f32⟩ : BufTy).Contents (Elt Ideal)) (a2 : (⟨S64x64, .f32⟩ : BufTy).Contents (Elt Ideal))
    (x : Fin 4 → Fin 4096 → Fin 64 → ℝ) (θ : Fin 64 → Fin 64 → ℝ)
    (hx : ∀ n v c, a0 (ix3 n v c) = (x n v c : EReal)) (hθ : ∀ c o, a2 (ix2 c o) = (θ c o : EReal))
    (n : Fin 4) (v : Fin 4096) (o : Fin 64) :
    val_main_v6 (F := Ideal) a0 a2 (ix3 n v o) = ((Cert.Hgnn.proj x θ n v o : ℝ) : EReal) := by
  rw [val_main_v6_apply, Cert.Hgnn.proj, Cert.Hgnn.coe_sum_mul]
  refine Finset.sum_congr rfl fun k _ => ?_
  rw [show lidx_main_v6 (ix3 n v o) k = ix3 n v k from
      funext fun a => match a with | ⟨0, _⟩ => rfl | ⟨1, _⟩ => rfl | ⟨2, _⟩ => rfl,
    show ridx_main_v6 (ix3 n v o) k = ix2 k o from
      funext fun a => match a with | ⟨0, _⟩ => rfl | ⟨1, _⟩ => rfl,
    hx, hθ]

/-- The bias, broadcast over batch and vertex. -/
theorem bias_eq (a3 : (⟨S64, .f32⟩ : BufTy).Contents (Elt Ideal)) (b : Fin 64 → ℝ)
    (hb : ∀ o, a3 (ix1 o) = (b o : EReal)) (n : Fin 4) (v : Fin 4096) (o : Fin 64) :
    val_main_v16 (F := Ideal) a3 (ix3 n v o) = (b o : EReal) := by
  rw [val_main_v16_apply, val_main_v15_apply]
  rw [show idx_main_v15 (idx_main_v16 (ix3 n v o)) = ix1 o from
    funext fun a => match a with | ⟨0, _⟩ => rfl]
  exact hb o

/-! ## The two contractions -/

/-- Vertex to hyperedge: the scaled incidence contracted with the projected features over the vertices. -/
theorem edgeStage_eq
    (a0 : (⟨S4x4096x64, .f32⟩ : BufTy).Contents (Elt Ideal)) (a1 : (⟨S4x4096x2048, .f32⟩ : BufTy).Contents (Elt Ideal))
    (a2 : (⟨S64x64, .f32⟩ : BufTy).Contents (Elt Ideal))
    (x : Fin 4 → Fin 4096 → Fin 64 → ℝ) (H : Fin 4 → Fin 4096 → Fin 2048 → ℝ) (θ : Fin 64 → Fin 64 → ℝ)
    (hx : ∀ n v c, a0 (ix3 n v c) = (x n v c : EReal)) (hH : ∀ n v e, a1 (ix3 n v e) = (H n v e : EReal))
    (hθ : ∀ c o, a2 (ix2 c o) = (θ c o : EReal)) (n : Fin 4) (e : Fin 2048) (o : Fin 64) :
    val_main_v10 (F := Ideal) a0 a1 a2 (ix3 n e o)
      = ∑ v' : Fin 4096, ((H n v' e : EReal) * Ideal.div 1 (0 + ∑ v'' : Fin 4096, (H n v'' e : EReal)))
          * ((Cert.Hgnn.proj x θ n v' o : ℝ) : EReal) := by
  rw [val_main_v10_apply]
  refine Finset.sum_congr rfl fun k _ => ?_
  rw [show lidx_main_v10 (ix3 n e o) k = ix3 n k e from
      funext fun a => match a with | ⟨0, _⟩ => rfl | ⟨1, _⟩ => rfl | ⟨2, _⟩ => rfl,
    show ridx_main_v10 (ix3 n e o) k = ix3 n k o from
      funext fun a => match a with | ⟨0, _⟩ => rfl | ⟨1, _⟩ => rfl | ⟨2, _⟩ => rfl,
    colScaled_eq a1 H hH, proj_eq a0 a2 x θ hx hθ]

/-- The reference's last stage at index (n, v, o), for real-valued arguments with a 0/1 incidence. -/
theorem reference_eq
    (a0 : (⟨S4x4096x64, .f32⟩ : BufTy).Contents (Elt Ideal)) (a1 : (⟨S4x4096x2048, .f32⟩ : BufTy).Contents (Elt Ideal))
    (a2 : (⟨S64x64, .f32⟩ : BufTy).Contents (Elt Ideal)) (a3 : (⟨S64, .f32⟩ : BufTy).Contents (Elt Ideal))
    (x : Fin 4 → Fin 4096 → Fin 64 → ℝ) (H : Fin 4 → Fin 4096 → Fin 2048 → ℝ) (θ : Fin 64 → Fin 64 → ℝ) (b : Fin 64 → ℝ)
    (hx : ∀ n v c, a0 (ix3 n v c) = (x n v c : EReal)) (hH : ∀ n v e, a1 (ix3 n v e) = (H n v e : EReal))
    (hθ : ∀ c o, a2 (ix2 c o) = (θ c o : EReal)) (hb : ∀ o, a3 (ix1 o) = (b o : EReal))
    (h01 : ∀ n v e, H n v e = 0 ∨ H n v e = 1) (n : Fin 4) (v : Fin 4096) (o : Fin 64) :
    Cert.ReferenceIdeal.Read.val_main_v17 (F := Ideal) a0 a1 a2 a3 (ix3 n v o)
      = ((Cert.Hgnn.result x H θ b n v o : ℝ) : EReal) := by
  rw [val_main_v17_apply, Ideal.addf_def, val_main_v14_apply, bias_eq a3 b hb, Cert.Hgnn.result, EReal.coe_add,
    ← Cert.Hgnn.scale_first_eq (h := H n) (h01 n) (fun v' => Cert.Hgnn.proj x θ n v' o) v]
  refine congrArg (· + (b o : EReal)) (Finset.sum_congr rfl fun k _ => ?_)
  rw [show lidx_main_v14 (ix3 n v o) k = ix3 n v k from
      funext fun a => match a with | ⟨0, _⟩ => rfl | ⟨1, _⟩ => rfl | ⟨2, _⟩ => rfl,
    show ridx_main_v14 (ix3 n v o) k = ix3 n k o from
      funext fun a => match a with | ⟨0, _⟩ => rfl | ⟨1, _⟩ => rfl | ⟨2, _⟩ => rfl,
    rowScaled_eq a1 H hH, edgeStage_eq a0 a1 a2 x H θ hx hH hθ]

end Cert.Hgnn.RefSide

end
-- ==== Proof.Payloads.lean ====
/-
  The kernel body's arithmetic, read entry by entry on the extended reals.

  Four pure steps carry all of the kernel's arithmetic; each is read here at explicit coordinates.
  * the projection of a chunk of 256 vertices: (x · θ) r o = ∑ c, x r c * θ c o;
  * one accumulation step of the vertex → hyperedge contraction: z e o + ∑ r, h r e * y r o over the chunk's rows;
  * the hyperedge normalisation: z e o / max (z e 64) 1, column 64 carrying the hyperedge's degree;
  * one output chunk of the hyperedge → vertex contraction, normalised by the vertex degree (column 64 of the
    product, the hyperedge features' column 64 being all ones) and shifted by the bias.
  A change of float format is the identity on the extended reals, so the bf16 copies are the values themselves.
-/
import proofs.«414075_j24292335026750_3_alg».proof.Proof.Gen.KernelIdeal.Skeleton
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.Hgnn.Payloads

open Idealize.ShloMosaic Idealize.ShloMosaic.ValueIdx Cert.KernelIdeal Cert.KernelIdeal.Gen
open scoped BigOperators

/-! ## Layout steps read at coordinates -/

/-- A column `[a, 1]` broadcast along the rows of `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The first 64 columns of a `[n, 65]` matrix, read at `(e, o)`: the matrix at `(e, o)`. -/
theorem slice_head_apply {α : Type} {n : ℕ} (X : (⟨2, ![n, 65]⟩ : Shape).Idx → α)
    (h : (⟨2, ![n, 65]⟩ : Shape).Slices ![0, 0] ⟨2, ![n, 64]⟩) (e : Fin n) (o : Fin 64) :
    extractStridedSlice ⟨2, ![n, 64]⟩ ![0, 0] X h (ix2 e o) = X (ix2 e o.castSucc) :=
  slice2_axis1_apply 0 X h e o o.castSucc (Nat.zero_add _).symm

/-- The last column of a `[n, 65]` matrix, read at `(e, 0)`: the matrix at `(e, 64)`. -/
theorem slice_last_apply {α : Type} {n : ℕ} (X : (⟨2, ![n, 65]⟩ : Shape).Idx → α)
    (h : (⟨2, ![n, 65]⟩ : Shape).Slices ![0, 64] ⟨2, ![n, 1]⟩) (e : Fin n) (u : Fin 1) :
    extractStridedSlice ⟨2, ![n, 1]⟩ ![0, 64] X h (ix2 e u) = X (ix2 e (Fin.last 64)) :=
  slice2_axis1_apply 64 X h e u (Fin.last 64) (by have := u.isLt; show 64 = 64 + u.val; omega)

/-- The bit pattern of the float one, as the scalar the body broadcasts, is the extended real one. -/
theorem scalar_one : (Scalar.ofBits (F := Ideal) .f32 0x3F800000#32 : Ideal .f32) = 1 := Ideal.ofBits_one_f32

/-- The bit pattern of the float zero, as the scalar the body broadcasts, is the extended real zero. -/
theorem scalar_zero : (Scalar.ofBits (F := Ideal) .f32 0x00000000#32 : Ideal .f32) = 0 := Ideal.ofBits_zero_f32

/-! ## The three constant blocks -/

/-- The zero block the accumulator starts from. -/
theorem zeros_apply (i : S2048x65.Idx) : k0_pay19 (F := Ideal) i = 0 := by
  unfold k0_pay19
  rw [shapeCast_self, broadcast_apply]
  exact scalar_zero

/-- The column of ones appended to a chunk's projected features. -/
theorem ones_apply (i : S256x1.Idx) : k0_pay22 (F := Ideal) i = 1 := by
  unfold k0_pay22
  rw [shapeCast_self, broadcast_apply]
  exact scalar_one

/-- The column of ones appended to the normalised hyperedge features. -/
theorem ones_edge_apply (i : S2048x1.Idx) : k0_pay81 (F := Ideal) i = 1 := by
  unfold k0_pay81
  rw [shapeCast_self, broadcast_apply]
  exact scalar_one

/-- The hyperedge normalisation: channel o of hyperedge e over its degree (column 64) clamped below by one. -/
theorem norm_apply (z : Vec Ideal S2048x65 .f32) (e : Fin 2048) (o : Fin 64) :
    k0_pay80 (F := Ideal) (k0_pay77 z) (k0_pay78 z) k0_pay79 (ix2 e o)
      = Ideal.div (z (ix2 e o.castSucc)) (max (z (ix2 e (Fin.last 64))) 1) := by
  unfold k0_pay80 k0_pay77 k0_pay78 k0_pay79
  dsimp only
  rw [shapeCast_self, divf_apply, broadcastTo_a1_ab_apply, maximumf_apply, broadcast_apply, slice_head_apply,
    slice_last_apply, scalar_one]

/-! ## The projection's product: `[256, 64]` by `[64, 64]`, the left operand's columns against the right operand's rows -/

theorem lhs_proj_0 (i : S256x64.Idx) (q : dot_S256x64_S64x64_S256x64_1_0_0_1_n_n.contr.Idx) :
    (dot_S256x64_S64x64_S256x64_1_0_0_1_n_n.lhsIdx i q 0).val = (i 0).val := by
  unfold DotDims.lhsIdx
  rw [dif_neg (show ¬(0 : Fin S256x64.rank) ∈ dot_S256x64_S64x64_S256x64_1_0_0_1_n_n.lhsBatch by decide), dif_pos (show (0 : Fin S256x64.rank) ∈ dot_S256x64_S64x64_S256x64_1_0_0_1_n_n.lhsNonContracting by decide)]
  rfl
theorem lhs_proj_1 (i : S256x64.Idx) (q : dot_S256x64_S64x64_S256x64_1_0_0_1_n_n.contr.Idx) :
    (dot_S256x64_S64x64_S256x64_1_0_0_1_n_n.lhsIdx i q 1).val = (q ⟨0, by decide⟩).val :=
  dot_S256x64_S64x64_S256x64_1_0_0_1_n_n.lhsIdx_val_of_single rfl i q
theorem rhs_proj_0 (i : S256x64.Idx) (q : dot_S256x64_S64x64_S256x64_1_0_0_1_n_n.contr.Idx) :
    (dot_S256x64_S64x64_S256x64_1_0_0_1_n_n.rhsIdx i q 0).val = (q ⟨0, by decide⟩).val :=
  dot_S256x64_S64x64_S256x64_1_0_0_1_n_n.rhsIdx_val_of_single rfl i q
theorem rhs_proj_1 (i : S256x64.Idx) (q : dot_S256x64_S64x64_S256x64_1_0_0_1_n_n.contr.Idx) :
    (dot_S256x64_S64x64_S256x64_1_0_0_1_n_n.rhsIdx i q 1).val = (i 1).val := by
  unfold DotDims.rhsIdx
  rw [dif_neg (show ¬(1 : Fin S64x64.rank) ∈ dot_S256x64_S64x64_S256x64_1_0_0_1_n_n.rhsBatch by decide), dif_pos (show (1 : Fin S64x64.rank) ∈ dot_S256x64_S64x64_S256x64_1_0_0_1_n_n.rhsNonContracting by decide)]
  rfl

/-- Into a zero accumulator the product at `(r, o)` is the sum over the shared index `c` of row `r` of the left operand
    against column `o` of the right. -/
theorem proj_matmul_apply (x : FVec Ideal S256x64 .bf16) (θ : FVec Ideal S64x64 .bf16) (r : Fin 256) (o : Fin 64) :
    matmul dot_S256x64_S64x64_S256x64_1_0_0_1_n_n none x θ (constant (F := Ideal) S256x64 .f32 0x00000000#32) (ix2 r o)
      = ∑ c : Fin 64, x (ix2 r c) * θ (ix2 c o) := by
  simp only [matmul]
  rw [Ideal.matmul_constant_zero_apply, ← Equiv.sum_comp (contrEquiv1 dot_S256x64_S64x64_S256x64_1_0_0_1_n_n 64 rfl rfl).symm]
  refine Finset.sum_congr rfl fun k _ => ?_
  have hk := contrEquiv1_symm_val dot_S256x64_S64x64_S256x64_1_0_0_1_n_n 64 rfl rfl k
  have el : dot_S256x64_S64x64_S256x64_1_0_0_1_n_n.lhsIdx (ix2 r o) ((contrEquiv1 dot_S256x64_S64x64_S256x64_1_0_0_1_n_n 64 rfl rfl).symm k) = ix2 r k := funext fun a => Fin.ext (by
    match a with
    | ⟨0, _⟩ => exact lhs_proj_0 _ _
    | ⟨1, _⟩ => exact (lhs_proj_1 _ _).trans hk)
  have er : dot_S256x64_S64x64_S256x64_1_0_0_1_n_n.rhsIdx (ix2 r o) ((contrEquiv1 dot_S256x64_S64x64_S256x64_1_0_0_1_n_n 64 rfl rfl).symm k) = ix2 k o := funext fun a => Fin.ext (by
    match a with
    | ⟨0, _⟩ => exact (rhs_proj_0 _ _).trans hk
    | ⟨1, _⟩ => exact rhs_proj_1 _ _)
  rw [el, er]

/-! ## The vertex → hyperedge product: `[256, 2048]` by `[256, 65]`, both operands contracted along their rows -/

theorem lhs_acc_0 (i : S2048x65.Idx) (q : dot_S256x2048_S256x65_S2048x65_0_0_1_1_n_n.contr.Idx) :
    (dot_S256x2048_S256x65_S2048x65_0_0_1_1_n_n.lhsIdx i q 0).val = (q ⟨0, by decide⟩).val :=
  dot_S256x2048_S256x65_S2048x65_0_0_1_1_n_n.lhsIdx_val_of_single rfl i q
theorem lhs_acc_1 (i : S2048x65.Idx) (q : dot_S256x2048_S256x65_S2048x65_0_0_1_1_n_n.contr.Idx) :
    (dot_S256x2048_S256x65_S2048x65_0_0_1_1_n_n.lhsIdx i q 1).val = (i 0).val := by
  unfold DotDims.lhsIdx
  rw [dif_neg (show ¬(1 : Fin S256x2048.rank) ∈ dot_S256x2048_S256x65_S2048x65_0_0_1_1_n_n.lhsBatch by decide), dif_pos (show (1 : Fin S256x2048.rank) ∈ dot_S256x2048_S256x65_S2048x65_0_0_1_1_n_n.lhsNonContracting by decide)]
  rfl
theorem rhs_acc_0 (i : S2048x65.Idx) (q : dot_S256x2048_S256x65_S2048x65_0_0_1_1_n_n.contr.Idx) :
    (dot_S256x2048_S256x65_S2048x65_0_0_1_1_n_n.rhsIdx i q 0).val = (q ⟨0, by decide⟩).val :=
  dot_S256x2048_S256x65_S2048x65_0_0_1_1_n_n.rhsIdx_val_of_single rfl i q
theorem rhs_acc_1 (i : S2048x65.Idx) (q : dot_S256x2048_S256x65_S2048x65_0_0_1_1_n_n.contr.Idx) :
    (dot_S256x2048_S256x65_S2048x65_0_0_1_1_n_n.rhsIdx i q 1).val = (i 1).val := by
  unfold DotDims.rhsIdx
  rw [dif_neg (show ¬(1 : Fin S256x65.rank) ∈ dot_S256x2048_S256x65_S2048x65_0_0_1_1_n_n.rhsBatch by decide), dif_pos (show (1 : Fin S256x65.rank) ∈ dot_S256x2048_S256x65_S2048x65_0_0_1_1_n_n.rhsNonContracting by decide)]
  rfl

/-- Into a zero accumulator the product at `(e, o)` is the sum over the chunk's rows `r` of column `e` of the left operand
    against column `o` of the right. -/
theorem acc_matmul_apply (h : FVec Ideal S256x2048 .bf16) (y : FVec Ideal S256x65 .bf16) (e : Fin 2048) (o : Fin 65) :
    matmul dot_S256x2048_S256x65_S2048x65_0_0_1_1_n_n none h y (constant (F := Ideal) S2048x65 .f32 0x00000000#32) (ix2 e o)
      = ∑ r : Fin 256, h (ix2 r e) * y (ix2 r o) := by
  simp only [matmul]
  rw [Ideal.matmul_constant_zero_apply, ← Equiv.sum_comp (contrEquiv1 dot_S256x2048_S256x65_S2048x65_0_0_1_1_n_n 256 rfl rfl).symm]
  refine Finset.sum_congr rfl fun k _ => ?_
  have hk := contrEquiv1_symm_val dot_S256x2048_S256x65_S2048x65_0_0_1_1_n_n 256 rfl rfl k
  have el : dot_S256x2048_S256x65_S2048x65_0_0_1_1_n_n.lhsIdx (ix2 e o) ((contrEquiv1 dot_S256x2048_S256x65_S2048x65_0_0_1_1_n_n 256 rfl rfl).symm k) = ix2 k e := funext fun a => Fin.ext (by
    match a with
    | ⟨0, _⟩ => exact (lhs_acc_0 _ _).trans hk
    | ⟨1, _⟩ => exact lhs_acc_1 _ _)
  have er : dot_S256x2048_S256x65_S2048x65_0_0_1_1_n_n.rhsIdx (ix2 e o) ((contrEquiv1 dot_S256x2048_S256x65_S2048x65_0_0_1_1_n_n 256 rfl rfl).symm k) = ix2 k o := funext fun a => Fin.ext (by
    match a with
    | ⟨0, _⟩ => exact (rhs_acc_0 _ _).trans hk
    | ⟨1, _⟩ => exact rhs_acc_1 _ _)
  rw [el, er]

/-! ## The hyperedge → vertex product: `[256, 2048]` by `[2048, 65]`, the left operand's columns against the right operand's rows -/

theorem lhs_out_0 (i : S256x65.Idx) (q : dot_S256x2048_S2048x65_S256x65_1_0_0_1_n_n.contr.Idx) :
    (dot_S256x2048_S2048x65_S256x65_1_0_0_1_n_n.lhsIdx i q 0).val = (i 0).val := by
  unfold DotDims.lhsIdx
  rw [dif_neg (show ¬(0 : Fin S256x2048.rank) ∈ dot_S256x2048_S2048x65_S256x65_1_0_0_1_n_n.lhsBatch by decide), dif_pos (show (0 : Fin S256x2048.rank) ∈ dot_S256x2048_S2048x65_S256x65_1_0_0_1_n_n.lhsNonContracting by decide)]
  rfl
theorem lhs_out_1 (i : S256x65.Idx) (q : dot_S256x2048_S2048x65_S256x65_1_0_0_1_n_n.contr.Idx) :
    (dot_S256x2048_S2048x65_S256x65_1_0_0_1_n_n.lhsIdx i q 1).val = (q ⟨0, by decide⟩).val :=
  dot_S256x2048_S2048x65_S256x65_1_0_0_1_n_n.lhsIdx_val_of_single rfl i q
theorem rhs_out_0 (i : S256x65.Idx) (q : dot_S256x2048_S2048x65_S256x65_1_0_0_1_n_n.contr.Idx) :
    (dot_S256x2048_S2048x65_S256x65_1_0_0_1_n_n.rhsIdx i q 0).val = (q ⟨0, by decide⟩).val :=
  dot_S256x2048_S2048x65_S256x65_1_0_0_1_n_n.rhsIdx_val_of_single rfl i q
theorem rhs_out_1 (i : S256x65.Idx) (q : dot_S256x2048_S2048x65_S256x65_1_0_0_1_n_n.contr.Idx) :
    (dot_S256x2048_S2048x65_S256x65_1_0_0_1_n_n.rhsIdx i q 1).val = (i 1).val := by
  unfold DotDims.rhsIdx
  rw [dif_neg (show ¬(1 : Fin S2048x65.rank) ∈ dot_S256x2048_S2048x65_S256x65_1_0_0_1_n_n.rhsBatch by decide), dif_pos (show (1 : Fin S2048x65.rank) ∈ dot_S256x2048_S2048x65_S256x65_1_0_0_1_n_n.rhsNonContracting by decide)]
  rfl

/-- Into a zero accumulator the product at `(r, c)` is the sum over the hyperedges `e` of row `r` of the left operand
    against column `c` of the right. -/
theorem out_matmul_apply (h : FVec Ideal S256x2048 .bf16) (y : FVec Ideal S2048x65 .bf16) (r : Fin 256) (c : Fin 65) :
    matmul dot_S256x2048_S2048x65_S256x65_1_0_0_1_n_n none h y (constant (F := Ideal) S256x65 .f32 0x00000000#32) (ix2 r c)
      = ∑ e : Fin 2048, h (ix2 r e) * y (ix2 e c) := by
  simp only [matmul]
  rw [Ideal.matmul_constant_zero_apply, ← Equiv.sum_comp (contrEquiv1 dot_S256x2048_S2048x65_S256x65_1_0_0_1_n_n 2048 rfl rfl).symm]
  refine Finset.sum_congr rfl fun k _ => ?_
  have hk := contrEquiv1_symm_val dot_S256x2048_S2048x65_S256x65_1_0_0_1_n_n 2048 rfl rfl k
  have el : dot_S256x2048_S2048x65_S256x65_1_0_0_1_n_n.lhsIdx (ix2 r c) ((contrEquiv1 dot_S256x2048_S2048x65_S256x65_1_0_0_1_n_n 2048 rfl rfl).symm k) = ix2 r k := funext fun a => Fin.ext (by
    match a with
    | ⟨0, _⟩ => exact lhs_out_0 _ _
    | ⟨1, _⟩ => exact (lhs_out_1 _ _).trans hk)
  have er : dot_S256x2048_S2048x65_S256x65_1_0_0_1_n_n.rhsIdx (ix2 r c) ((contrEquiv1 dot_S256x2048_S2048x65_S256x65_1_0_0_1_n_n 2048 rfl rfl).symm k) = ix2 k c := funext fun a => Fin.ext (by
    match a with
    | ⟨0, _⟩ => exact (rhs_out_0 _ _).trans hk
    | ⟨1, _⟩ => exact rhs_out_1 _ _)
  rw [el, er]

/-! ## The three steps that contract -/

/-- The projection of one chunk: row r, output channel o. -/
theorem proj_apply (θb : FVec Ideal S64x64 .bf16) (xj : Vec Ideal S1x256x64 .f32) (r : Fin 256) (o : Fin 64) :
    k0_pay21 (F := Ideal) θb xj (ix2 r o) = ∑ c : Fin 64, xj (ix3 (0 : Fin 1) r c) * θb (ix2 c o) := by
  unfold k0_pay21
  rw [shapeCast_self, proj_matmul_apply]
  refine Finset.sum_congr rfl fun c _ => ?_
  rw [truncf_apply, shapeCast_1ab_ab_apply]

/-- One accumulation step: the chunk's incidence rows against the chunk's augmented features, added to the accumulator. -/
theorem accum_apply (hb : Vec Ideal S256x2048 .bf16) (ya : Vec Ideal S256x65 .f32) (z : Vec Ideal S2048x65 .f32)
    (e : Fin 2048) (o : Fin 65) :
    k0_pay23 (F := Ideal) hb ya z (ix2 e o) = z (ix2 e o) + ∑ r : Fin 256, hb (ix2 r e) * ya (ix2 r o) := by
  unfold k0_pay23
  rw [shapeCast_self, addf_apply, acc_matmul_apply]
  refine congrArg (z (ix2 e o) + ·) (Finset.sum_congr rfl fun r _ => ?_)
  rw [truncf_apply]

/-- One output chunk: row r of the chunk, channel o. -/
theorem out_apply (ye : FVec Ideal S2048x65 .bf16) (bias : Vec Ideal S64 .f32) (hb : Vec Ideal S256x2048 .bf16)
    (r : Fin 256) (o : Fin 64) :
    k0_pay86 (F := Ideal) ye bias hb (ix3 (0 : Fin 1) r o)
      = Ideal.div (∑ e : Fin 2048, hb (ix2 r e) * ye (ix2 e o.castSucc))
          (max (∑ e : Fin 2048, hb (ix2 r e) * ye (ix2 e (Fin.last 64))) 1) + bias (ix1 o) := by
  unfold k0_pay86
  rw [shapeCast_ab_1ab_apply, addf_apply, divf_apply, broadcastTo_a1_ab_apply, maximumf_apply, broadcast_apply,
    slice_head_apply, slice_last_apply, scalar_one, out_matmul_apply, out_matmul_apply, broadcastTo_1b_ab_apply,
    shapeCast_a_1a_apply]

end Cert.Hgnn.Payloads

end
-- ==== Proof.KernelHb.lean ====
/-
  The resident incidence matrix, chunk by chunk.

  The body streams the batch element's incidence matrix (4096 × 2048) into a resident buffer in sixteen chunks of 256
  rows, each landed in a staging slot, loaded from it, and stored to the resident buffer at rows 256·k … 256·k + 255
  (a change of float format, the identity on the extended reals). Every later load of chunk k of the resident buffer
  therefore reads rows 256·k … of the incidence matrix itself.
-/
import proofs.«414075_j24292335026750_3_alg».proof.Proof.KernelIdealRunRaw
import proofs.«414075_j24292335026750_3_alg».proof.Proof.KernelIdealSlotRead
import proofs.«414075_j24292335026750_3_alg».proof.Proof.Payloads
import proofs.«414075_j24292335026750_3_alg».proof.Proof.Spec
import Idealize.ShloMosaic.Lib.ValueIdx
import Idealize.ShloMosaic.Lib.Pipeline.Value

set_option maxRecDepth 16384

noncomputable section

namespace Cert.Hgnn.KernelHb

open Idealize.ShloMosaic Idealize.ShloMosaic.ValueIdx Idealize.SL.Sem
open Cert.KernelIdeal Cert.KernelIdeal.Gen Cert.KernelIdeal.GenP Cert.Hgnn

/-! ## A chunk of the incidence matrix, as the transfer reads it out of the array left in memory -/

/-- Rows `256 k … 256 k + 255` of batch element `n` of the argument array, read through the transfer's source view (the
    array cut at the batch element, its unit axis dropped, then cut at row `256 k`): entry `(y 0, y 1)` of the chunk is
    entry `(n, 256 k + y 0, y 1)` of the array. -/
theorem landed (c : Dev nD) (i : grid0.Coords) (fh0 : HbBuf0 (F := Ideal) c hbM0_0) (n : Fin 4) (hn : (i 0).val = n.val)
    (k : ℕ) (hk : k < 16) (inb : ∀ a, (![256 * k, 0] : Fin 2 → ℕ) a + S256x2048.size a ≤ S4096x2048.size a)
    (pf1 : ∀ a, (Rect.unit (s := S4x4096x2048) (k0_off1 i) S1x4096x2048.size (k0_off1_inb i)).stride a = 1)
    (pf2 : ∀ a, (Rect.unit (s := S4096x2048) ![256 * k, 0] S256x2048.size inb).stride a = 1) (y : S256x2048.Idx) :
    ReadAs.same.apply (View.read (Elt Ideal)
      ((((Memref.whole main_arg1).slice (Rect.unit (s := S4x4096x2048) (k0_off1 i) S1x4096x2048.size (k0_off1_inb i)) pf1).squeeze
          S4096x2048 squeezes_S1x4096x2048_S4096x2048).slice (Rect.unit (s := S4096x2048) ![256 * k, 0] S256x2048.size inb) pf2).view fh0) y
      = fh0 (ix3 n (chunkRowN k (y 0)) (y 1)) := by
  show fh0 _ = fh0 _
  refine congrArg fh0 (funext fun a => Fin.ext ?_)
  show k0_off1 i a + 1 * ((Shape.reshapeEquiv (Shape.Squeezes.numel_eq squeezes_S1x4096x2048_S4096x2048)
      ((Rect.unit (s := S4096x2048) ![256 * k, 0] S256x2048.size inb).emb y)) a).val = _
  rw [Shape.reshapeEquiv_cons_one (n := 2) (d := ![4096, 2048])]
  have hoff : ∀ a, k0_off1 i a = (![(i 0).val, 0, 0] : Fin 3 → ℕ) a := fun a => congrFun (k0_off1_eq i) a
  refine Fin.cases ?_ (fun b => ?_) a
  · have h0 := hoff 0
    show k0_off1 i 0 + 1 * 0 = n.val
    rw [h0]
    show (i 0).val + 1 * 0 = n.val
    omega
  · refine Fin.cases ?_ (fun b' => ?_) b
    · have h1 := hoff 1
      have hy : (y 0).val < 256 := (y 0).isLt
      show k0_off1 i 1 + 1 * (256 * k + 1 * (y 0).val) = (256 * k + (y 0).val) % 4096
      rw [h1]
      show 0 + 1 * (256 * k + 1 * (y 0).val) = (256 * k + (y 0).val) % 4096
      omega
    · have hb : b' = 0 := Subsingleton.elim _ _
      subst hb
      have h2 := hoff 2
      show k0_off1 i 2 + 1 * (0 + 1 * (y 1).val) = (y 1).val
      rw [h2]
      show 0 + 1 * (0 + 1 * (y 1).val) = (y 1).val
      omega

/-! ## The sixteen loads of the staging buffer, and the sixteen transfers -/

section Chunks
variable (c : Dev nD) (i : grid0.Coords) (arg7 : Memref sig .tc .vmem S2x256x2048 .f32)
  (fh0 : HbBuf0 (F := Ideal) c hbM0_0) (fs1 : BufTy.Contents (Elt Ideal) arg7.view.ty)
  (n : Fin 4) (hn : (i 0).val = n.val)

/-- Load 0 of the staging buffer reads slot 0, where transfer 0 landed last. -/
theorem slot_0 : kernelRunRaw.sl.v21 (F := Ideal) c i arg7 fh0 fs1
    = fun y => kernelRunRaw.sl.dma0 (F := Ideal) c i fh0 (fun a => (y a.succ).cast rfl) := by
  unfold kernelRunRaw.sl.v21
  simp only [SlotRead.read0_land1, SlotRead.read0_land0]

/-- Load 1 of the staging buffer reads slot 1, where transfer 1 landed last. -/
theorem slot_1 : kernelRunRaw.sl.v41 (F := Ideal) c i arg7 fh0 fs1
    = fun y => kernelRunRaw.sl.dma0_1 (F := Ideal) c i fh0 (fun a => (y a.succ).cast rfl) := by
  unfold kernelRunRaw.sl.v41
  simp only [SlotRead.read1_land0, SlotRead.read1_land1]

/-- Load 2 of the staging buffer reads slot 0, where transfer 2 landed last. -/
theorem slot_2 : kernelRunRaw.sl.v61 (F := Ideal) c i arg7 fh0 fs1
    = fun y => kernelRunRaw.sl.dma3 (F := Ideal) c i fh0 (fun a => (y a.succ).cast rfl) := by
  unfold kernelRunRaw.sl.v61
  simp only [SlotRead.read0_land1, SlotRead.read0_land0]

/-- Load 3 of the staging buffer reads slot 1, where transfer 3 landed last. -/
theorem slot_3 : kernelRunRaw.sl.v81 (F := Ideal) c i arg7 fh0 fs1
    = fun y => kernelRunRaw.sl.dma6 (F := Ideal) c i fh0 (fun a => (y a.succ).cast rfl) := by
  unfold kernelRunRaw.sl.v81
  simp only [SlotRead.read1_land0, SlotRead.read1_land1]

/-- Load 4 of the staging buffer reads slot 0, where transfer 4 landed last. -/
theorem slot_4 : kernelRunRaw.sl.v101 (F := Ideal) c i arg7 fh0 fs1
    = fun y => kernelRunRaw.sl.dma9 (F := Ideal) c i fh0 (fun a => (y a.succ).cast rfl) := by
  unfold kernelRunRaw.sl.v101
  simp only [SlotRead.read0_land1, SlotRead.read0_land0]

/-- Load 5 of the staging buffer reads slot 1, where transfer 5 landed last. -/
theorem slot_5 : kernelRunRaw.sl.v121 (F := Ideal) c i arg7 fh0 fs1
    = fun y => kernelRunRaw.sl.dma12 (F := Ideal) c i fh0 (fun a => (y a.succ).cast rfl) := by
  unfold kernelRunRaw.sl.v121
  simp only [SlotRead.read1_land0, SlotRead.read1_land1]

/-- Load 6 of the staging buffer reads slot 0, where transfer 6 landed last. -/
theorem slot_6 : kernelRunRaw.sl.v141 (F := Ideal) c i arg7 fh0 fs1
    = fun y => kernelRunRaw.sl.dma15 (F := Ideal) c i fh0 (fun a => (y a.succ).cast rfl) := by
  unfold kernelRunRaw.sl.v141
  simp only [SlotRead.read0_land1, SlotRead.read0_land0]

/-- Load 7 of the staging buffer reads slot 1, where transfer 7 landed last. -/
theorem slot_7 : kernelRunRaw.sl.v161 (F := Ideal) c i arg7 fh0 fs1
    = fun y => kernelRunRaw.sl.dma18 (F := Ideal) c i fh0 (fun a => (y a.succ).cast rfl) := by
  unfold kernelRunRaw.sl.v161
  simp only [SlotRead.read1_land0, SlotRead.read1_land1]

/-- Load 8 of the staging buffer reads slot 0, where transfer 8 landed last. -/
theorem slot_8 : kernelRunRaw.sl.v181 (F := Ideal) c i arg7 fh0 fs1
    = fun y => kernelRunRaw.sl.dma21 (F := Ideal) c i fh0 (fun a => (y a.succ).cast rfl) := by
  unfold kernelRunRaw.sl.v181
  simp only [SlotRead.read0_land1, SlotRead.read0_land0]

/-- Load 9 of the staging buffer reads slot 1, where transfer 9 landed last. -/
theorem slot_9 : kernelRunRaw.sl.v201 (F := Ideal) c i arg7 fh0 fs1
    = fun y => kernelRunRaw.sl.dma24 (F := Ideal) c i fh0 (fun a => (y a.succ).cast rfl) := by
  unfold kernelRunRaw.sl.v201
  simp only [SlotRead.read1_land0, SlotRead.read1_land1]

/-- Load 10 of the staging buffer reads slot 0, where transfer 10 landed last. -/
theorem slot_10 : kernelRunRaw.sl.v221 (F := Ideal) c i arg7 fh0 fs1
    = fun y => kernelRunRaw.sl.dma27 (F := Ideal) c i fh0 (fun a => (y a.succ).cast rfl) := by
  unfold kernelRunRaw.sl.v221
  simp only [SlotRead.read0_land1, SlotRead.read0_land0]

/-- Load 11 of the staging buffer reads slot 1, where transfer 11 landed last. -/
theorem slot_11 : kernelRunRaw.sl.v241 (F := Ideal) c i arg7 fh0 fs1
    = fun y => kernelRunRaw.sl.dma30 (F := Ideal) c i fh0 (fun a => (y a.succ).cast rfl) := by
  unfold kernelRunRaw.sl.v241
  simp only [SlotRead.read1_land0, SlotRead.read1_land1]

/-- Load 12 of the staging buffer reads slot 0, where transfer 12 landed last. -/
theorem slot_12 : kernelRunRaw.sl.v261 (F := Ideal) c i arg7 fh0 fs1
    = fun y => kernelRunRaw.sl.dma33 (F := Ideal) c i fh0 (fun a => (y a.succ).cast rfl) := by
  unfold kernelRunRaw.sl.v261
  simp only [SlotRead.read0_land1, SlotRead.read0_land0]

/-- Load 13 of the staging buffer reads slot 1, where transfer 13 landed last. -/
theorem slot_13 : kernelRunRaw.sl.v281 (F := Ideal) c i arg7 fh0 fs1
    = fun y => kernelRunRaw.sl.dma36 (F := Ideal) c i fh0 (fun a => (y a.succ).cast rfl) := by
  unfold kernelRunRaw.sl.v281
  simp only [SlotRead.read1_land0, SlotRead.read1_land1]

/-- Load 14 of the staging buffer reads slot 0, where transfer 14 landed last. -/
theorem slot_14 : kernelRunRaw.sl.v301 (F := Ideal) c i arg7 fh0 fs1
    = fun y => kernelRunRaw.sl.dma39 (F := Ideal) c i fh0 (fun a => (y a.succ).cast rfl) := by
  unfold kernelRunRaw.sl.v301
  simp only [SlotRead.read0_land1, SlotRead.read0_land0]

/-- Load 15 of the staging buffer reads slot 1, where transfer 15 landed last. -/
theorem slot_15 : kernelRunRaw.sl.v314 (F := Ideal) c i arg7 fh0 fs1
    = fun y => kernelRunRaw.sl.dma42 (F := Ideal) c i fh0 (fun a => (y a.succ).cast rfl) := by
  unfold kernelRunRaw.sl.v314
  simp only [SlotRead.read1_land1]

include hn in
section
/-- Transfer 0 carries rows 0 … 255 of the batch element's incidence matrix. -/
theorem landed_0 (y : S256x2048.Idx) : kernelRunRaw.sl.dma0 (F := Ideal) c i fh0 y
    = fh0 (ix3 n (chunkRowN 0 (y 0)) (y 1)) := by
  unfold kernelRunRaw.sl.dma0
  exact landed c i fh0 n hn 0 (by norm_num) _ _ _ y

/-- Transfer 1 carries rows 256 … 511 of the batch element's incidence matrix. -/
theorem landed_1 (y : S256x2048.Idx) : kernelRunRaw.sl.dma0_1 (F := Ideal) c i fh0 y
    = fh0 (ix3 n (chunkRowN 1 (y 0)) (y 1)) := by
  unfold kernelRunRaw.sl.dma0_1
  exact landed c i fh0 n hn 1 (by norm_num) _ _ _ y

/-- Transfer 2 carries rows 512 … 767 of the batch element's incidence matrix. -/
theorem landed_2 (y : S256x2048.Idx) : kernelRunRaw.sl.dma3 (F := Ideal) c i fh0 y
    = fh0 (ix3 n (chunkRowN 2 (y 0)) (y 1)) := by
  unfold kernelRunRaw.sl.dma3
  exact landed c i fh0 n hn 2 (by norm_num) _ _ _ y

/-- Transfer 3 carries rows 768 … 1023 of the batch element's incidence matrix. -/
theorem landed_3 (y : S256x2048.Idx) : kernelRunRaw.sl.dma6 (F := Ideal) c i fh0 y
    = fh0 (ix3 n (chunkRowN 3 (y 0)) (y 1)) := by
  unfold kernelRunRaw.sl.dma6
  exact landed c i fh0 n hn 3 (by norm_num) _ _ _ y

/-- Transfer 4 carries rows 1024 … 1279 of the batch element's incidence matrix. -/
theorem landed_4 (y : S256x2048.Idx) : kernelRunRaw.sl.dma9 (F := Ideal) c i fh0 y
    = fh0 (ix3 n (chunkRowN 4 (y 0)) (y 1)) := by
  unfold kernelRunRaw.sl.dma9
  exact landed c i fh0 n hn 4 (by norm_num) _ _ _ y

/-- Transfer 5 carries rows 1280 … 1535 of the batch element's incidence matrix. -/
theorem landed_5 (y : S256x2048.Idx) : kernelRunRaw.sl.dma12 (F := Ideal) c i fh0 y
    = fh0 (ix3 n (chunkRowN 5 (y 0)) (y 1)) := by
  unfold kernelRunRaw.sl.dma12
  exact landed c i fh0 n hn 5 (by norm_num) _ _ _ y

/-- Transfer 6 carries rows 1536 … 1791 of the batch element's incidence matrix. -/
theorem landed_6 (y : S256x2048.Idx) : kernelRunRaw.sl.dma15 (F := Ideal) c i fh0 y
    = fh0 (ix3 n (chunkRowN 6 (y 0)) (y 1)) := by
  unfold kernelRunRaw.sl.dma15
  exact landed c i fh0 n hn 6 (by norm_num) _ _ _ y

/-- Transfer 7 carries rows 1792 … 2047 of the batch element's incidence matrix. -/
theorem landed_7 (y : S256x2048.Idx) : kernelRunRaw.sl.dma18 (F := Ideal) c i fh0 y
    = fh0 (ix3 n (chunkRowN 7 (y 0)) (y 1)) := by
  unfold kernelRunRaw.sl.dma18
  exact landed c i fh0 n hn 7 (by norm_num) _ _ _ y

/-- Transfer 8 carries rows 2048 … 2303 of the batch element's incidence matrix. -/
theorem landed_8 (y : S256x2048.Idx) : kernelRunRaw.sl.dma21 (F := Ideal) c i fh0 y
    = fh0 (ix3 n (chunkRowN 8 (y 0)) (y 1)) := by
  unfold kernelRunRaw.sl.dma21
  exact landed c i fh0 n hn 8 (by norm_num) _ _ _ y

/-- Transfer 9 carries rows 2304 … 2559 of the batch element's incidence matrix. -/
theorem landed_9 (y : S256x2048.Idx) : kernelRunRaw.sl.dma24 (F := Ideal) c i fh0 y
    = fh0 (ix3 n (chunkRowN 9 (y 0)) (y 1)) := by
  unfold kernelRunRaw.sl.dma24
  exact landed c i fh0 n hn 9 (by norm_num) _ _ _ y

/-- Transfer 10 carries rows 2560 … 2815 of the batch element's incidence matrix. -/
theorem landed_10 (y : S256x2048.Idx) : kernelRunRaw.sl.dma27 (F := Ideal) c i fh0 y
    = fh0 (ix3 n (chunkRowN 10 (y 0)) (y 1)) := by
  unfold kernelRunRaw.sl.dma27
  exact landed c i fh0 n hn 10 (by norm_num) _ _ _ y

/-- Transfer 11 carries rows 2816 … 3071 of the batch element's incidence matrix. -/
theorem landed_11 (y : S256x2048.Idx) : kernelRunRaw.sl.dma30 (F := Ideal) c i fh0 y
    = fh0 (ix3 n (chunkRowN 11 (y 0)) (y 1)) := by
  unfold kernelRunRaw.sl.dma30
  exact landed c i fh0 n hn 11 (by norm_num) _ _ _ y

/-- Transfer 12 carries rows 3072 … 3327 of the batch element's incidence matrix. -/
theorem landed_12 (y : S256x2048.Idx) : kernelRunRaw.sl.dma33 (F := Ideal) c i fh0 y
    = fh0 (ix3 n (chunkRowN 12 (y 0)) (y 1)) := by
  unfold kernelRunRaw.sl.dma33
  exact landed c i fh0 n hn 12 (by norm_num) _ _ _ y

/-- Transfer 13 carries rows 3328 … 3583 of the batch element's incidence matrix. -/
theorem landed_13 (y : S256x2048.Idx) : kernelRunRaw.sl.dma36 (F := Ideal) c i fh0 y
    = fh0 (ix3 n (chunkRowN 13 (y 0)) (y 1)) := by
  unfold kernelRunRaw.sl.dma36
  exact landed c i fh0 n hn 13 (by norm_num) _ _ _ y

/-- Transfer 14 carries rows 3584 … 3839 of the batch element's incidence matrix. -/
theorem landed_14 (y : S256x2048.Idx) : kernelRunRaw.sl.dma39 (F := Ideal) c i fh0 y
    = fh0 (ix3 n (chunkRowN 14 (y 0)) (y 1)) := by
  unfold kernelRunRaw.sl.dma39
  exact landed c i fh0 n hn 14 (by norm_num) _ _ _ y

/-- Transfer 15 carries rows 3840 … 4095 of the batch element's incidence matrix. -/
theorem landed_15 (y : S256x2048.Idx) : kernelRunRaw.sl.dma42 (F := Ideal) c i fh0 y
    = fh0 (ix3 n (chunkRowN 15 (y 0)) (y 1)) := by
  unfold kernelRunRaw.sl.dma42
  exact landed c i fh0 n hn 15 (by norm_num) _ _ _ y

end

end Chunks

/-! ## The resident buffer's pieces are the incidence matrix -/

section Resident
variable (c : Dev nD) (i : grid0.Coords) (arg6 : Memref sig .tc .vmem S4096x2048 .bf16)
  (arg7 : Memref sig .tc .vmem S2x256x2048 .f32)
  (fh0 : HbBuf0 (F := Ideal) c hbM0_0) (fs1 : BufTy.Contents (Elt Ideal) arg7.view.ty)
  (n : Fin 4) (hn : (i 0).val = n.val)

/-- The batch element's incidence matrix: entry `(v, e)` of batch element `n` of the argument array. -/
def Hmat : S4096x2048.Idx → Elt Ideal .bf16 := fun y => fh0 (ix3 n (y 0) (y 1))

/-- One stored chunk: a loaded `1 × 256 × 2048` block that holds rows `256 k …` of the matrix behind its unit axis,
    with the unit axis dropped and the float format changed (the identity on the extended reals), is the matrix
    at the chunk's rectangle. -/
theorem piece_eq (k : ℕ) (hk : k < 16) (inb : ∀ a, (![256 * k, 0] : Fin 2 → ℕ) a + S256x2048.size a ≤ S4096x2048.size a)
    (v : FVec Ideal S1x256x2048 .f32) (dma : S256x2048.Idx → Ideal .f32)
    (hv : v = fun y => dma (fun a => (y a.succ).cast rfl))
    (hd : ∀ y, dma y = fh0 (ix3 n (chunkRowN k (y 0)) (y 1)))
    (h1 : S1x256x2048.ShapeCasts S256x2048) (h2 : FTy.bits .bf16 < FTy.bits .f32) (h3 : S256x2048.ShapeCasts S256x2048)
    (x : S256x2048.Idx) :
    shapeCast S256x2048 (truncf (F := Ideal) .bf16 (shapeCast S256x2048 v h1) h2) h3 x
      = Hmat c fh0 n ((Rect.unit (s := S4096x2048) ![256 * k, 0] S256x2048.size inb).emb x) := by
  obtain ⟨a, b, rfl⟩ : ∃ a b, x = ix2 a b := ⟨x 0, x 1, eq_ix2 x⟩
  rw [shapeCast_self, truncf_apply, shapeCast_1ab_ab_apply, hv]
  show dma _ = Hmat c fh0 n _
  rw [hd]
  unfold Hmat
  have ha : a.val < 256 := a.isLt
  refine congrArg fh0 (congrArg₂ (ix3 n) (Fin.ext ?_) (Fin.ext ?_))
  · show (256 * k + a.val) % 4096 = 256 * k + 1 * a.val
    omega
  · show b.val = 0 + 1 * b.val
    omega

include hn in
/-- Every piece the body stored into the resident buffer is the matrix at the piece's rectangle. -/
theorem pieces_agree : ∀ p ∈ kernelRunRaw.sl.HS0_16 (F := Ideal) c i arg7 fh0 fs1, ∀ x : p.1.shape.Idx,
    p.2 x = Hmat c fh0 n (p.1.emb x) := by
  unfold kernelRunRaw.sl.HS0_16
  refine List.forall_mem_cons.mpr ⟨fun x => piece_eq c fh0 n 15 (by norm_num) inb_S4096x2048_S256x2048_3840_0
    (kernelRunRaw.sl.v314 (F := Ideal) c i arg7 fh0 fs1) (kernelRunRaw.sl.dma42 (F := Ideal) c i fh0)
    (slot_15 c i arg7 fh0 fs1) (landed_15 c i fh0 n hn)
    shapeCasts_S1x256x2048_S256x2048 bitsLt_bf16_f32 shapeCasts_S256x2048_S256x2048 x, ?_⟩
  refine List.forall_mem_cons.mpr ⟨fun x => piece_eq c fh0 n 14 (by norm_num) inb_S4096x2048_S256x2048_3584_0
    (kernelRunRaw.sl.v301 (F := Ideal) c i arg7 fh0 fs1) (kernelRunRaw.sl.dma39 (F := Ideal) c i fh0)
    (slot_14 c i arg7 fh0 fs1) (landed_14 c i fh0 n hn)
    shapeCasts_S1x256x2048_S256x2048 bitsLt_bf16_f32 shapeCasts_S256x2048_S256x2048 x, ?_⟩
  refine List.forall_mem_cons.mpr ⟨fun x => piece_eq c fh0 n 13 (by norm_num) inb_S4096x2048_S256x2048_3328_0
    (kernelRunRaw.sl.v281 (F := Ideal) c i arg7 fh0 fs1) (kernelRunRaw.sl.dma36 (F := Ideal) c i fh0)
    (slot_13 c i arg7 fh0 fs1) (landed_13 c i fh0 n hn)
    shapeCasts_S1x256x2048_S256x2048 bitsLt_bf16_f32 shapeCasts_S256x2048_S256x2048 x, ?_⟩
  refine List.forall_mem_cons.mpr ⟨fun x => piece_eq c fh0 n 12 (by norm_num) inb_S4096x2048_S256x2048_3072_0
    (kernelRunRaw.sl.v261 (F := Ideal) c i arg7 fh0 fs1) (kernelRunRaw.sl.dma33 (F := Ideal) c i fh0)
    (slot_12 c i arg7 fh0 fs1) (landed_12 c i fh0 n hn)
    shapeCasts_S1x256x2048_S256x2048 bitsLt_bf16_f32 shapeCasts_S256x2048_S256x2048 x, ?_⟩
  refine List.forall_mem_cons.mpr ⟨fun x => piece_eq c fh0 n 11 (by norm_num) inb_S4096x2048_S256x2048_2816_0
    (kernelRunRaw.sl.v241 (F := Ideal) c i arg7 fh0 fs1) (kernelRunRaw.sl.dma30 (F := Ideal) c i fh0)
    (slot_11 c i arg7 fh0 fs1) (landed_11 c i fh0 n hn)
    shapeCasts_S1x256x2048_S256x2048 bitsLt_bf16_f32 shapeCasts_S256x2048_S256x2048 x, ?_⟩
  refine List.forall_mem_cons.mpr ⟨fun x => piece_eq c fh0 n 10 (by norm_num) inb_S4096x2048_S256x2048_2560_0
    (kernelRunRaw.sl.v221 (F := Ideal) c i arg7 fh0 fs1) (kernelRunRaw.sl.dma27 (F := Ideal) c i fh0)
    (slot_10 c i arg7 fh0 fs1) (landed_10 c i fh0 n hn)
    shapeCasts_S1x256x2048_S256x2048 bitsLt_bf16_f32 shapeCasts_S256x2048_S256x2048 x, ?_⟩
  refine List.forall_mem_cons.mpr ⟨fun x => piece_eq c fh0 n 9 (by norm_num) inb_S4096x2048_S256x2048_2304_0
    (kernelRunRaw.sl.v201 (F := Ideal) c i arg7 fh0 fs1) (kernelRunRaw.sl.dma24 (F := Ideal) c i fh0)
    (slot_9 c i arg7 fh0 fs1) (landed_9 c i fh0 n hn)
    shapeCasts_S1x256x2048_S256x2048 bitsLt_bf16_f32 shapeCasts_S256x2048_S256x2048 x, ?_⟩
  refine List.forall_mem_cons.mpr ⟨fun x => piece_eq c fh0 n 8 (by norm_num) inb_S4096x2048_S256x2048_2048_0
    (kernelRunRaw.sl.v181 (F := Ideal) c i arg7 fh0 fs1) (kernelRunRaw.sl.dma21 (F := Ideal) c i fh0)
    (slot_8 c i arg7 fh0 fs1) (landed_8 c i fh0 n hn)
    shapeCasts_S1x256x2048_S256x2048 bitsLt_bf16_f32 shapeCasts_S256x2048_S256x2048 x, ?_⟩
  refine List.forall_mem_cons.mpr ⟨fun x => piece_eq c fh0 n 7 (by norm_num) inb_S4096x2048_S256x2048_1792_0
    (kernelRunRaw.sl.v161 (F := Ideal) c i arg7 fh0 fs1) (kernelRunRaw.sl.dma18 (F := Ideal) c i fh0)
    (slot_7 c i arg7 fh0 fs1) (landed_7 c i fh0 n hn)
    shapeCasts_S1x256x2048_S256x2048 bitsLt_bf16_f32 shapeCasts_S256x2048_S256x2048 x, ?_⟩
  refine List.forall_mem_cons.mpr ⟨fun x => piece_eq c fh0 n 6 (by norm_num) inb_S4096x2048_S256x2048_1536_0
    (kernelRunRaw.sl.v141 (F := Ideal) c i arg7 fh0 fs1) (kernelRunRaw.sl.dma15 (F := Ideal) c i fh0)
    (slot_6 c i arg7 fh0 fs1) (landed_6 c i fh0 n hn)
    shapeCasts_S1x256x2048_S256x2048 bitsLt_bf16_f32 shapeCasts_S256x2048_S256x2048 x, ?_⟩
  refine List.forall_mem_cons.mpr ⟨fun x => piece_eq c fh0 n 5 (by norm_num) inb_S4096x2048_S256x2048_1280_0
    (kernelRunRaw.sl.v121 (F := Ideal) c i arg7 fh0 fs1) (kernelRunRaw.sl.dma12 (F := Ideal) c i fh0)
    (slot_5 c i arg7 fh0 fs1) (landed_5 c i fh0 n hn)
    shapeCasts_S1x256x2048_S256x2048 bitsLt_bf16_f32 shapeCasts_S256x2048_S256x2048 x, ?_⟩
  refine List.forall_mem_cons.mpr ⟨fun x => piece_eq c fh0 n 4 (by norm_num) inb_S4096x2048_S256x2048_1024_0
    (kernelRunRaw.sl.v101 (F := Ideal) c i arg7 fh0 fs1) (kernelRunRaw.sl.dma9 (F := Ideal) c i fh0)
    (slot_4 c i arg7 fh0 fs1) (landed_4 c i fh0 n hn)
    shapeCasts_S1x256x2048_S256x2048 bitsLt_bf16_f32 shapeCasts_S256x2048_S256x2048 x, ?_⟩
  refine List.forall_mem_cons.mpr ⟨fun x => piece_eq c fh0 n 3 (by norm_num) inb_S4096x2048_S256x2048_768_0
    (kernelRunRaw.sl.v81 (F := Ideal) c i arg7 fh0 fs1) (kernelRunRaw.sl.dma6 (F := Ideal) c i fh0)
    (slot_3 c i arg7 fh0 fs1) (landed_3 c i fh0 n hn)
    shapeCasts_S1x256x2048_S256x2048 bitsLt_bf16_f32 shapeCasts_S256x2048_S256x2048 x, ?_⟩
  refine List.forall_mem_cons.mpr ⟨fun x => piece_eq c fh0 n 2 (by norm_num) inb_S4096x2048_S256x2048_512_0
    (kernelRunRaw.sl.v61 (F := Ideal) c i arg7 fh0 fs1) (kernelRunRaw.sl.dma3 (F := Ideal) c i fh0)
    (slot_2 c i arg7 fh0 fs1) (landed_2 c i fh0 n hn)
    shapeCasts_S1x256x2048_S256x2048 bitsLt_bf16_f32 shapeCasts_S256x2048_S256x2048 x, ?_⟩
  refine List.forall_mem_cons.mpr ⟨fun x => piece_eq c fh0 n 1 (by norm_num) inb_S4096x2048_S256x2048_256_0
    (kernelRunRaw.sl.v41 (F := Ideal) c i arg7 fh0 fs1) (kernelRunRaw.sl.dma0_1 (F := Ideal) c i fh0)
    (slot_1 c i arg7 fh0 fs1) (landed_1 c i fh0 n hn)
    shapeCasts_S1x256x2048_S256x2048 bitsLt_bf16_f32 shapeCasts_S256x2048_S256x2048 x, ?_⟩
  refine List.forall_mem_cons.mpr ⟨fun x => piece_eq c fh0 n 0 (by norm_num) inb_S4096x2048_S256x2048_0_0
    (kernelRunRaw.sl.v21 (F := Ideal) c i arg7 fh0 fs1) (kernelRunRaw.sl.dma0 (F := Ideal) c i fh0)
    (slot_0 c i arg7 fh0 fs1) (landed_0 c i fh0 n hn)
    shapeCasts_S1x256x2048_S256x2048 bitsLt_bf16_f32 shapeCasts_S256x2048_S256x2048 x, ?_⟩
  exact fun _ hm => absurd hm List.not_mem_nil

/-! ## The sixteen rectangles cover the buffer -/

/-- An index in the first piece's rectangle is covered by the list; -/
theorem cover_head (y : S4096x2048.Idx) {r : Rect S4096x2048} {w : r.shape.Idx → Elt Ideal .bf16}
    {l : List (View.Piece (Elt Ideal) S4096x2048 .bf16)} (h : y ∈ r.set) :
    ∃ p ∈ (⟨r, w⟩ : View.Piece (Elt Ideal) S4096x2048 .bf16) :: l, y ∈ p.1.set :=
  ⟨_, List.mem_cons_self, h⟩
/-- an index the later pieces cover is covered by the longer list. -/
theorem cover_tail (y : S4096x2048.Idx) {a : View.Piece (Elt Ideal) S4096x2048 .bf16}
    {l : List (View.Piece (Elt Ideal) S4096x2048 .bf16)} (h : ∃ p ∈ l, y ∈ p.1.set) : ∃ p ∈ a :: l, y ∈ p.1.set :=
  let ⟨p, hp, hP⟩ := h; ⟨p, List.mem_cons_of_mem _ hp, hP⟩

/-- An index whose row lies in `o … o + 255` lies in the chunk's rectangle. -/
theorem mem_chunk (o : ℕ) (inb : ∀ a, (![o, 0] : Fin 2 → ℕ) a + S256x2048.size a ≤ S4096x2048.size a) (y : S4096x2048.Idx)
    (hlo : o ≤ (y 0).val) (hhi : (y 0).val < o + 256) :
    y ∈ (Rect.unit (s := S4096x2048) ![o, 0] S256x2048.size inb).set := by
  rw [Rect.mem_set_unit]
  intro a
  refine Fin.cases ?_ (fun b => ?_) a
  · exact ⟨hlo, hhi⟩
  · have hb : b = 0 := Subsingleton.elim _ _
    subst hb
    have h1 : (y 1).val < 2048 := (y 1).isLt
    exact ⟨Nat.zero_le _, by show (y 1).val < 0 + 2048; omega⟩

/-- Every index of the resident buffer lies in one of the sixteen stored rectangles. -/
theorem cover (y : S4096x2048.Idx) : ∃ p ∈ kernelRunRaw.sl.HS0_16 (F := Ideal) c i arg7 fh0 fs1, y ∈ p.1.set := by
  unfold kernelRunRaw.sl.HS0_16
  have hy0 : (y 0).val < 4096 := (y 0).isLt
  by_cases h15 : 3840 ≤ (y 0).val
  · exact cover_head y (mem_chunk 3840 _ y h15 (by omega))
  refine cover_tail y ?_
  by_cases h14 : 3584 ≤ (y 0).val
  · exact cover_head y (mem_chunk 3584 _ y h14 (by omega))
  refine cover_tail y ?_
  by_cases h13 : 3328 ≤ (y 0).val
  · exact cover_head y (mem_chunk 3328 _ y h13 (by omega))
  refine cover_tail y ?_
  by_cases h12 : 3072 ≤ (y 0).val
  · exact cover_head y (mem_chunk 3072 _ y h12 (by omega))
  refine cover_tail y ?_
  by_cases h11 : 2816 ≤ (y 0).val
  · exact cover_head y (mem_chunk 2816 _ y h11 (by omega))
  refine cover_tail y ?_
  by_cases h10 : 2560 ≤ (y 0).val
  · exact cover_head y (mem_chunk 2560 _ y h10 (by omega))
  refine cover_tail y ?_
  by_cases h9 : 2304 ≤ (y 0).val
  · exact cover_head y (mem_chunk 2304 _ y h9 (by omega))
  refine cover_tail y ?_
  by_cases h8 : 2048 ≤ (y 0).val
  · exact cover_head y (mem_chunk 2048 _ y h8 (by omega))
  refine cover_tail y ?_
  by_cases h7 : 1792 ≤ (y 0).val
  · exact cover_head y (mem_chunk 1792 _ y h7 (by omega))
  refine cover_tail y ?_
  by_cases h6 : 1536 ≤ (y 0).val
  · exact cover_head y (mem_chunk 1536 _ y h6 (by omega))
  refine cover_tail y ?_
  by_cases h5 : 1280 ≤ (y 0).val
  · exact cover_head y (mem_chunk 1280 _ y h5 (by omega))
  refine cover_tail y ?_
  by_cases h4 : 1024 ≤ (y 0).val
  · exact cover_head y (mem_chunk 1024 _ y h4 (by omega))
  refine cover_tail y ?_
  by_cases h3 : 768 ≤ (y 0).val
  · exact cover_head y (mem_chunk 768 _ y h3 (by omega))
  refine cover_tail y ?_
  by_cases h2 : 512 ≤ (y 0).val
  · exact cover_head y (mem_chunk 512 _ y h2 (by omega))
  refine cover_tail y ?_
  by_cases h1 : 256 ≤ (y 0).val
  · exact cover_head y (mem_chunk 256 _ y h1 (by omega))
  refine cover_tail y ?_
  exact cover_head y (mem_chunk 0 _ y (Nat.zero_le _) (by omega))

include hn in
/-- A load of rows `256 k … 256 k + 255` of the resident buffer reads those rows of the matrix. -/
theorem chunk_read (k : ℕ) (hk : k < 16) (inb : ∀ a, (![256 * k, 0] : Fin 2 → ℕ) a + S256x2048.size a ≤ S4096x2048.size a)
    (r : Fin 256) (e : Fin 2048) :
    arg6.view.readCov (kernelRunRaw.sl.HS0_16 (F := Ideal) c i arg7 fh0 fs1)
        (Rect.unit (s := S4096x2048) ![256 * k, 0] S256x2048.size inb).toLoadRect (ix2 r e)
      = fh0 (ix3 n (chunkRowN k r) e) := by
  rw [View.readCov_eq_canon']
  show View.canon _ ((Rect.unit (s := S4096x2048) ![256 * k, 0] S256x2048.size inb).toLoadRect.idx (ix2 r e)) = _
  rw [View.canon_apply_of_pieces (Hmat c fh0 n) _ (pieces_agree c i arg7 fh0 fs1 n hn) _ (cover c i arg7 fh0 fs1 _)]
  unfold Hmat
  have hr : r.val < 256 := r.isLt
  refine congrArg fh0 (congrArg₂ (ix3 n) (Fin.ext ?_) (Fin.ext ?_))
  · show 256 * k + 1 * r.val = (256 * k + r.val) % 4096
    omega
  · show 0 + 1 * e.val = e.val
    omega

end Resident

section
variable (c : Dev nD) (i : grid0.Coords) (arg6 : Memref sig .tc .vmem S4096x2048 .bf16)
  (arg7 : Memref sig .tc .vmem S2x256x2048 .f32)
  (fh0 : HbBuf0 (F := Ideal) c hbM0_0) (fs1 : BufTy.Contents (Elt Ideal) arg7.view.ty)
  (n : Fin 4) (hn : (i 0).val = n.val) (h : Fin 4096 → Fin 2048 → ℝ)
  (hH : ∀ v e, fh0 (ix3 n v e) = (h v e : EReal))
include hn hH

/-- Chunk 0 of the resident incidence buffer is rows 0 … 255 of the incidence matrix. -/
theorem hb0 (r : Fin 256) (e : Fin 2048) :
    kernelRunRaw.sl.v326 (F := Ideal) c i arg6 arg7 fh0 fs1 (ix2 r e) = (h (chunkRowN 0 r) e : EReal) := by
  unfold kernelRunRaw.sl.v326
  exact (chunk_read c i arg6 arg7 fh0 fs1 n hn 0 (by norm_num) _ r e).trans (hH _ _)

/-- Chunk 1 of the resident incidence buffer is rows 256 … 511 of the incidence matrix. -/
theorem hb1 (r : Fin 256) (e : Fin 2048) :
    kernelRunRaw.sl.v346 (F := Ideal) c i arg6 arg7 fh0 fs1 (ix2 r e) = (h (chunkRowN 1 r) e : EReal) := by
  unfold kernelRunRaw.sl.v346
  exact (chunk_read c i arg6 arg7 fh0 fs1 n hn 1 (by norm_num) _ r e).trans (hH _ _)

/-- Chunk 2 of the resident incidence buffer is rows 512 … 767 of the incidence matrix. -/
theorem hb2 (r : Fin 256) (e : Fin 2048) :
    kernelRunRaw.sl.v366 (F := Ideal) c i arg6 arg7 fh0 fs1 (ix2 r e) = (h (chunkRowN 2 r) e : EReal) := by
  unfold kernelRunRaw.sl.v366
  exact (chunk_read c i arg6 arg7 fh0 fs1 n hn 2 (by norm_num) _ r e).trans (hH _ _)

/-- Chunk 3 of the resident incidence buffer is rows 768 … 1023 of the incidence matrix. -/
theorem hb3 (r : Fin 256) (e : Fin 2048) :
    kernelRunRaw.sl.v386 (F := Ideal) c i arg6 arg7 fh0 fs1 (ix2 r e) = (h (chunkRowN 3 r) e : EReal) := by
  unfold kernelRunRaw.sl.v386
  exact (chunk_read c i arg6 arg7 fh0 fs1 n hn 3 (by norm_num) _ r e).trans (hH _ _)

/-- Chunk 4 of the resident incidence buffer is rows 1024 … 1279 of the incidence matrix. -/
theorem hb4 (r : Fin 256) (e : Fin 2048) :
    kernelRunRaw.sl.v406 (F := Ideal) c i arg6 arg7 fh0 fs1 (ix2 r e) = (h (chunkRowN 4 r) e : EReal) := by
  unfold kernelRunRaw.sl.v406
  exact (chunk_read c i arg6 arg7 fh0 fs1 n hn 4 (by norm_num) _ r e).trans (hH _ _)

/-- Chunk 5 of the resident incidence buffer is rows 1280 … 1535 of the incidence matrix. -/
theorem hb5 (r : Fin 256) (e : Fin 2048) :
    kernelRunRaw.sl.v426 (F := Ideal) c i arg6 arg7 fh0 fs1 (ix2 r e) = (h (chunkRowN 5 r) e : EReal) := by
  unfold kernelRunRaw.sl.v426
  exact (chunk_read c i arg6 arg7 fh0 fs1 n hn 5 (by norm_num) _ r e).trans (hH _ _)

/-- Chunk 6 of the resident incidence buffer is rows 1536 … 1791 of the incidence matrix. -/
theorem hb6 (r : Fin 256) (e : Fin 2048) :
    kernelRunRaw.sl.v446 (F := Ideal) c i arg6 arg7 fh0 fs1 (ix2 r e) = (h (chunkRowN 6 r) e : EReal) := by
  unfold kernelRunRaw.sl.v446
  exact (chunk_read c i arg6 arg7 fh0 fs1 n hn 6 (by norm_num) _ r e).trans (hH _ _)

/-- Chunk 7 of the resident incidence buffer is rows 1792 … 2047 of the incidence matrix. -/
theorem hb7 (r : Fin 256) (e : Fin 2048) :
    kernelRunRaw.sl.v466 (F := Ideal) c i arg6 arg7 fh0 fs1 (ix2 r e) = (h (chunkRowN 7 r) e : EReal) := by
  unfold kernelRunRaw.sl.v466
  exact (chunk_read c i arg6 arg7 fh0 fs1 n hn 7 (by norm_num) _ r e).trans (hH _ _)

/-- Chunk 8 of the resident incidence buffer is rows 2048 … 2303 of the incidence matrix. -/
theorem hb8 (r : Fin 256) (e : Fin 2048) :
    kernelRunRaw.sl.v486 (F := Ideal) c i arg6 arg7 fh0 fs1 (ix2 r e) = (h (chunkRowN 8 r) e : EReal) := by
  unfold kernelRunRaw.sl.v486
  exact (chunk_read c i arg6 arg7 fh0 fs1 n hn 8 (by norm_num) _ r e).trans (hH _ _)

/-- Chunk 9 of the resident incidence buffer is rows 2304 … 2559 of the incidence matrix. -/
theorem hb9 (r : Fin 256) (e : Fin 2048) :
    kernelRunRaw.sl.v506 (F := Ideal) c i arg6 arg7 fh0 fs1 (ix2 r e) = (h (chunkRowN 9 r) e : EReal) := by
  unfold kernelRunRaw.sl.v506
  exact (chunk_read c i arg6 arg7 fh0 fs1 n hn 9 (by norm_num) _ r e).trans (hH _ _)

/-- Chunk 10 of the resident incidence buffer is rows 2560 … 2815 of the incidence matrix. -/
theorem hb10 (r : Fin 256) (e : Fin 2048) :
    kernelRunRaw.sl.v526 (F := Ideal) c i arg6 arg7 fh0 fs1 (ix2 r e) = (h (chunkRowN 10 r) e : EReal) := by
  unfold kernelRunRaw.sl.v526
  exact (chunk_read c i arg6 arg7 fh0 fs1 n hn 10 (by norm_num) _ r e).trans (hH _ _)

/-- Chunk 11 of the resident incidence buffer is rows 2816 … 3071 of the incidence matrix. -/
theorem hb11 (r : Fin 256) (e : Fin 2048) :
    kernelRunRaw.sl.v546 (F := Ideal) c i arg6 arg7 fh0 fs1 (ix2 r e) = (h (chunkRowN 11 r) e : EReal) := by
  unfold kernelRunRaw.sl.v546
  exact (chunk_read c i arg6 arg7 fh0 fs1 n hn 11 (by norm_num) _ r e).trans (hH _ _)

/-- Chunk 12 of the resident incidence buffer is rows 3072 … 3327 of the incidence matrix. -/
theorem hb12 (r : Fin 256) (e : Fin 2048) :
    kernelRunRaw.sl.v566 (F := Ideal) c i arg6 arg7 fh0 fs1 (ix2 r e) = (h (chunkRowN 12 r) e : EReal) := by
  unfold kernelRunRaw.sl.v566
  exact (chunk_read c i arg6 arg7 fh0 fs1 n hn 12 (by norm_num) _ r e).trans (hH _ _)

/-- Chunk 13 of the resident incidence buffer is rows 3328 … 3583 of the incidence matrix. -/
theorem hb13 (r : Fin 256) (e : Fin 2048) :
    kernelRunRaw.sl.v586 (F := Ideal) c i arg6 arg7 fh0 fs1 (ix2 r e) = (h (chunkRowN 13 r) e : EReal) := by
  unfold kernelRunRaw.sl.v586
  exact (chunk_read c i arg6 arg7 fh0 fs1 n hn 13 (by norm_num) _ r e).trans (hH _ _)

/-- Chunk 14 of the resident incidence buffer is rows 3584 … 3839 of the incidence matrix. -/
theorem hb14 (r : Fin 256) (e : Fin 2048) :
    kernelRunRaw.sl.v606 (F := Ideal) c i arg6 arg7 fh0 fs1 (ix2 r e) = (h (chunkRowN 14 r) e : EReal) := by
  unfold kernelRunRaw.sl.v606
  exact (chunk_read c i arg6 arg7 fh0 fs1 n hn 14 (by norm_num) _ r e).trans (hH _ _)

/-- Chunk 15 of the resident incidence buffer is rows 3840 … 4095 of the incidence matrix. -/
theorem hb15 (r : Fin 256) (e : Fin 2048) :
    kernelRunRaw.sl.v626 (F := Ideal) c i arg6 arg7 fh0 fs1 (ix2 r e) = (h (chunkRowN 15 r) e : EReal) := by
  unfold kernelRunRaw.sl.v626
  exact (chunk_read c i arg6 arg7 fh0 fs1 n hn 15 (by norm_num) _ r e).trans (hH _ _)

end

end Cert.Hgnn.KernelHb

end
-- ==== Proof.KernelFeat.lean ====
/-
  The projected features with the column of ones, chunk by chunk.

  For each chunk of 256 vertices the body forms y = x · θ (256 × 64) from the chunk's rows of the feature block and the
  weights, stores it in columns 0 … 63 of a 256 × 65 scratch, stores ones in column 64, and loads the scratch whole:
  the load is [x · θ | 1] on the chunk's rows.
-/
import proofs.«414075_j24292335026750_3_alg».proof.Proof.KernelIdealRunRaw
import proofs.«414075_j24292335026750_3_alg».proof.Proof.KernelIdealSlotRead
import proofs.«414075_j24292335026750_3_alg».proof.Proof.Payloads
import proofs.«414075_j24292335026750_3_alg».proof.Proof.Spec
import Idealize.ShloMosaic.Lib.ValueIdx
import Idealize.ShloMosaic.Lib.Pipeline.Value

set_option maxRecDepth 16384

noncomputable section

namespace Cert.Hgnn.KernelFeat

open Idealize.ShloMosaic Idealize.ShloMosaic.ValueIdx Idealize.SL.Sem
open Cert.KernelIdeal Cert.KernelIdeal.Gen Cert.KernelIdeal.GenP Cert.Hgnn

/-! ## Reading the 256 × 65 scratch whole, after a block of 64 columns and then a last column were stored -/

/-- The scratch read whole at (r, o), after columns 0 … 63 and then column 64 were stored last: the block's entry for
    o < 64, the column's entry for o = 64, whatever was stored before. -/
theorem aug_read {Val : EltTy → Type} [∀ e, Nonempty (Val e)] {e : EltTy} {sp : Space} (v : View sig .tc sp S256x65 e)
    (inbW : ∀ a, (![0, 0] : Fin 2 → Nat) a + S256x65.size a ≤ S256x65.size a)
    (inb1 : ∀ a, (![0, 64] : Fin 2 → Nat) a + S256x1.size a ≤ S256x65.size a)
    (inb0 : ∀ a, (![0, 0] : Fin 2 → Nat) a + S256x64.size a ≤ S256x65.size a)
    (O : S256x1.Idx → Val e) (B : S256x64.Idx → Val e) (Lold : List (View.Piece Val S256x65 e))
    (r : Fin 256) (o : Fin 65) :
    v.readCov ((⟨Rect.unit (s := S256x65) ![0, 64] S256x1.size inb1, O⟩ : View.Piece Val S256x65 e)
        :: (⟨Rect.unit (s := S256x65) ![0, 0] S256x64.size inb0, B⟩ : View.Piece Val S256x65 e) :: Lold)
        (Rect.unit (s := S256x65) ![0, 0] S256x65.size inbW).toLoadRect (ix2 r o)
      = if h : o.val < 64 then B (ix2 r ⟨o.val, h⟩) else O (ix2 r (0 : Fin 1)) := by
  rw [View.readCov_eq_canon']
  have hidx : (Rect.unit (s := S256x65) ![0, 0] S256x65.size inbW).toLoadRect.idx (ix2 r o) = (ix2 r o : S256x65.Idx) :=
    funext fun a => Fin.ext (by
      match a with
      | ⟨0, _⟩ => show 0 + 1 * r.val = r.val; omega
      | ⟨1, _⟩ => show 0 + 1 * o.val = o.val; omega)
  show View.canon _ ((Rect.unit (s := S256x65) ![0, 0] S256x65.size inbW).toLoadRect.idx (ix2 r o)) = _
  rw [hidx]
  by_cases h : o.val < 64
  · rw [dif_pos h]
    have hnot : (ix2 r o : S256x65.Idx) ∉ (Rect.unit (s := S256x65) ![0, 64] S256x1.size inb1).set := by
      rw [Rect.mem_set_unit]
      intro hm
      have h1 : (64 : Nat) ≤ o.val ∧ o.val < 64 + 1 := hm 1
      omega
    have e0 : (ix2 r o : S256x65.Idx) = (Rect.unit (s := S256x65) ![0, 0] S256x64.size inb0).emb (ix2 r (⟨o.val, h⟩ : Fin 64)) :=
      funext fun a => Fin.ext (by
        match a with
        | ⟨0, _⟩ => show r.val = 0 + 1 * r.val; omega
        | ⟨1, _⟩ => show o.val = 0 + 1 * o.val; omega)
    refine (View.canon_cons_of_not_mem (⟨Rect.unit (s := S256x65) ![0, 64] S256x1.size inb1, O⟩ : View.Piece Val S256x65 e) ((⟨Rect.unit (s := S256x65) ![0, 0] S256x64.size inb0, B⟩ : View.Piece Val S256x65 e) :: Lold) hnot).trans ?_
    refine (congrArg (View.canon ((⟨Rect.unit (s := S256x65) ![0, 0] S256x64.size inb0, B⟩ : View.Piece Val S256x65 e) :: Lold)) e0).trans ?_
    exact View.canon_cons_emb (Rect.unit (s := S256x65) ![0, 0] S256x64.size inb0) B Lold (ix2 r (⟨o.val, h⟩ : Fin 64))
  · rw [dif_neg h]
    have ho : o.val < 65 := o.isLt
    have e1 : (ix2 r o : S256x65.Idx) = (Rect.unit (s := S256x65) ![0, 64] S256x1.size inb1).emb (ix2 r (0 : Fin 1)) :=
      funext fun a => Fin.ext (by
        match a with
        | ⟨0, _⟩ => show r.val = 0 + 1 * r.val; omega
        | ⟨1, _⟩ => show o.val = 64 + 1 * 0; omega)
    refine (congrArg (View.canon ((⟨Rect.unit (s := S256x65) ![0, 64] S256x1.size inb1, O⟩ : View.Piece Val S256x65 e) :: (⟨Rect.unit (s := S256x65) ![0, 0] S256x64.size inb0, B⟩ : View.Piece Val S256x65 e) :: Lold)) e1).trans ?_
    exact View.canon_cons_emb (Rect.unit (s := S256x65) ![0, 64] S256x1.size inb1) O ((⟨Rect.unit (s := S256x65) ![0, 0] S256x64.size inb0, B⟩ : View.Piece Val S256x65 e) :: Lold) (ix2 r (0 : Fin 1))

/-! ## The chunk's rows of the features, and the weights -/

section
variable (c : Dev nD) (arg2 : Memref sig .tc .vmem S1x4096x64 .f32) (harg2 : arg2.IsWhole)
  (arg3 : Memref sig .tc .vmem S64x64 .f32) (harg3 : arg3.IsWhole) (arg9 : Memref sig .tc .vmem S256x65 .f32)
  (x0 : Vec Ideal S1x4096x64 .f32) (x1 : Vec Ideal S64x64 .f32)
  (xr : Fin 4096 → Fin 64 → ℝ) (θ : Fin 64 → Fin 64 → ℝ)
  (hx0 : ∀ v k, x0 (ix3 (0 : Fin 1) v k) = (xr v k : EReal))
  (hx1 : ∀ k o, x1 (ix2 k o) = (θ k o : EReal))

/-- 256 rows of the feature block from row off, read at (0, r, k): the block at row off + r. -/
theorem rows_apply (off : ℕ) (inbX : ∀ a, (![0, off, 0] : Fin 3 → Nat) a + S1x256x64.size a ≤ S1x4096x64.size a)
    (r : Fin 256) (k : Fin 64) (hlt : off + r.val < 4096) :
    View.readAt (Elt Ideal) arg2.view (Rect.unit (s := S1x4096x64) ![0, off, 0] S1x256x64.size inbX).toLoadRect (harg2.unread x0) (ix3 (0 : Fin 1) r k)
      = x0 (ix3 (0 : Fin 1) (⟨off + r.val, hlt⟩ : Fin 4096) k) := by
  rw [View.readAt_eq_ld, harg2.read_unread]
  show x0 ((Rect.unit (s := S1x4096x64) ![0, off, 0] S1x256x64.size inbX).toLoadRect.idx (ix3 (0 : Fin 1) r k)) = _
  refine congrArg x0 (funext fun a => Fin.ext ?_)
  match a with
  | ⟨0, _⟩ => show 0 + 1 * 0 = 0; omega
  | ⟨1, _⟩ => show off + 1 * r.val = off + r.val; omega
  | ⟨2, _⟩ => show 0 + 1 * k.val = k.val; omega

theorem hz2 : (![0, 0] : Fin 2 → Nat) = fun _ => 0 := funext fun a => by fin_cases a <;> rfl

/-- The weights as the body holds them (read whole, format changed): the weight block itself. -/
theorem weights_apply (k o : Fin 64) :
    kernelRunRaw.sl.r_2 (F := Ideal) c arg3 harg3 x1 (ix2 k o) = x1 (ix2 k o) := by
  unfold kernelRunRaw.sl.r_2 k0_pay20
  dsimp only
  rw [truncf_apply, View.readAt_eq_ld, harg3.read_unread, View.ld_unit_zero hz2]
end

/-! ## The sixteen chunks -/

section
variable (c : Dev nD) (arg2 : Memref sig .tc .vmem S1x4096x64 .f32) (harg2 : arg2.IsWhole)
  (arg3 : Memref sig .tc .vmem S64x64 .f32) (harg3 : arg3.IsWhole) (arg9 : Memref sig .tc .vmem S256x65 .f32)
  (x0 : Vec Ideal S1x4096x64 .f32) (x1 : Vec Ideal S64x64 .f32)
  (xr : Fin 4096 → Fin 64 → ℝ) (θ : Fin 64 → Fin 64 → ℝ)
  (hx0 : ∀ v k, x0 (ix3 (0 : Fin 1) v k) = (xr v k : EReal))
  (hx1 : ∀ k o, x1 (ix2 k o) = (θ k o : EReal))
include hx0 hx1

/-- ONE CHUNK. After the chunk's projection (the weights against 256 rows of the feature block from row 256 k) was stored
    in columns 0 … 63 and a column of ones in column 64, the scratch read whole is [x · θ | 1] on the chunk's rows,
    whatever the scratch held before. -/
theorem chunk_eq (k : ℕ) (hk : k < 16) (off : ℕ) (hoff : off = 256 * k)
    (inbX : ∀ a, (![0, off, 0] : Fin 3 → Nat) a + S1x256x64.size a ≤ S1x4096x64.size a)
    (inbW : ∀ a, (![0, 0] : Fin 2 → Nat) a + S256x65.size a ≤ S256x65.size a)
    (inb1 : ∀ a, (![0, 64] : Fin 2 → Nat) a + S256x1.size a ≤ S256x65.size a)
    (inb0 : ∀ a, (![0, 0] : Fin 2 → Nat) a + S256x64.size a ≤ S256x65.size a)
    (O : FVec Ideal S256x1 .f32) (hO : ∀ i, O i = 1)
    (B : FVec Ideal S256x64 .f32)
    (hB : B = k0_pay21 (F := Ideal) (kernelRunRaw.sl.r_2 (F := Ideal) c arg3 harg3 x1)
        (View.readAt (Elt Ideal) arg2.view (Rect.unit (s := S1x4096x64) ![0, off, 0] S1x256x64.size inbX).toLoadRect (harg2.unread x0)))
    (Lold : List (View.Piece (Elt Ideal) S256x65 .f32)) (r : Fin 256) (o : Fin 65) :
    arg9.view.readCov ((⟨Rect.unit (s := S256x65) ![0, 64] S256x1.size inb1, O⟩ : View.Piece (Elt Ideal) S256x65 .f32) :: (⟨Rect.unit (s := S256x65) ![0, 0] S256x64.size inb0, B⟩ : View.Piece (Elt Ideal) S256x65 .f32) :: Lold)
        (Rect.unit (s := S256x65) ![0, 0] S256x65.size inbW).toLoadRect (ix2 r o)
      = (yaug xr θ (chunkRowN k r) o : EReal) := by
  subst hoff hB
  have hr : r.val < 256 := r.isLt
  have hlt : 256 * k + r.val < 4096 := by omega
  have hrow : (⟨256 * k + r.val, hlt⟩ : Fin 4096) = chunkRowN k r :=
    Fin.ext (by show 256 * k + r.val = (256 * k + r.val) % 4096; omega)
  rw [aug_read]
  unfold yaug
  by_cases h : o.val < 64
  · rw [dif_pos h, dif_pos h, Payloads.proj_apply, Cert.Hgnn.coe_sum_mul]
    refine Finset.sum_congr rfl fun kk _ => ?_
    rw [rows_apply arg2 harg2 x0 (256 * k) inbX r kk hlt, weights_apply c arg3 harg3 x1 kk ⟨o.val, h⟩, hrow, hx0, hx1]
  · rw [dif_neg h, dif_neg h, hO, EReal.coe_one]

/-- The augmented features of chunk 0: rows 0 … 255. -/
theorem ya0 (r : Fin 256) (o : Fin 65) :
    kernelRunRaw.sl.v338 (F := Ideal) c arg2 harg2 arg3 harg3 arg9 x0 x1 (ix2 r o)
      = (yaug xr θ (chunkRowN 0 r) o : EReal) := by
  unfold kernelRunRaw.sl.v338 kernelRunRaw.sl.HS3_2
  exact chunk_eq c arg2 harg2 arg3 harg3 arg9 x0 x1 xr θ hx0 hx1 0 (by norm_num) 0 rfl
    inb_S1x4096x64_S1x256x64_0_0_0 inb_S256x65_S256x65_0_0 inb_S256x65_S256x1_0_64 inb_S256x65_S256x64_0_0
    _ (fun i => Payloads.ones_apply i) _ rfl [] r o

/-- The augmented features of chunk 1: rows 256 … 511. -/
theorem ya1 (r : Fin 256) (o : Fin 65) :
    kernelRunRaw.sl.v358 (F := Ideal) c arg2 harg2 arg3 harg3 arg9 x0 x1 (ix2 r o)
      = (yaug xr θ (chunkRowN 1 r) o : EReal) := by
  unfold kernelRunRaw.sl.v358 kernelRunRaw.sl.HS3_4 kernelRunRaw.sl.HS3_3
  exact chunk_eq c arg2 harg2 arg3 harg3 arg9 x0 x1 xr θ hx0 hx1 1 (by norm_num) 256 rfl
    inb_S1x4096x64_S1x256x64_0_256_0 inb_S256x65_S256x65_0_0 inb_S256x65_S256x1_0_64 inb_S256x65_S256x64_0_0
    _ (fun i => Payloads.ones_apply i) _ rfl (kernelRunRaw.sl.HS3_2 (F := Ideal) c arg2 harg2 arg3 harg3 x0 x1) r o

/-- The augmented features of chunk 2: rows 512 … 767. -/
theorem ya2 (r : Fin 256) (o : Fin 65) :
    kernelRunRaw.sl.v378 (F := Ideal) c arg2 harg2 arg3 harg3 arg9 x0 x1 (ix2 r o)
      = (yaug xr θ (chunkRowN 2 r) o : EReal) := by
  unfold kernelRunRaw.sl.v378 kernelRunRaw.sl.HS3_6
  exact chunk_eq c arg2 harg2 arg3 harg3 arg9 x0 x1 xr θ hx0 hx1 2 (by norm_num) 512 rfl
    inb_S1x4096x64_S1x256x64_0_512_0 inb_S256x65_S256x65_0_0 inb_S256x65_S256x1_0_64 inb_S256x65_S256x64_0_0
    _ (fun i => Payloads.ones_apply i) _ rfl (kernelRunRaw.sl.HS3_4 (F := Ideal) c arg2 harg2 arg3 harg3 x0 x1) r o

/-- The augmented features of chunk 3: rows 768 … 1023. -/
theorem ya3 (r : Fin 256) (o : Fin 65) :
    kernelRunRaw.sl.v398 (F := Ideal) c arg2 harg2 arg3 harg3 arg9 x0 x1 (ix2 r o)
      = (yaug xr θ (chunkRowN 3 r) o : EReal) := by
  unfold kernelRunRaw.sl.v398 kernelRunRaw.sl.HS3_8
  exact chunk_eq c arg2 harg2 arg3 harg3 arg9 x0 x1 xr θ hx0 hx1 3 (by norm_num) 768 rfl
    inb_S1x4096x64_S1x256x64_0_768_0 inb_S256x65_S256x65_0_0 inb_S256x65_S256x1_0_64 inb_S256x65_S256x64_0_0
    _ (fun i => Payloads.ones_apply i) _ rfl (kernelRunRaw.sl.HS3_6 (F := Ideal) c arg2 harg2 arg3 harg3 x0 x1) r o

/-- The augmented features of chunk 4: rows 1024 … 1279. -/
theorem ya4 (r : Fin 256) (o : Fin 65) :
    kernelRunRaw.sl.v418 (F := Ideal) c arg2 harg2 arg3 harg3 arg9 x0 x1 (ix2 r o)
      = (yaug xr θ (chunkRowN 4 r) o : EReal) := by
  unfold kernelRunRaw.sl.v418 kernelRunRaw.sl.HS3_10
  exact chunk_eq c arg2 harg2 arg3 harg3 arg9 x0 x1 xr θ hx0 hx1 4 (by norm_num) 1024 rfl
    inb_S1x4096x64_S1x256x64_0_1024_0 inb_S256x65_S256x65_0_0 inb_S256x65_S256x1_0_64 inb_S256x65_S256x64_0_0
    _ (fun i => Payloads.ones_apply i) _ rfl (kernelRunRaw.sl.HS3_8 (F := Ideal) c arg2 harg2 arg3 harg3 x0 x1) r o

/-- The augmented features of chunk 5: rows 1280 … 1535. -/
theorem ya5 (r : Fin 256) (o : Fin 65) :
    kernelRunRaw.sl.v438 (F := Ideal) c arg2 harg2 arg3 harg3 arg9 x0 x1 (ix2 r o)
      = (yaug xr θ (chunkRowN 5 r) o : EReal) := by
  unfold kernelRunRaw.sl.v438 kernelRunRaw.sl.HS3_12
  exact chunk_eq c arg2 harg2 arg3 harg3 arg9 x0 x1 xr θ hx0 hx1 5 (by norm_num) 1280 rfl
    inb_S1x4096x64_S1x256x64_0_1280_0 inb_S256x65_S256x65_0_0 inb_S256x65_S256x1_0_64 inb_S256x65_S256x64_0_0
    _ (fun i => Payloads.ones_apply i) _ rfl (kernelRunRaw.sl.HS3_10 (F := Ideal) c arg2 harg2 arg3 harg3 x0 x1) r o

/-- The augmented features of chunk 6: rows 1536 … 1791. -/
theorem ya6 (r : Fin 256) (o : Fin 65) :
    kernelRunRaw.sl.v458 (F := Ideal) c arg2 harg2 arg3 harg3 arg9 x0 x1 (ix2 r o)
      = (yaug xr θ (chunkRowN 6 r) o : EReal) := by
  unfold kernelRunRaw.sl.v458 kernelRunRaw.sl.HS3_14
  exact chunk_eq c arg2 harg2 arg3 harg3 arg9 x0 x1 xr θ hx0 hx1 6 (by norm_num) 1536 rfl
    inb_S1x4096x64_S1x256x64_0_1536_0 inb_S256x65_S256x65_0_0 inb_S256x65_S256x1_0_64 inb_S256x65_S256x64_0_0
    _ (fun i => Payloads.ones_apply i) _ rfl (kernelRunRaw.sl.HS3_12 (F := Ideal) c arg2 harg2 arg3 harg3 x0 x1) r o

/-- The augmented features of chunk 7: rows 1792 … 2047. -/
theorem ya7 (r : Fin 256) (o : Fin 65) :
    kernelRunRaw.sl.v478 (F := Ideal) c arg2 harg2 arg3 harg3 arg9 x0 x1 (ix2 r o)
      = (yaug xr θ (chunkRowN 7 r) o : EReal) := by
  unfold kernelRunRaw.sl.v478 kernelRunRaw.sl.HS3_16
  exact chunk_eq c arg2 harg2 arg3 harg3 arg9 x0 x1 xr θ hx0 hx1 7 (by norm_num) 1792 rfl
    inb_S1x4096x64_S1x256x64_0_1792_0 inb_S256x65_S256x65_0_0 inb_S256x65_S256x1_0_64 inb_S256x65_S256x64_0_0
    _ (fun i => Payloads.ones_apply i) _ rfl (kernelRunRaw.sl.HS3_14 (F := Ideal) c arg2 harg2 arg3 harg3 x0 x1) r o

/-- The augmented features of chunk 8: rows 2048 … 2303. -/
theorem ya8 (r : Fin 256) (o : Fin 65) :
    kernelRunRaw.sl.v498 (F := Ideal) c arg2 harg2 arg3 harg3 arg9 x0 x1 (ix2 r o)
      = (yaug xr θ (chunkRowN 8 r) o : EReal) := by
  unfold kernelRunRaw.sl.v498 kernelRunRaw.sl.HS3_18
  exact chunk_eq c arg2 harg2 arg3 harg3 arg9 x0 x1 xr θ hx0 hx1 8 (by norm_num) 2048 rfl
    inb_S1x4096x64_S1x256x64_0_2048_0 inb_S256x65_S256x65_0_0 inb_S256x65_S256x1_0_64 inb_S256x65_S256x64_0_0
    _ (fun i => Payloads.ones_apply i) _ rfl (kernelRunRaw.sl.HS3_16 (F := Ideal) c arg2 harg2 arg3 harg3 x0 x1) r o

/-- The augmented features of chunk 9: rows 2304 … 2559. -/
theorem ya9 (r : Fin 256) (o : Fin 65) :
    kernelRunRaw.sl.v518 (F := Ideal) c arg2 harg2 arg3 harg3 arg9 x0 x1 (ix2 r o)
      = (yaug xr θ (chunkRowN 9 r) o : EReal) := by
  unfold kernelRunRaw.sl.v518 kernelRunRaw.sl.HS3_20
  exact chunk_eq c arg2 harg2 arg3 harg3 arg9 x0 x1 xr θ hx0 hx1 9 (by norm_num) 2304 rfl
    inb_S1x4096x64_S1x256x64_0_2304_0 inb_S256x65_S256x65_0_0 inb_S256x65_S256x1_0_64 inb_S256x65_S256x64_0_0
    _ (fun i => Payloads.ones_apply i) _ rfl (kernelRunRaw.sl.HS3_18 (F := Ideal) c arg2 harg2 arg3 harg3 x0 x1) r o

/-- The augmented features of chunk 10: rows 2560 … 2815. -/
theorem ya10 (r : Fin 256) (o : Fin 65) :
    kernelRunRaw.sl.v538 (F := Ideal) c arg2 harg2 arg3 harg3 arg9 x0 x1 (ix2 r o)
      = (yaug xr θ (chunkRowN 10 r) o : EReal) := by
  unfold kernelRunRaw.sl.v538 kernelRunRaw.sl.HS3_22
  exact chunk_eq c arg2 harg2 arg3 harg3 arg9 x0 x1 xr θ hx0 hx1 10 (by norm_num) 2560 rfl
    inb_S1x4096x64_S1x256x64_0_2560_0 inb_S256x65_S256x65_0_0 inb_S256x65_S256x1_0_64 inb_S256x65_S256x64_0_0
    _ (fun i => Payloads.ones_apply i) _ rfl (kernelRunRaw.sl.HS3_20 (F := Ideal) c arg2 harg2 arg3 harg3 x0 x1) r o

/-- The augmented features of chunk 11: rows 2816 … 3071. -/
theorem ya11 (r : Fin 256) (o : Fin 65) :
    kernelRunRaw.sl.v558 (F := Ideal) c arg2 harg2 arg3 harg3 arg9 x0 x1 (ix2 r o)
      = (yaug xr θ (chunkRowN 11 r) o : EReal) := by
  unfold kernelRunRaw.sl.v558 kernelRunRaw.sl.HS3_24
  exact chunk_eq c arg2 harg2 arg3 harg3 arg9 x0 x1 xr θ hx0 hx1 11 (by norm_num) 2816 rfl
    inb_S1x4096x64_S1x256x64_0_2816_0 inb_S256x65_S256x65_0_0 inb_S256x65_S256x1_0_64 inb_S256x65_S256x64_0_0
    _ (fun i => Payloads.ones_apply i) _ rfl (kernelRunRaw.sl.HS3_22 (F := Ideal) c arg2 harg2 arg3 harg3 x0 x1) r o

/-- The augmented features of chunk 12: rows 3072 … 3327. -/
theorem ya12 (r : Fin 256) (o : Fin 65) :
    kernelRunRaw.sl.v578 (F := Ideal) c arg2 harg2 arg3 harg3 arg9 x0 x1 (ix2 r o)
      = (yaug xr θ (chunkRowN 12 r) o : EReal) := by
  unfold kernelRunRaw.sl.v578 kernelRunRaw.sl.HS3_26
  exact chunk_eq c arg2 harg2 arg3 harg3 arg9 x0 x1 xr θ hx0 hx1 12 (by norm_num) 3072 rfl
    inb_S1x4096x64_S1x256x64_0_3072_0 inb_S256x65_S256x65_0_0 inb_S256x65_S256x1_0_64 inb_S256x65_S256x64_0_0
    _ (fun i => Payloads.ones_apply i) _ rfl (kernelRunRaw.sl.HS3_24 (F := Ideal) c arg2 harg2 arg3 harg3 x0 x1) r o

/-- The augmented features of chunk 13: rows 3328 … 3583. -/
theorem ya13 (r : Fin 256) (o : Fin 65) :
    kernelRunRaw.sl.v598 (F := Ideal) c arg2 harg2 arg3 harg3 arg9 x0 x1 (ix2 r o)
      = (yaug xr θ (chunkRowN 13 r) o : EReal) := by
  unfold kernelRunRaw.sl.v598 kernelRunRaw.sl.HS3_28
  exact chunk_eq c arg2 harg2 arg3 harg3 arg9 x0 x1 xr θ hx0 hx1 13 (by norm_num) 3328 rfl
    inb_S1x4096x64_S1x256x64_0_3328_0 inb_S256x65_S256x65_0_0 inb_S256x65_S256x1_0_64 inb_S256x65_S256x64_0_0
    _ (fun i => Payloads.ones_apply i) _ rfl (kernelRunRaw.sl.HS3_26 (F := Ideal) c arg2 harg2 arg3 harg3 x0 x1) r o

/-- The augmented features of chunk 14: rows 3584 … 3839. -/
theorem ya14 (r : Fin 256) (o : Fin 65) :
    kernelRunRaw.sl.v618 (F := Ideal) c arg2 harg2 arg3 harg3 arg9 x0 x1 (ix2 r o)
      = (yaug xr θ (chunkRowN 14 r) o : EReal) := by
  unfold kernelRunRaw.sl.v618 kernelRunRaw.sl.HS3_30
  exact chunk_eq c arg2 harg2 arg3 harg3 arg9 x0 x1 xr θ hx0 hx1 14 (by norm_num) 3584 rfl
    inb_S1x4096x64_S1x256x64_0_3584_0 inb_S256x65_S256x65_0_0 inb_S256x65_S256x1_0_64 inb_S256x65_S256x64_0_0
    _ (fun i => Payloads.ones_apply i) _ rfl (kernelRunRaw.sl.HS3_28 (F := Ideal) c arg2 harg2 arg3 harg3 x0 x1) r o

/-- The augmented features of chunk 15: rows 3840 … 4095. -/
theorem ya15 (r : Fin 256) (o : Fin 65) :
    kernelRunRaw.sl.v638 (F := Ideal) c arg2 harg2 arg3 harg3 arg9 x0 x1 (ix2 r o)
      = (yaug xr θ (chunkRowN 15 r) o : EReal) := by
  unfold kernelRunRaw.sl.v638 kernelRunRaw.sl.HS3_32
  exact chunk_eq c arg2 harg2 arg3 harg3 arg9 x0 x1 xr θ hx0 hx1 15 (by norm_num) 3840 rfl
    inb_S1x4096x64_S1x256x64_0_3840_0 inb_S256x65_S256x65_0_0 inb_S256x65_S256x1_0_64 inb_S256x65_S256x64_0_0
    _ (fun i => Payloads.ones_apply i) _ rfl (kernelRunRaw.sl.HS3_30 (F := Ideal) c arg2 harg2 arg3 harg3 x0 x1) r o

end

end Cert.Hgnn.KernelFeat

end
-- ==== Proof.KernelChain.lean ====
/-
  The accumulator chain, the normalised hyperedge features and the output tiles, read as values.

  With h the batch element's incidence matrix and y = [x · θ | 1] the augmented vertex features:
  * after k chunks the accumulator holds zpart h y k, the contraction hᵀ · y over the first k chunks of 256 vertices
    (each step adds the chunk's rows of h against the chunk's rows of y), so after sixteen chunks it holds hᵀ · y,
    whose column 64 is the hyperedge degree;
  * the normalisation divides columns 0 … 63 by the degree clamped below by one and resets column 64 to ones:
    the hyperedge features [edgeMean h (x · θ) | 1];
  * an output tile contracts a chunk's rows of h against those features — column 64 of the product is the vertex
    degree —, divides by that degree clamped below by one and adds the bias: vertMean h (edgeMean h (x · θ)) + b.
-/
import proofs.«414075_j24292335026750_3_alg».proof.Proof.KernelHb
import proofs.«414075_j24292335026750_3_alg».proof.Proof.KernelFeat

set_option maxRecDepth 16384

noncomputable section

namespace Cert.Hgnn.KernelChain

open Idealize.ShloMosaic Idealize.ShloMosaic.ValueIdx Idealize.SL.Sem
open Cert.KernelIdeal Cert.KernelIdeal.Gen Cert.KernelIdeal.GenP Cert.Hgnn Cert.Hgnn.Payloads
open scoped BigOperators

/-! ## The payload variants

The printed body is cut into parts of sixty statements, and a payload ends where a part ends; so the same step of the
computation is one payload in most chunks and two or three in a few. Each variant is the canonical step by unfolding. -/

section Variants
variable {F : FTy → Type} [FloatOps F]

theorem acc27 (hb : Vec F S256x2048 .bf16) (ya : Vec F S256x65 .f32) (z : Vec F S2048x65 .f32) : k0_pay27 hb ya z = k0_pay23 hb ya z := rfl
theorem acc30 (hb : Vec F S256x2048 .bf16) (ya : Vec F S256x65 .f32) (z : Vec F S2048x65 .f32) : k0_pay30 hb ya z = k0_pay23 hb ya z := rfl
theorem acc33 (hb : Vec F S256x2048 .bf16) (ya : Vec F S256x65 .f32) (z : Vec F S2048x65 .f32) : k0_pay33 hb ya z = k0_pay23 hb ya z := rfl
theorem acc37 (hb : Vec F S256x2048 .bf16) (ya : Vec F S256x65 .f32) (z : Vec F S2048x65 .f32) : k0_pay37 hb ya z = k0_pay23 hb ya z := rfl
theorem acc44 (hb : Vec F S256x2048 .bf16) (ya : Vec F S256x65 .f32) (z : Vec F S2048x65 .f32) : k0_pay44 hb ya z = k0_pay23 hb ya z := rfl
theorem acc47 (hb : Vec F S256x2048 .bf16) (ya : Vec F S256x65 .f32) (z : Vec F S2048x65 .f32) : k0_pay47 hb ya z = k0_pay23 hb ya z := rfl
theorem acc54 (hb : Vec F S256x2048 .bf16) (ya : Vec F S256x65 .f32) (z : Vec F S2048x65 .f32) : k0_pay54 hb ya z = k0_pay23 hb ya z := rfl
theorem acc58 (hb : Vec F S256x2048 .bf16) (ya : Vec F S256x65 .f32) (z : Vec F S2048x65 .f32) : k0_pay58 hb ya z = k0_pay23 hb ya z := rfl
theorem acc65 (hb : Vec F S256x2048 .bf16) (ya : Vec F S256x65 .f32) (z : Vec F S2048x65 .f32) : k0_pay65 hb ya z = k0_pay23 hb ya z := rfl
theorem acc69 (hb : Vec F S256x2048 .bf16) (ya : Vec F S256x65 .f32) (z : Vec F S2048x65 .f32) : k0_pay69 hb ya z = k0_pay23 hb ya z := rfl
theorem acc76 (hb : Vec F S256x2048 .bf16) (ya : Vec F S256x65 .f32) (z : Vec F S2048x65 .f32) : k0_pay76 hb ya z = k0_pay23 hb ya z := rfl
theorem acc41 (hb : Vec F S256x2048 .bf16) (ya : Vec F S256x65 .f32) (z : Vec F S2048x65 .f32) : k0_pay41 (k0_pay40 hb ya z) = k0_pay23 hb ya z := rfl
theorem acc51 (hb : Vec F S256x2048 .bf16) (ya : Vec F S256x65 .f32) (z : Vec F S2048x65 .f32) : k0_pay51 (k0_pay50 hb ya z) = k0_pay23 hb ya z := rfl
theorem acc62 (hb : Vec F S256x2048 .bf16) (ya : Vec F S256x65 .f32) (z : Vec F S2048x65 .f32) : k0_pay62 hb (k0_pay61 ya) z = k0_pay23 hb ya z := rfl
theorem acc73 (hb : Vec F S256x2048 .bf16) (ya : Vec F S256x65 .f32) (z : Vec F S2048x65 .f32) : k0_pay73 hb (k0_pay72 ya) z = k0_pay23 hb ya z := rfl

theorem out87 (ye : FVec F S2048x65 .bf16) (bias : Vec F S64 .f32) (hb : Vec F S256x2048 .bf16) : k0_pay87 ye bias hb = k0_pay86 ye bias hb := rfl
theorem out93 (ye : FVec F S2048x65 .bf16) (bias : Vec F S64 .f32) (hb : Vec F S256x2048 .bf16) : k0_pay93 ye bias hb = k0_pay86 ye bias hb := rfl
theorem out94 (ye : FVec F S2048x65 .bf16) (bias : Vec F S64 .f32) (hb : Vec F S256x2048 .bf16) : k0_pay94 ye bias hb = k0_pay86 ye bias hb := rfl
theorem out95 (ye : FVec F S2048x65 .bf16) (bias : Vec F S64 .f32) (hb : Vec F S256x2048 .bf16) : k0_pay95 ye bias hb = k0_pay86 ye bias hb := rfl
theorem out96 (ye : FVec F S2048x65 .bf16) (bias : Vec F S64 .f32) (hb : Vec F S256x2048 .bf16) : k0_pay96 ye bias hb = k0_pay86 ye bias hb := rfl
theorem out99 (ye : FVec F S2048x65 .bf16) (bias : Vec F S64 .f32) (hb : Vec F S256x2048 .bf16) : k0_pay99 ye bias hb = k0_pay86 ye bias hb := rfl
theorem out100 (ye : FVec F S2048x65 .bf16) (bias : Vec F S64 .f32) (hb : Vec F S256x2048 .bf16) : k0_pay100 ye bias hb = k0_pay86 ye bias hb := rfl
theorem out104 (ye : FVec F S2048x65 .bf16) (bias : Vec F S64 .f32) (hb : Vec F S256x2048 .bf16) : k0_pay104 ye bias hb = k0_pay86 ye bias hb := rfl
theorem out105 (ye : FVec F S2048x65 .bf16) (bias : Vec F S64 .f32) (hb : Vec F S256x2048 .bf16) : k0_pay105 ye bias hb = k0_pay86 ye bias hb := rfl
theorem out83 (z : Vec F S2048x65 .f32) (bias : Vec F S64 .f32) (hb : Vec F S256x2048 .bf16) :
    k0_pay83 z bias hb = k0_pay86 (k0_pay82 z) bias hb := rfl
theorem out85 (z : Vec F S2048x65 .f32) (bias : Vec F S64 .f32) (hb : Vec F S256x2048 .bf16) :
    k0_pay85 (k0_pay84 z bias hb) = k0_pay86 (k0_pay82 z) bias hb := rfl
theorem out92 (ye : FVec F S2048x65 .bf16) (bias : Vec F S64 .f32) (hb : Vec F S256x2048 .bf16) : k0_pay92 bias (k0_pay89 ye hb) (k0_pay90 ye hb) k0_pay91 = k0_pay86 ye bias hb := rfl
theorem out98 (ye : FVec F S2048x65 .bf16) (bias : Vec F S64 .f32) (hb : Vec F S256x2048 .bf16) : k0_pay98 (k0_pay97 ye bias hb) = k0_pay86 ye bias hb := rfl
theorem out103 (ye : FVec F S2048x65 .bf16) (bias : Vec F S64 .f32) (hb : Vec F S256x2048 .bf16) : k0_pay103 (k0_pay101 ye hb) (k0_pay102 bias) = k0_pay86 ye bias hb := rfl
theorem out1 (ye : FVec F S2048x65 .bf16) (bias : Vec F S64 .f32) (hb : Vec F S256x2048 .bf16) : k0_pay1 bias (k0_pay107 ye hb) (k0_pay108 ye hb) = k0_pay86 ye bias hb := rfl

end Variants

/-! ## Real algebra of the two normalisations -/

/-- The normalised hyperedge features with the column of ones: columns 0 … 63 of hᵀ · y over its column 64 clamped below
    by one, column 64 ones. -/
def yeaug (h : Fin 4096 → Fin 2048 → ℝ) (ya : Fin 4096 → Fin 65 → ℝ) (e : Fin 2048) (o : Fin 65) : ℝ :=
  if o.val < 64 then zpart h ya 16 e o / max (zpart h ya 16 e (Fin.last 64)) 1 else 1

theorem yaug_castSucc (xr : Fin 4096 → Fin 64 → ℝ) (θ : Fin 64 → Fin 64 → ℝ) (v : Fin 4096) (o : Fin 64) :
    yaug xr θ v o.castSucc = ∑ k, xr v k * θ k o := by
  unfold yaug
  rw [dif_pos (by rw [Fin.coe_castSucc]; exact o.isLt)]
  rfl

theorem yaug_last (xr : Fin 4096 → Fin 64 → ℝ) (θ : Fin 64 → Fin 64 → ℝ) (v : Fin 4096) :
    yaug xr θ v (Fin.last 64) = 1 := by
  unfold yaug
  rw [dif_neg (by simp)]

/-- THE KERNEL'S ARRANGEMENT IS THE SPECIFICATION: contracting h against the normalised hyperedge features, whose column
    of ones gives the vertex degree, and dividing by that degree clamped below by one. -/
theorem kernel_form (xr : Fin 4096 → Fin 64 → ℝ) (h : Fin 4096 → Fin 2048 → ℝ) (θ : Fin 64 → Fin 64 → ℝ)
    (v : Fin 4096) (o : Fin 64) :
    (∑ e, h v e * yeaug h (yaug xr θ) e o.castSucc) / max (∑ e, h v e * yeaug h (yaug xr θ) e (Fin.last 64)) 1
      = vertMean h (edgeMean h fun v' => ∑ k, xr v' k * θ k o) v := by
  have hlast : ∀ e, yeaug h (yaug xr θ) e (Fin.last 64) = 1 := fun e => by
    unfold yeaug; rw [if_neg (by simp)]
  have hco : ∀ e, yeaug h (yaug xr θ) e o.castSucc = edgeMean h (fun v' => ∑ k, xr v' k * θ k o) e := fun e => by
    unfold yeaug edgeMean degE
    rw [if_pos (by rw [Fin.coe_castSucc]; exact o.isLt), zpart_sixteen, zpart_sixteen]
    simp only [yaug_castSucc, yaug_last, mul_one]
  unfold vertMean degV
  simp only [hlast, hco, mul_one]

/-! ## The generic steps -/

theorem hz2 : (![0, 0] : Fin 2 → Nat) = fun _ => 0 := funext fun a => by fin_cases a <;> rfl

/-- A covered load of the whole rectangle whose newest piece is the whole rectangle reads that piece. -/
theorem readCov_cons_whole {sig : RefSig} {κ : Kind} {sp : Space} {S : Shape} {e : EltTy} (v : View sig κ sp S e)
    {off off' : Fin S.rank → Nat} (ho : off = fun _ => 0) (ho' : off' = fun _ => 0)
    (inb : ∀ a, off a + S.size a ≤ S.size a) (inb' : ∀ a, off' a + S.size a ≤ S.size a)
    (w : S.Idx → Elt Ideal e) (L : List (View.Piece (Elt Ideal) S e)) :
    v.readCov ((⟨Rect.unit off S.size inb, w⟩ : View.Piece (Elt Ideal) S e) :: L) (Rect.unit off' S.size inb').toLoadRect = w := by
  subst ho; subst ho'
  rw [View.readCov_eq_canon_ld _ _ _ (fun y => ⟨_, List.mem_cons_self, View.mem_set_unit_zero rfl inb y⟩),
    View.canon_cons_unit_zero rfl, View.ld_unit_zero rfl]

section Steps
variable (xr : Fin 4096 → Fin 64 → ℝ) (h : Fin 4096 → Fin 2048 → ℝ) (θ : Fin 64 → Fin 64 → ℝ) (b : Fin 64 → ℝ)

/-- ONE ACCUMULATION STEP: from the contraction over k chunks to the contraction over k + 1. -/
theorem acc_step (hbv : Vec Ideal S256x2048 .bf16) (yav : Vec Ideal S256x65 .f32) (zv : Vec Ideal S2048x65 .f32) (k : ℕ)
    (hhb : ∀ r e, hbv (ix2 r e) = (h (chunkRowN k r) e : EReal))
    (hya : ∀ r o, yav (ix2 r o) = (yaug xr θ (chunkRowN k r) o : EReal))
    (hz : ∀ e o, zv (ix2 e o) = ((zpart h (yaug xr θ) k e o : ℝ) : EReal)) (e : Fin 2048) (o : Fin 65) :
    k0_pay23 (F := Ideal) hbv yav zv (ix2 e o) = ((zpart h (yaug xr θ) (k + 1) e o : ℝ) : EReal) := by
  rw [accum_apply, hz]
  simp only [hhb, hya]
  rw [← coe_sum_mul, ← EReal.coe_add]
  rfl

/-- ONE OUTPUT TILE: rows 256k … of the result. -/
theorem out_piece (yev : FVec Ideal S2048x65 .bf16) (biasv : Vec Ideal S64 .f32) (hbv : Vec Ideal S256x2048 .bf16) (k : ℕ)
    (hhb : ∀ r e, hbv (ix2 r e) = (h (chunkRowN k r) e : EReal))
    (hye : ∀ e o, yev (ix2 e o) = (yeaug h (yaug xr θ) e o : EReal))
    (hbias : ∀ o, biasv (ix1 o) = (b o : EReal)) (r : Fin 256) (o : Fin 64) :
    k0_pay86 (F := Ideal) yev biasv hbv (ix3 (0 : Fin 1) r o)
      = ((vertMean h (edgeMean h fun v' => ∑ k', xr v' k' * θ k' o) (chunkRowN k r) + b o : ℝ) : EReal) := by
  rw [out_apply]
  simp only [hhb, hye, hbias]
  rw [← coe_sum_mul, ← coe_sum_mul, div_max_one, ← EReal.coe_add, kernel_form]

end Steps

/-! ## The chain, value by value -/

section Chain
variable (c : Dev nD) (i : grid0.Coords) (arg2 : Memref sig .tc .vmem S1x4096x64 .f32) (harg2 : arg2.IsWhole) (arg3 : Memref sig .tc .vmem S64x64 .f32) (harg3 : arg3.IsWhole) (arg4 : Memref sig .tc .vmem S64 .f32) (harg4 : arg4.IsWhole) (arg5 : Memref sig .tc .vmem S1x4096x64 .f32) (harg5 : arg5.IsWhole) (arg6 : Memref sig .tc .vmem S4096x2048 .bf16) (harg6 : arg6.IsWhole) (arg7 : Memref sig .tc .vmem S2x256x2048 .f32) (harg7 : arg7.IsWhole) (arg8 : Memref sig .tc .vmem S2048x65 .f32) (harg8 : arg8.IsWhole) (arg9 : Memref sig .tc .vmem S256x65 .f32) (harg9 : arg9.IsWhole)
  (x0 : Vec Ideal S1x4096x64 .f32) (x1 : Vec Ideal S64x64 .f32) (x2 : Vec Ideal S64 .f32)
  (fh0 : HbBuf0 (F := Ideal) c hbM0_0) (fs1 : BufTy.Contents (Elt Ideal) arg7.view.ty)
  (n : Fin 4) (hn : (i 0).val = n.val)
  (xr : Fin 4096 → Fin 64 → ℝ) (h : Fin 4096 → Fin 2048 → ℝ) (θ : Fin 64 → Fin 64 → ℝ) (b : Fin 64 → ℝ)
  (hx0 : ∀ v k, x0 (ix3 (0 : Fin 1) v k) = (xr v k : EReal))
  (hx1 : ∀ k o, x1 (ix2 k o) = (θ k o : EReal))
  (hx2 : ∀ o, x2 (ix1 o) = (b o : EReal))
  (hH : ∀ v e, fh0 (ix3 n v e) = (h v e : EReal))
include hn hx0 hx1 hH

omit hn hx0 hx1 hH in
/-- Before the first chunk the accumulator is the zero block. -/
theorem z0 (e : Fin 2048) (o : Fin 65) :
    kernelRunRaw.sl.v340 (F := Ideal) c arg8 (ix2 e o) = ((zpart h (yaug xr θ) 0 e o : ℝ) : EReal) := by
  unfold kernelRunRaw.sl.v340 kernelRunRaw.sl.HS2_1
  rw [View.readCov_unit_zero _ hz2, zeros_apply]
  simp [zpart]

/-- After chunk 0 the accumulator holds the contraction over the first 1 chunk. -/
theorem z1 (e : Fin 2048) (o : Fin 65) :
    kernelRunRaw.sl.v360 (F := Ideal) c i arg2 harg2 arg3 harg3 arg6 arg7 arg8 arg9 x0 x1 fh0 fs1 (ix2 e o) = ((zpart h (yaug xr θ) 1 e o : ℝ) : EReal) := by
  unfold kernelRunRaw.sl.v360 kernelRunRaw.sl.HS2_2
  rw [readCov_cons_whole _ hz2 hz2]
  exact acc_step xr h θ _ _ _ 0 (KernelHb.hb0 c i arg6 arg7 fh0 fs1 n hn h hH)
    (KernelFeat.ya0 c arg2 harg2 arg3 harg3 arg9 x0 x1 xr θ hx0 hx1) (z0 c arg8 xr h θ) e o

/-- After chunk 1 the accumulator holds the contraction over the first 2 chunks. -/
theorem z2 (e : Fin 2048) (o : Fin 65) :
    kernelRunRaw.sl.v380 (F := Ideal) c i arg2 harg2 arg3 harg3 arg6 arg7 arg8 arg9 x0 x1 fh0 fs1 (ix2 e o) = ((zpart h (yaug xr θ) 2 e o : ℝ) : EReal) := by
  unfold kernelRunRaw.sl.v380 kernelRunRaw.sl.HS2_3
  rw [readCov_cons_whole _ hz2 hz2, acc27]
  exact acc_step xr h θ _ _ _ 1 (KernelHb.hb1 c i arg6 arg7 fh0 fs1 n hn h hH)
    (KernelFeat.ya1 c arg2 harg2 arg3 harg3 arg9 x0 x1 xr θ hx0 hx1) (z1 c i arg2 harg2 arg3 harg3 arg6 arg7 arg8 arg9 x0 x1 fh0 fs1 n hn xr h θ hx0 hx1 hH) e o

/-- After chunk 2 the accumulator holds the contraction over the first 3 chunks. -/
theorem z3 (e : Fin 2048) (o : Fin 65) :
    kernelRunRaw.sl.v400 (F := Ideal) c i arg2 harg2 arg3 harg3 arg6 arg7 arg8 arg9 x0 x1 fh0 fs1 (ix2 e o) = ((zpart h (yaug xr θ) 3 e o : ℝ) : EReal) := by
  unfold kernelRunRaw.sl.v400 kernelRunRaw.sl.HS2_4
  rw [readCov_cons_whole _ hz2 hz2, acc30]
  exact acc_step xr h θ _ _ _ 2 (KernelHb.hb2 c i arg6 arg7 fh0 fs1 n hn h hH)
    (KernelFeat.ya2 c arg2 harg2 arg3 harg3 arg9 x0 x1 xr θ hx0 hx1) (z2 c i arg2 harg2 arg3 harg3 arg6 arg7 arg8 arg9 x0 x1 fh0 fs1 n hn xr h θ hx0 hx1 hH) e o

/-- After chunk 3 the accumulator holds the contraction over the first 4 chunks. -/
theorem z4 (e : Fin 2048) (o : Fin 65) :
    kernelRunRaw.sl.v420 (F := Ideal) c i arg2 harg2 arg3 harg3 arg6 arg7 arg8 arg9 x0 x1 fh0 fs1 (ix2 e o) = ((zpart h (yaug xr θ) 4 e o : ℝ) : EReal) := by
  unfold kernelRunRaw.sl.v420 kernelRunRaw.sl.HS2_5
  rw [readCov_cons_whole _ hz2 hz2, acc33]
  exact acc_step xr h θ _ _ _ 3 (KernelHb.hb3 c i arg6 arg7 fh0 fs1 n hn h hH)
    (KernelFeat.ya3 c arg2 harg2 arg3 harg3 arg9 x0 x1 xr θ hx0 hx1) (z3 c i arg2 harg2 arg3 harg3 arg6 arg7 arg8 arg9 x0 x1 fh0 fs1 n hn xr h θ hx0 hx1 hH) e o

/-- After chunk 4 the accumulator holds the contraction over the first 5 chunks. -/
theorem z5 (e : Fin 2048) (o : Fin 65) :
    kernelRunRaw.sl.v440 (F := Ideal) c i arg2 harg2 arg3 harg3 arg6 arg7 arg8 arg9 x0 x1 fh0 fs1 (ix2 e o) = ((zpart h (yaug xr θ) 5 e o : ℝ) : EReal) := by
  unfold kernelRunRaw.sl.v440 kernelRunRaw.sl.HS2_6
  rw [readCov_cons_whole _ hz2 hz2, acc37]
  exact acc_step xr h θ _ _ _ 4 (KernelHb.hb4 c i arg6 arg7 fh0 fs1 n hn h hH)
    (KernelFeat.ya4 c arg2 harg2 arg3 harg3 arg9 x0 x1 xr θ hx0 hx1) (z4 c i arg2 harg2 arg3 harg3 arg6 arg7 arg8 arg9 x0 x1 fh0 fs1 n hn xr h θ hx0 hx1 hH) e o

/-- After chunk 5 the accumulator holds the contraction over the first 6 chunks. -/
theorem z6 (e : Fin 2048) (o : Fin 65) :
    kernelRunRaw.sl.v460 (F := Ideal) c i arg2 harg2 arg3 harg3 arg6 arg7 arg8 arg9 x0 x1 fh0 fs1 (ix2 e o) = ((zpart h (yaug xr θ) 6 e o : ℝ) : EReal) := by
  unfold kernelRunRaw.sl.v460 kernelRunRaw.sl.HS2_7 kernelRunRaw.sl.r_3
  rw [readCov_cons_whole _ hz2 hz2, acc41]
  exact acc_step xr h θ _ _ _ 5 (KernelHb.hb5 c i arg6 arg7 fh0 fs1 n hn h hH)
    (KernelFeat.ya5 c arg2 harg2 arg3 harg3 arg9 x0 x1 xr θ hx0 hx1) (z5 c i arg2 harg2 arg3 harg3 arg6 arg7 arg8 arg9 x0 x1 fh0 fs1 n hn xr h θ hx0 hx1 hH) e o

/-- After chunk 6 the accumulator holds the contraction over the first 7 chunks. -/
theorem z7 (e : Fin 2048) (o : Fin 65) :
    kernelRunRaw.sl.v480 (F := Ideal) c i arg2 harg2 arg3 harg3 arg6 arg7 arg8 arg9 x0 x1 fh0 fs1 (ix2 e o) = ((zpart h (yaug xr θ) 7 e o : ℝ) : EReal) := by
  unfold kernelRunRaw.sl.v480 kernelRunRaw.sl.HS2_8
  rw [readCov_cons_whole _ hz2 hz2, acc44]
  exact acc_step xr h θ _ _ _ 6 (KernelHb.hb6 c i arg6 arg7 fh0 fs1 n hn h hH)
    (KernelFeat.ya6 c arg2 harg2 arg3 harg3 arg9 x0 x1 xr θ hx0 hx1) (z6 c i arg2 harg2 arg3 harg3 arg6 arg7 arg8 arg9 x0 x1 fh0 fs1 n hn xr h θ hx0 hx1 hH) e o

/-- After chunk 7 the accumulator holds the contraction over the first 8 chunks. -/
theorem z8 (e : Fin 2048) (o : Fin 65) :
    kernelRunRaw.sl.v500 (F := Ideal) c i arg2 harg2 arg3 harg3 arg6 arg7 arg8 arg9 x0 x1 fh0 fs1 (ix2 e o) = ((zpart h (yaug xr θ) 8 e o : ℝ) : EReal) := by
  unfold kernelRunRaw.sl.v500 kernelRunRaw.sl.HS2_9
  rw [readCov_cons_whole _ hz2 hz2, acc47]
  exact acc_step xr h θ _ _ _ 7 (KernelHb.hb7 c i arg6 arg7 fh0 fs1 n hn h hH)
    (KernelFeat.ya7 c arg2 harg2 arg3 harg3 arg9 x0 x1 xr θ hx0 hx1) (z7 c i arg2 harg2 arg3 harg3 arg6 arg7 arg8 arg9 x0 x1 fh0 fs1 n hn xr h θ hx0 hx1 hH) e o

/-- After chunk 8 the accumulator holds the contraction over the first 9 chunks. -/
theorem z9 (e : Fin 2048) (o : Fin 65) :
    kernelRunRaw.sl.v520 (F := Ideal) c i arg2 harg2 arg3 harg3 arg6 arg7 arg8 arg9 x0 x1 fh0 fs1 (ix2 e o) = ((zpart h (yaug xr θ) 9 e o : ℝ) : EReal) := by
  unfold kernelRunRaw.sl.v520 kernelRunRaw.sl.HS2_10 kernelRunRaw.sl.r_5
  rw [readCov_cons_whole _ hz2 hz2, acc51]
  exact acc_step xr h θ _ _ _ 8 (KernelHb.hb8 c i arg6 arg7 fh0 fs1 n hn h hH)
    (KernelFeat.ya8 c arg2 harg2 arg3 harg3 arg9 x0 x1 xr θ hx0 hx1) (z8 c i arg2 harg2 arg3 harg3 arg6 arg7 arg8 arg9 x0 x1 fh0 fs1 n hn xr h θ hx0 hx1 hH) e o

/-- After chunk 9 the accumulator holds the contraction over the first 10 chunks. -/
theorem z10 (e : Fin 2048) (o : Fin 65) :
    kernelRunRaw.sl.v540 (F := Ideal) c i arg2 harg2 arg3 harg3 arg6 arg7 arg8 arg9 x0 x1 fh0 fs1 (ix2 e o) = ((zpart h (yaug xr θ) 10 e o : ℝ) : EReal) := by
  unfold kernelRunRaw.sl.v540 kernelRunRaw.sl.HS2_11
  rw [readCov_cons_whole _ hz2 hz2, acc54]
  exact acc_step xr h θ _ _ _ 9 (KernelHb.hb9 c i arg6 arg7 fh0 fs1 n hn h hH)
    (KernelFeat.ya9 c arg2 harg2 arg3 harg3 arg9 x0 x1 xr θ hx0 hx1) (z9 c i arg2 harg2 arg3 harg3 arg6 arg7 arg8 arg9 x0 x1 fh0 fs1 n hn xr h θ hx0 hx1 hH) e o

/-- After chunk 10 the accumulator holds the contraction over the first 11 chunks. -/
theorem z11 (e : Fin 2048) (o : Fin 65) :
    kernelRunRaw.sl.v560 (F := Ideal) c i arg2 harg2 arg3 harg3 arg6 arg7 arg8 arg9 x0 x1 fh0 fs1 (ix2 e o) = ((zpart h (yaug xr θ) 11 e o : ℝ) : EReal) := by
  unfold kernelRunRaw.sl.v560 kernelRunRaw.sl.HS2_12
  rw [readCov_cons_whole _ hz2 hz2, acc58]
  exact acc_step xr h θ _ _ _ 10 (KernelHb.hb10 c i arg6 arg7 fh0 fs1 n hn h hH)
    (KernelFeat.ya10 c arg2 harg2 arg3 harg3 arg9 x0 x1 xr θ hx0 hx1) (z10 c i arg2 harg2 arg3 harg3 arg6 arg7 arg8 arg9 x0 x1 fh0 fs1 n hn xr h θ hx0 hx1 hH) e o

/-- After chunk 11 the accumulator holds the contraction over the first 12 chunks. -/
theorem z12 (e : Fin 2048) (o : Fin 65) :
    kernelRunRaw.sl.v580 (F := Ideal) c i arg2 harg2 arg3 harg3 arg6 arg7 arg8 arg9 x0 x1 fh0 fs1 (ix2 e o) = ((zpart h (yaug xr θ) 12 e o : ℝ) : EReal) := by
  unfold kernelRunRaw.sl.v580 kernelRunRaw.sl.HS2_13 kernelRunRaw.sl.r_7
  rw [readCov_cons_whole _ hz2 hz2, acc62]
  exact acc_step xr h θ _ _ _ 11 (KernelHb.hb11 c i arg6 arg7 fh0 fs1 n hn h hH)
    (KernelFeat.ya11 c arg2 harg2 arg3 harg3 arg9 x0 x1 xr θ hx0 hx1) (z11 c i arg2 harg2 arg3 harg3 arg6 arg7 arg8 arg9 x0 x1 fh0 fs1 n hn xr h θ hx0 hx1 hH) e o

/-- After chunk 12 the accumulator holds the contraction over the first 13 chunks. -/
theorem z13 (e : Fin 2048) (o : Fin 65) :
    kernelRunRaw.sl.v600 (F := Ideal) c i arg2 harg2 arg3 harg3 arg6 arg7 arg8 arg9 x0 x1 fh0 fs1 (ix2 e o) = ((zpart h (yaug xr θ) 13 e o : ℝ) : EReal) := by
  unfold kernelRunRaw.sl.v600 kernelRunRaw.sl.HS2_14
  rw [readCov_cons_whole _ hz2 hz2, acc65]
  exact acc_step xr h θ _ _ _ 12 (KernelHb.hb12 c i arg6 arg7 fh0 fs1 n hn h hH)
    (KernelFeat.ya12 c arg2 harg2 arg3 harg3 arg9 x0 x1 xr θ hx0 hx1) (z12 c i arg2 harg2 arg3 harg3 arg6 arg7 arg8 arg9 x0 x1 fh0 fs1 n hn xr h θ hx0 hx1 hH) e o

/-- After chunk 13 the accumulator holds the contraction over the first 14 chunks. -/
theorem z14 (e : Fin 2048) (o : Fin 65) :
    kernelRunRaw.sl.v620 (F := Ideal) c i arg2 harg2 arg3 harg3 arg6 arg7 arg8 arg9 x0 x1 fh0 fs1 (ix2 e o) = ((zpart h (yaug xr θ) 14 e o : ℝ) : EReal) := by
  unfold kernelRunRaw.sl.v620 kernelRunRaw.sl.HS2_15
  rw [readCov_cons_whole _ hz2 hz2, acc69]
  exact acc_step xr h θ _ _ _ 13 (KernelHb.hb13 c i arg6 arg7 fh0 fs1 n hn h hH)
    (KernelFeat.ya13 c arg2 harg2 arg3 harg3 arg9 x0 x1 xr θ hx0 hx1) (z13 c i arg2 harg2 arg3 harg3 arg6 arg7 arg8 arg9 x0 x1 fh0 fs1 n hn xr h θ hx0 hx1 hH) e o

/-- After chunk 14 the accumulator holds the contraction over the first 15 chunks. -/
theorem z15 (e : Fin 2048) (o : Fin 65) :
    kernelRunRaw.sl.v640 (F := Ideal) c i arg2 harg2 arg3 harg3 arg6 arg7 arg8 arg9 x0 x1 fh0 fs1 (ix2 e o) = ((zpart h (yaug xr θ) 15 e o : ℝ) : EReal) := by
  unfold kernelRunRaw.sl.v640 kernelRunRaw.sl.HS2_16 kernelRunRaw.sl.r_9
  rw [readCov_cons_whole _ hz2 hz2, acc73]
  exact acc_step xr h θ _ _ _ 14 (KernelHb.hb14 c i arg6 arg7 fh0 fs1 n hn h hH)
    (KernelFeat.ya14 c arg2 harg2 arg3 harg3 arg9 x0 x1 xr θ hx0 hx1) (z14 c i arg2 harg2 arg3 harg3 arg6 arg7 arg8 arg9 x0 x1 fh0 fs1 n hn xr h θ hx0 hx1 hH) e o

/-- After chunk 15 the accumulator holds the contraction over the first 16 chunks. -/
theorem z16 (e : Fin 2048) (o : Fin 65) :
    kernelRunRaw.sl.v646 (F := Ideal) c i arg2 harg2 arg3 harg3 arg6 arg7 arg8 arg9 x0 x1 fh0 fs1 (ix2 e o) = ((zpart h (yaug xr θ) 16 e o : ℝ) : EReal) := by
  unfold kernelRunRaw.sl.v646 kernelRunRaw.sl.HS2_17
  rw [readCov_cons_whole _ hz2 hz2, acc76]
  exact acc_step xr h θ _ _ _ 15 (KernelHb.hb15 c i arg6 arg7 fh0 fs1 n hn h hH)
    (KernelFeat.ya15 c arg2 harg2 arg3 harg3 arg9 x0 x1 xr θ hx0 hx1) (z15 c i arg2 harg2 arg3 harg3 arg6 arg7 arg8 arg9 x0 x1 fh0 fs1 n hn xr h θ hx0 hx1 hH) e o

end Chain

end Cert.Hgnn.KernelChain

end
-- ==== Proof.KernelNorm.lean ====
/-
  The normalised hyperedge features as the body loads them.

  After the sixteen accumulation steps the body loads the accumulator z (2048 × 65), stores z e o / max (z e 64) 1 in
  columns 0 … 63 and ones in column 64, and loads the buffer whole: the hyperedge features [edgeMean | 1].
-/
import proofs.«414075_j24292335026750_3_alg».proof.Proof.KernelChain

set_option maxRecDepth 16384

noncomputable section

namespace Cert.Hgnn.KernelNorm

open Idealize.ShloMosaic Idealize.ShloMosaic.ValueIdx Idealize.SL.Sem
open Cert.KernelIdeal Cert.KernelIdeal.Gen Cert.KernelIdeal.GenP Cert.Hgnn Cert.Hgnn.Payloads Cert.Hgnn.KernelChain
open scoped BigOperators

/-! ## Reading the 2048 × 65 buffer whole, after a block of 64 columns and then a last column were stored -/

/-- The buffer read whole at (e, o), after columns 0 … 63 and then column 64 were stored last: the block's entry for
    o < 64, the column's entry for o = 64, whatever was stored before. -/
theorem edge_read {Val : EltTy → Type} [∀ e, Nonempty (Val e)] {e : EltTy} {sp : Space} (v : View sig .tc sp S2048x65 e)
    (inbW : ∀ a, (![0, 0] : Fin 2 → Nat) a + S2048x65.size a ≤ S2048x65.size a)
    (inb1 : ∀ a, (![0, 64] : Fin 2 → Nat) a + S2048x1.size a ≤ S2048x65.size a)
    (inb0 : ∀ a, (![0, 0] : Fin 2 → Nat) a + S2048x64.size a ≤ S2048x65.size a)
    (O : S2048x1.Idx → Val e) (B : S2048x64.Idx → Val e) (Lold : List (View.Piece Val S2048x65 e))
    (r : Fin 2048) (o : Fin 65) :
    v.readCov ((⟨Rect.unit (s := S2048x65) ![0, 64] S2048x1.size inb1, O⟩ : View.Piece Val S2048x65 e) :: (⟨Rect.unit (s := S2048x65) ![0, 0] S2048x64.size inb0, B⟩ : View.Piece Val S2048x65 e) :: Lold)
        (Rect.unit (s := S2048x65) ![0, 0] S2048x65.size inbW).toLoadRect (ix2 r o)
      = if h : o.val < 64 then B (ix2 r ⟨o.val, h⟩) else O (ix2 r (0 : Fin 1)) := by
  rw [View.readCov_eq_canon']
  have hidx : (Rect.unit (s := S2048x65) ![0, 0] S2048x65.size inbW).toLoadRect.idx (ix2 r o) = (ix2 r o : S2048x65.Idx) :=
    funext fun a => Fin.ext (by
      match a with
      | ⟨0, _⟩ => show 0 + 1 * r.val = r.val; omega
      | ⟨1, _⟩ => show 0 + 1 * o.val = o.val; omega)
  show View.canon _ ((Rect.unit (s := S2048x65) ![0, 0] S2048x65.size inbW).toLoadRect.idx (ix2 r o)) = _
  rw [hidx]
  by_cases h : o.val < 64
  · rw [dif_pos h]
    have hnot : (ix2 r o : S2048x65.Idx) ∉ (Rect.unit (s := S2048x65) ![0, 64] S2048x1.size inb1).set := by
      rw [Rect.mem_set_unit]
      intro hm
      have h1 : (64 : Nat) ≤ o.val ∧ o.val < 64 + 1 := hm 1
      omega
    have e0 : (ix2 r o : S2048x65.Idx) = (Rect.unit (s := S2048x65) ![0, 0] S2048x64.size inb0).emb (ix2 r (⟨o.val, h⟩ : Fin 64)) :=
      funext fun a => Fin.ext (by
        match a with
        | ⟨0, _⟩ => show r.val = 0 + 1 * r.val; omega
        | ⟨1, _⟩ => show o.val = 0 + 1 * o.val; omega)
    refine (View.canon_cons_of_not_mem (⟨Rect.unit (s := S2048x65) ![0, 64] S2048x1.size inb1, O⟩ : View.Piece Val S2048x65 e) ((⟨Rect.unit (s := S2048x65) ![0, 0] S2048x64.size inb0, B⟩ : View.Piece Val S2048x65 e) :: Lold) hnot).trans ?_
    refine (congrArg (View.canon ((⟨Rect.unit (s := S2048x65) ![0, 0] S2048x64.size inb0, B⟩ : View.Piece Val S2048x65 e) :: Lold)) e0).trans ?_
    exact View.canon_cons_emb (Rect.unit (s := S2048x65) ![0, 0] S2048x64.size inb0) B Lold (ix2 r (⟨o.val, h⟩ : Fin 64))
  · rw [dif_neg h]
    have ho : o.val < 65 := o.isLt
    have e1 : (ix2 r o : S2048x65.Idx) = (Rect.unit (s := S2048x65) ![0, 64] S2048x1.size inb1).emb (ix2 r (0 : Fin 1)) :=
      funext fun a => Fin.ext (by
        match a with
        | ⟨0, _⟩ => show r.val = 0 + 1 * r.val; omega
        | ⟨1, _⟩ => show o.val = 64 + 1 * 0; omega)
    refine (congrArg (View.canon ((⟨Rect.unit (s := S2048x65) ![0, 64] S2048x1.size inb1, O⟩ : View.Piece Val S2048x65 e) :: (⟨Rect.unit (s := S2048x65) ![0, 0] S2048x64.size inb0, B⟩ : View.Piece Val S2048x65 e) :: Lold)) e1).trans ?_
    exact View.canon_cons_emb (Rect.unit (s := S2048x65) ![0, 64] S2048x1.size inb1) O ((⟨Rect.unit (s := S2048x65) ![0, 0] S2048x64.size inb0, B⟩ : View.Piece Val S2048x65 e) :: Lold) (ix2 r (0 : Fin 1))

/-! ## The normalised hyperedge features -/

section
variable (c : Dev nD) (i : grid0.Coords) (arg2 : Memref sig .tc .vmem S1x4096x64 .f32) (harg2 : arg2.IsWhole) (arg3 : Memref sig .tc .vmem S64x64 .f32) (harg3 : arg3.IsWhole) (arg4 : Memref sig .tc .vmem S64 .f32) (harg4 : arg4.IsWhole) (arg5 : Memref sig .tc .vmem S1x4096x64 .f32) (harg5 : arg5.IsWhole) (arg6 : Memref sig .tc .vmem S4096x2048 .bf16) (harg6 : arg6.IsWhole) (arg7 : Memref sig .tc .vmem S2x256x2048 .f32) (harg7 : arg7.IsWhole) (arg8 : Memref sig .tc .vmem S2048x65 .f32) (harg8 : arg8.IsWhole) (arg9 : Memref sig .tc .vmem S256x65 .f32) (harg9 : arg9.IsWhole)
  (x0 : Vec Ideal S1x4096x64 .f32) (x1 : Vec Ideal S64x64 .f32) (x2 : Vec Ideal S64 .f32)
  (fh0 : HbBuf0 (F := Ideal) c hbM0_0) (fs1 : BufTy.Contents (Elt Ideal) arg7.view.ty)
  (n : Fin 4) (hn : (i 0).val = n.val)
  (xr : Fin 4096 → Fin 64 → ℝ) (h : Fin 4096 → Fin 2048 → ℝ) (θ : Fin 64 → Fin 64 → ℝ) (b : Fin 64 → ℝ)
  (hx0 : ∀ v k, x0 (ix3 (0 : Fin 1) v k) = (xr v k : EReal))
  (hx1 : ∀ k o, x1 (ix2 k o) = (θ k o : EReal))
  (hx2 : ∀ o, x2 (ix1 o) = (b o : EReal))
  (hH : ∀ v e, fh0 (ix3 n v e) = (h v e : EReal))
include hn hx0 hx1 hH

/-- The normalised hyperedge features with their column of ones, entry by entry. -/
theorem ye_val (e : Fin 2048) (o : Fin 65) :
    kernelRunRaw.sl.v660 (F := Ideal) c i arg2 harg2 arg3 harg3 arg6 arg7 arg8 arg9 x0 x1 fh0 fs1 (ix2 e o)
      = ((yeaug h (yaug xr θ) e o : ℝ) : EReal) := by
  unfold kernelRunRaw.sl.v660 kernelRunRaw.sl.HS2_19 kernelRunRaw.sl.r_10 kernelRunRaw.sl.r_11
  rw [edge_read]
  unfold yeaug
  by_cases ho : o.val < 64
  · have hoc : (⟨o.val, ho⟩ : Fin 64).castSucc = o := Fin.ext rfl
    rw [dif_pos ho, if_pos ho, Payloads.norm_apply,
      z16 c i arg2 harg2 arg3 harg3 arg6 arg7 arg8 arg9 x0 x1 fh0 fs1 n hn xr h θ hx0 hx1 hH e (⟨o.val, ho⟩ : Fin 64).castSucc,
      z16 c i arg2 harg2 arg3 harg3 arg6 arg7 arg8 arg9 x0 x1 fh0 fs1 n hn xr h θ hx0 hx1 hH e (Fin.last 64),
      Cert.Hgnn.div_max_one, hoc]
  · rw [dif_neg ho, if_neg ho, Payloads.ones_edge_apply, EReal.coe_one]

end

end Cert.Hgnn.KernelNorm

end
-- ==== Proof.KernelSide.lean ====
/-
  What the kernel's body leaves in its output block, entry by entry.

  At a grid point the body sees one batch element: the block x of vertex features (4096 × 64), the weights θ, the bias b
  and, through its own copies from the array left in memory, that batch element's incidence matrix h (4096 × 2048).
  It keeps h resident, forms y = x · θ chunk by chunk with a column of ones appended, accumulates hᵀ · [y | 1]
  over sixteen chunks of 256 vertices (column 64 is the hyperedge degree), divides by the degree clamped below by
  one, resets column 64 to ones, forms h · [z / deg | 1] chunk by chunk (column 64 is the vertex degree), divides by
  that degree clamped below by one and adds the bias, and stores the sixteen 256-row tiles of the result. Each tile is the
  specification's vertMean h (edgeMean h y) + b on its rows, and the tiles cover the block.
-/
import proofs.«414075_j24292335026750_3_alg».proof.Proof.KernelIdealFrame
import proofs.«414075_j24292335026750_3_alg».proof.Proof.KernelNorm

set_option maxRecDepth 16384

noncomputable section

namespace Cert.Hgnn.KernelSide

open Idealize.ShloMosaic Idealize.ShloMosaic.ValueIdx Idealize.ShloMosaic.TcCoe Idealize.SL.Sem
open Cert.KernelIdeal Cert.KernelIdeal.Gen Cert.KernelIdeal.GenP Cert.Hgnn Cert.Hgnn.Payloads Cert.Hgnn.KernelChain
open scoped BigOperators

theorem hz1 : (![0] : Fin 1 → Nat) = fun _ => 0 := funext fun a => by fin_cases a; rfl

/-- The bias as the body loads it. -/
theorem bias_val (arg4 : Memref sig .tc .vmem S64 .f32) (harg4 : arg4.IsWhole) (x2 : Vec Ideal S64 .f32) (b : Fin 64 → ℝ)
    (hx2 : ∀ o, x2 (ix1 o) = (b o : EReal)) (inb : ∀ a, (![0] : Fin 1 → Nat) a + S64.size a ≤ S64.size a) (o : Fin 64) :
    View.readAt (Elt Ideal) arg4.view (Rect.unit ![0] S64.size inb).toLoadRect (harg4.unread x2) (ix1 o) = (b o : EReal) := by
  rw [View.readAt_eq_ld, harg4.read_unread, View.ld_unit_zero hz1]
  exact hx2 o

section Tiles
variable (xr : Fin 4096 → Fin 64 → ℝ) (h : Fin 4096 → Fin 2048 → ℝ) (θ : Fin 64 → Fin 64 → ℝ) (b : Fin 64 → ℝ)

/-- The specification's values for one batch element, over the block's index. -/
def blockSpec : S1x4096x64.Idx → EReal :=
  fun y => ((vertMean h (edgeMean h fun v' => ∑ k, xr v' k * θ k (y 2)) (y 1) + b (y 2) : ℝ) : EReal)

/-- A 256-row tile at row offset 256 k whose entries are the specification's on its rows agrees with the block's
    specification through the tile's rectangle. -/
theorem tile_agree (k : ℕ) (hk : k < 16) (off : ℕ) (hoff : off = 256 * k)
    (inb : ∀ a, (![0, off, 0] : Fin 3 → Nat) a + S1x256x64.size a ≤ S1x4096x64.size a)
    (w : S1x256x64.Idx → EReal)
    (hw : ∀ (r : Fin 256) (o : Fin 64), w (ix3 (0 : Fin 1) r o)
      = ((vertMean h (edgeMean h fun v' => ∑ k', xr v' k' * θ k' o) (chunkRowN k r) + b o : ℝ) : EReal))
    (x : S1x256x64.Idx) :
    w x = blockSpec xr h θ b ((Rect.unit (s := S1x4096x64) ![0, off, 0] S1x256x64.size inb).emb x) := by
  subst hoff
  obtain ⟨r, o, rfl⟩ : ∃ (r : Fin 256) (o : Fin 64), x = ix3 (0 : Fin 1) r o :=
    ⟨x 1, x 2, by
      have h0 : x 0 = (0 : Fin 1) := Subsingleton.elim (α := Fin 1) _ _
      exact (eq_ix3 x).trans (congrArg (fun a => ix3 a (x 1) (x 2)) h0)⟩
  rw [hw]
  unfold blockSpec
  have e1 : ((Rect.unit (s := S1x4096x64) ![0, 256 * k, 0] S1x256x64.size inb).emb (ix3 (0 : Fin 1) r o)) 1
      = chunkRowN k r := by
    apply Fin.ext
    rw [Rect.emb_apply]
    have := r.isLt
    show 256 * k + 1 * r.val = (256 * k + r.val) % 4096
    rw [Nat.mod_eq_of_lt (by omega)]
    omega
  have e2 : ((Rect.unit (s := S1x4096x64) ![0, 256 * k, 0] S1x256x64.size inb).emb (ix3 (0 : Fin 1) r o)) 2
      = o := by
    apply Fin.ext
    rw [Rect.emb_apply]
    show 0 + 1 * o.val = o.val
    omega
  rw [e1, e2]

end Tiles

/-- THE OUTPUT BLOCK of the body at a grid point whose coordinate is batch element n, for real data. -/
theorem out_block (c : Dev nD) (i : grid0.Coords) (arg2 : Memref sig .tc .vmem S1x4096x64 .f32) (harg2 : arg2.IsWhole) (arg3 : Memref sig .tc .vmem S64x64 .f32) (harg3 : arg3.IsWhole) (arg4 : Memref sig .tc .vmem S64 .f32) (harg4 : arg4.IsWhole) (arg5 : Memref sig .tc .vmem S1x4096x64 .f32) (harg5 : arg5.IsWhole) (arg6 : Memref sig .tc .vmem S4096x2048 .bf16) (harg6 : arg6.IsWhole) (arg7 : Memref sig .tc .vmem S2x256x2048 .f32) (harg7 : arg7.IsWhole) (arg8 : Memref sig .tc .vmem S2048x65 .f32) (harg8 : arg8.IsWhole) (arg9 : Memref sig .tc .vmem S256x65 .f32) (harg9 : arg9.IsWhole)
    (x0 : Vec Ideal S1x4096x64 .f32) (x1 : Vec Ideal S64x64 .f32) (x2 : Vec Ideal S64 .f32)
    (fh0 : HbBuf0 (F := Ideal) c hbM0_0)
    (n : Fin 4) (hn : (i 0).val = n.val)
    (xr : Fin 4096 → Fin 64 → ℝ) (h : Fin 4096 → Fin 2048 → ℝ) (θ : Fin 64 → Fin 64 → ℝ) (b : Fin 64 → ℝ)
    (hx0 : ∀ v k, x0 (ix3 (0 : Fin 1) v k) = (xr v k : EReal))
    (hx1 : ∀ k o, x1 (ix2 k o) = (θ k o : EReal))
    (hx2 : ∀ o, x2 (ix1 o) = (b o : EReal))
    (hH : ∀ v e, fh0 (ix3 n v e) = (h v e : EReal))
    (v : Fin 4096) (o : Fin 64) :
    out0_A_3 c i arg2 harg2 arg3 harg3 arg4 harg4 arg5 harg5 arg6 harg6 arg7 harg7 arg8 harg8 arg9 harg9 x0 x1 x2 fh0 (ix3 (0 : Fin 1) v o)
      = ((Cert.Hgnn.vertMean h (Cert.Hgnn.edgeMean h fun v' => ∑ k, xr v' k * θ k o) v + b o : ℝ) : EReal) := by
  unfold out0_A_3
  rw [View.read_writes_eq_canon _ _ _ (cover0_A_3 c i arg2 harg2 arg3 harg3 arg4 harg4 arg5 harg5 arg6 harg6 arg7 harg7 arg8 harg8 arg9 harg9 x0 x1 x2 fh0)]
  refine (View.canon_apply_of_pieces (blockSpec xr h θ b) _ ?_ (ix3 (0 : Fin 1) v o)
    (cover0_A_3 c i arg2 harg2 arg3 harg3 arg4 harg4 arg5 harg5 arg6 harg6 arg7 harg7 arg8 harg8 arg9 harg9 x0 x1 x2 fh0 (ix3 (0 : Fin 1) v o))).trans rfl
  -- the sixteen tiles are those of the run from junk staging contents
  show ∀ p ∈ (kernelRunRaw c i arg2 harg2 arg3 harg3 arg4 harg4 arg5 harg5 arg6 harg6 arg7 harg7 arg8 harg8 arg9 harg9 x0 x1 x2 fh0 arg7.view.junk).1, _
  unfold kernelRunRaw
  dsimp only
  intro p hp
  simp only [List.mem_cons, List.not_mem_nil, or_false] at hp
  rcases hp with rfl | rfl | rfl | rfl | rfl | rfl | rfl | rfl | rfl | rfl | rfl | rfl | rfl | rfl | rfl | rfl
  · -- rows 3840 … 4095
    intro x
    refine tile_agree xr h θ b 15 (by norm_num) 3840 (by norm_num) inb_S1x4096x64_S1x256x64_0_3840_0 _ (fun r o => ?_) x
    dsimp only
    unfold kernelRunRaw.sl.r_20 kernelRunRaw.sl.r_21 kernelRunRaw.sl.r_12 kernelRunRaw.sl.r_13
    rw [out1]
    exact out_piece xr h θ b _ _ _ 15 (KernelHb.hb15 c i arg6 arg7 fh0 _ n hn h hH)
      (fun e o => KernelNorm.ye_val c i arg2 harg2 arg3 harg3 arg6 arg7 arg8 arg9 x0 x1 fh0 _ n hn xr h θ hx0 hx1 hH e o)
      (bias_val arg4 harg4 x2 b hx2 _) r o
  · -- rows 3584 … 3839
    intro x
    refine tile_agree xr h θ b 14 (by norm_num) 3584 (by norm_num) inb_S1x4096x64_S1x256x64_0_3584_0 _ (fun r o => ?_) x
    dsimp only
    unfold kernelRunRaw.sl.r_12 kernelRunRaw.sl.r_13
    rw [out105]
    exact out_piece xr h θ b _ _ _ 14 (KernelHb.hb14 c i arg6 arg7 fh0 _ n hn h hH)
      (fun e o => KernelNorm.ye_val c i arg2 harg2 arg3 harg3 arg6 arg7 arg8 arg9 x0 x1 fh0 _ n hn xr h θ hx0 hx1 hH e o)
      (bias_val arg4 harg4 x2 b hx2 _) r o
  · -- rows 3328 … 3583
    intro x
    refine tile_agree xr h θ b 13 (by norm_num) 3328 (by norm_num) inb_S1x4096x64_S1x256x64_0_3328_0 _ (fun r o => ?_) x
    dsimp only
    unfold kernelRunRaw.sl.r_12 kernelRunRaw.sl.r_13
    rw [out104]
    exact out_piece xr h θ b _ _ _ 13 (KernelHb.hb13 c i arg6 arg7 fh0 _ n hn h hH)
      (fun e o => KernelNorm.ye_val c i arg2 harg2 arg3 harg3 arg6 arg7 arg8 arg9 x0 x1 fh0 _ n hn xr h θ hx0 hx1 hH e o)
      (bias_val arg4 harg4 x2 b hx2 _) r o
  · -- rows 3072 … 3327
    intro x
    refine tile_agree xr h θ b 12 (by norm_num) 3072 (by norm_num) inb_S1x4096x64_S1x256x64_0_3072_0 _ (fun r o => ?_) x
    dsimp only
    unfold kernelRunRaw.sl.r_18 kernelRunRaw.sl.r_19 kernelRunRaw.sl.r_12 kernelRunRaw.sl.r_13
    rw [out103]
    exact out_piece xr h θ b _ _ _ 12 (KernelHb.hb12 c i arg6 arg7 fh0 _ n hn h hH)
      (fun e o => KernelNorm.ye_val c i arg2 harg2 arg3 harg3 arg6 arg7 arg8 arg9 x0 x1 fh0 _ n hn xr h θ hx0 hx1 hH e o)
      (bias_val arg4 harg4 x2 b hx2 _) r o
  · -- rows 2816 … 3071
    intro x
    refine tile_agree xr h θ b 11 (by norm_num) 2816 (by norm_num) inb_S1x4096x64_S1x256x64_0_2816_0 _ (fun r o => ?_) x
    dsimp only
    unfold kernelRunRaw.sl.r_12 kernelRunRaw.sl.r_13
    rw [out100]
    exact out_piece xr h θ b _ _ _ 11 (KernelHb.hb11 c i arg6 arg7 fh0 _ n hn h hH)
      (fun e o => KernelNorm.ye_val c i arg2 harg2 arg3 harg3 arg6 arg7 arg8 arg9 x0 x1 fh0 _ n hn xr h θ hx0 hx1 hH e o)
      (bias_val arg4 harg4 x2 b hx2 _) r o
  · -- rows 2560 … 2815
    intro x
    refine tile_agree xr h θ b 10 (by norm_num) 2560 (by norm_num) inb_S1x4096x64_S1x256x64_0_2560_0 _ (fun r o => ?_) x
    dsimp only
    unfold kernelRunRaw.sl.r_12 kernelRunRaw.sl.r_13
    rw [out99]
    exact out_piece xr h θ b _ _ _ 10 (KernelHb.hb10 c i arg6 arg7 fh0 _ n hn h hH)
      (fun e o => KernelNorm.ye_val c i arg2 harg2 arg3 harg3 arg6 arg7 arg8 arg9 x0 x1 fh0 _ n hn xr h θ hx0 hx1 hH e o)
      (bias_val arg4 harg4 x2 b hx2 _) r o
  · -- rows 2304 … 2559
    intro x
    refine tile_agree xr h θ b 9 (by norm_num) 2304 (by norm_num) inb_S1x4096x64_S1x256x64_0_2304_0 _ (fun r o => ?_) x
    dsimp only
    unfold kernelRunRaw.sl.r_17 kernelRunRaw.sl.r_12 kernelRunRaw.sl.r_13
    rw [out98]
    exact out_piece xr h θ b _ _ _ 9 (KernelHb.hb9 c i arg6 arg7 fh0 _ n hn h hH)
      (fun e o => KernelNorm.ye_val c i arg2 harg2 arg3 harg3 arg6 arg7 arg8 arg9 x0 x1 fh0 _ n hn xr h θ hx0 hx1 hH e o)
      (bias_val arg4 harg4 x2 b hx2 _) r o
  · -- rows 2048 … 2303
    intro x
    refine tile_agree xr h θ b 8 (by norm_num) 2048 (by norm_num) inb_S1x4096x64_S1x256x64_0_2048_0 _ (fun r o => ?_) x
    dsimp only
    unfold kernelRunRaw.sl.r_12 kernelRunRaw.sl.r_13
    rw [out96]
    exact out_piece xr h θ b _ _ _ 8 (KernelHb.hb8 c i arg6 arg7 fh0 _ n hn h hH)
      (fun e o => KernelNorm.ye_val c i arg2 harg2 arg3 harg3 arg6 arg7 arg8 arg9 x0 x1 fh0 _ n hn xr h θ hx0 hx1 hH e o)
      (bias_val arg4 harg4 x2 b hx2 _) r o
  · -- rows 1792 … 2047
    intro x
    refine tile_agree xr h θ b 7 (by norm_num) 1792 (by norm_num) inb_S1x4096x64_S1x256x64_0_1792_0 _ (fun r o => ?_) x
    dsimp only
    unfold kernelRunRaw.sl.r_12 kernelRunRaw.sl.r_13
    rw [out95]
    exact out_piece xr h θ b _ _ _ 7 (KernelHb.hb7 c i arg6 arg7 fh0 _ n hn h hH)
      (fun e o => KernelNorm.ye_val c i arg2 harg2 arg3 harg3 arg6 arg7 arg8 arg9 x0 x1 fh0 _ n hn xr h θ hx0 hx1 hH e o)
      (bias_val arg4 harg4 x2 b hx2 _) r o
  · -- rows 1536 … 1791
    intro x
    refine tile_agree xr h θ b 6 (by norm_num) 1536 (by norm_num) inb_S1x4096x64_S1x256x64_0_1536_0 _ (fun r o => ?_) x
    dsimp only
    unfold kernelRunRaw.sl.r_12 kernelRunRaw.sl.r_13
    rw [out94]
    exact out_piece xr h θ b _ _ _ 6 (KernelHb.hb6 c i arg6 arg7 fh0 _ n hn h hH)
      (fun e o => KernelNorm.ye_val c i arg2 harg2 arg3 harg3 arg6 arg7 arg8 arg9 x0 x1 fh0 _ n hn xr h θ hx0 hx1 hH e o)
      (bias_val arg4 harg4 x2 b hx2 _) r o
  · -- rows 1280 … 1535
    intro x
    refine tile_agree xr h θ b 5 (by norm_num) 1280 (by norm_num) inb_S1x4096x64_S1x256x64_0_1280_0 _ (fun r o => ?_) x
    dsimp only
    unfold kernelRunRaw.sl.r_12 kernelRunRaw.sl.r_13
    rw [out93]
    exact out_piece xr h θ b _ _ _ 5 (KernelHb.hb5 c i arg6 arg7 fh0 _ n hn h hH)
      (fun e o => KernelNorm.ye_val c i arg2 harg2 arg3 harg3 arg6 arg7 arg8 arg9 x0 x1 fh0 _ n hn xr h θ hx0 hx1 hH e o)
      (bias_val arg4 harg4 x2 b hx2 _) r o
  · -- rows 1024 … 1279
    intro x
    refine tile_agree xr h θ b 4 (by norm_num) 1024 (by norm_num) inb_S1x4096x64_S1x256x64_0_1024_0 _ (fun r o => ?_) x
    dsimp only
    unfold kernelRunRaw.sl.r_15 kernelRunRaw.sl.r_16 kernelRunRaw.sl.r_12 kernelRunRaw.sl.r_13
    rw [out92]
    exact out_piece xr h θ b _ _ _ 4 (KernelHb.hb4 c i arg6 arg7 fh0 _ n hn h hH)
      (fun e o => KernelNorm.ye_val c i arg2 harg2 arg3 harg3 arg6 arg7 arg8 arg9 x0 x1 fh0 _ n hn xr h θ hx0 hx1 hH e o)
      (bias_val arg4 harg4 x2 b hx2 _) r o
  · -- rows 768 … 1023
    intro x
    refine tile_agree xr h θ b 3 (by norm_num) 768 (by norm_num) inb_S1x4096x64_S1x256x64_0_768_0 _ (fun r o => ?_) x
    dsimp only
    unfold kernelRunRaw.sl.r_12 kernelRunRaw.sl.r_13
    rw [out87]
    exact out_piece xr h θ b _ _ _ 3 (KernelHb.hb3 c i arg6 arg7 fh0 _ n hn h hH)
      (fun e o => KernelNorm.ye_val c i arg2 harg2 arg3 harg3 arg6 arg7 arg8 arg9 x0 x1 fh0 _ n hn xr h θ hx0 hx1 hH e o)
      (bias_val arg4 harg4 x2 b hx2 _) r o
  · -- rows 512 … 767
    intro x
    refine tile_agree xr h θ b 2 (by norm_num) 512 (by norm_num) inb_S1x4096x64_S1x256x64_0_512_0 _ (fun r o => ?_) x
    dsimp only
    unfold kernelRunRaw.sl.r_12 kernelRunRaw.sl.r_13
    exact out_piece xr h θ b _ _ _ 2 (KernelHb.hb2 c i arg6 arg7 fh0 _ n hn h hH)
      (fun e o => KernelNorm.ye_val c i arg2 harg2 arg3 harg3 arg6 arg7 arg8 arg9 x0 x1 fh0 _ n hn xr h θ hx0 hx1 hH e o)
      (bias_val arg4 harg4 x2 b hx2 _) r o
  · -- rows 256 … 511
    intro x
    refine tile_agree xr h θ b 1 (by norm_num) 256 (by norm_num) inb_S1x4096x64_S1x256x64_0_256_0 _ (fun r o => ?_) x
    dsimp only
    unfold kernelRunRaw.sl.r_14
    rw [out85]
    exact out_piece xr h θ b _ _ _ 1 (KernelHb.hb1 c i arg6 arg7 fh0 _ n hn h hH)
      (fun e o => KernelNorm.ye_val c i arg2 harg2 arg3 harg3 arg6 arg7 arg8 arg9 x0 x1 fh0 _ n hn xr h θ hx0 hx1 hH e o)
      (bias_val arg4 harg4 x2 b hx2 _) r o
  · -- rows 0 … 255
    intro x
    refine tile_agree xr h θ b 0 (by norm_num) 0 (by norm_num) inb_S1x4096x64_S1x256x64_0_0_0 _ (fun r o => ?_) x
    dsimp only
    rw [out83]
    exact out_piece xr h θ b _ _ _ 0 (KernelHb.hb0 c i arg6 arg7 fh0 _ n hn h hH)
      (fun e o => KernelNorm.ye_val c i arg2 harg2 arg3 harg3 arg6 arg7 arg8 arg9 x0 x1 fh0 _ n hn xr h θ hx0 hx1 hH e o)
      (bias_val arg4 harg4 x2 b hx2 _) r o

end Cert.Hgnn.KernelSide

end
-- ==== Proof.KernelArray.lean ====
/-
  From the body's output blocks to the whole result array.

  The grid has four points, one per batch element; point t stages block t of the vertex features, the whole weights and
  bias, and writes back block t of the result. What point t writes back is the specification's values for batch
  element t (the body's output block, read at real data), the four blocks tile the result array, so after the run the
  array holds the specification's result everywhere.
-/
import proofs.«414075_j24292335026750_3_alg».proof.Proof.KernelIdealValue
import proofs.«414075_j24292335026750_3_alg».proof.Proof.KernelSide
import proofs.«414075_j24292335026750_3_alg».proof.Proof.Spec

set_option maxRecDepth 16384

noncomputable section

namespace Cert.Hgnn.KernelArray

open Idealize.ShloMosaic Idealize.ShloMosaic.ValueIdx Idealize.ShloMosaic.TcCoe Idealize.SL.Sem
open Cert.KernelIdeal Cert.KernelIdeal.Gen Cert.KernelIdeal.GenP Cert.KernelIdeal.ValueP
open Idealize.ShloMosaic.Pipeline (Dat)

/-- The specification's result as an array of extended reals over the literal result shape. -/
def resArr (x : Fin 4 → Fin 4096 → Fin 64 → ℝ) (H : Fin 4 → Fin 4096 → Fin 2048 → ℝ) (θ : Fin 64 → Fin 64 → ℝ)
    (b : Fin 64 → ℝ) : (⟨3, ![4, 4096, 64]⟩ : Shape).Idx → EReal :=
  fun i => ((Cert.Hgnn.result x H θ b (i 0) (i 1) (i 2) : ℝ) : EReal)

/-! ## The grid's points, the input blocks, the result window's blocks -/

/-- The batch element that grid point t works on: the grid is one axis of four points. -/
abbrev pt (t : Fin cfg0.N) : Fin 4 := ⟨t.val, lt_of_lt_of_eq t.isLt N_0⟩

/-- The windows' index maps over the grid: the feature window and the result window are at block (t, 0, 0), the weights
    and the bias at their one block, and the point's coordinate is t. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 3) = t.val ∧ win0_3.index t (1 : Fin 3) = 0 ∧ win0_3.index t (2 : Fin 3) = 0
    ∧ ((grid0.coords t) 0).val = t.val :=
  (by decide +kernel : ∀ t : Fin grid0.N, _)

section Blocks
variable (m : (ℓ : Loc nD τ sig) → Buf (Elt Ideal) ℓ)

/-- Block t of the vertex features, over its literal shape. -/
abbrev xblk (c : Dev nD) (t : Fin cfg0.N) : Vec Ideal S1x4096x64 .f32 := iblk m c 0 t
/-- The weights' one block. -/
abbrev wblk (c : Dev nD) (t : Fin cfg0.N) : Vec Ideal S64x64 .f32 := iblk m c 1 t
/-- The bias's one block. -/
abbrev bblk (c : Dev nD) (t : Fin cfg0.N) : Vec Ideal S64 .f32 := iblk m c 2 t

/-- Block t of the vertex features is batch element t of the feature array. -/
theorem xblk_apply (c : Dev nD) (t : Fin cfg0.N) (v : Fin 4096) (k : Fin 64) :
    xblk m c t (ix3 (0 : Fin 1) v k) = m ((c : Thread nD τ).loc main_arg0) (ix3 (pt t) v k) := by
  show m ((c : Thread nD τ).loc main_arg0) (((cfg0.win 0).blk t).view.emb (ix3 (0 : Fin 1) v k)) = _
  refine congrArg _ (funext fun a => Fin.ext ?_)
  obtain ⟨e0, e1, e2, -⟩ := idx_facts t
  match a with
  | ⟨0, _⟩ => show win0_0.index t (0 : Fin 3) * 1 + 1 * 0 = t.val; omega
  | ⟨1, _⟩ => show win0_0.index t (1 : Fin 3) * 4096 + 1 * v.val = v.val; omega
  | ⟨2, _⟩ => show win0_0.index t (2 : Fin 3) * 64 + 1 * k.val = k.val; omega

/-- The weights' block is the whole weight array. -/
theorem wblk_apply (c : Dev nD) (t : Fin cfg0.N) (k o : Fin 64) :
    wblk m c t (ix2 k o) = m ((c : Thread nD τ).loc main_arg2) (ix2 k o) := by
  show m ((c : Thread nD τ).loc main_arg2) (((cfg0.win 1).blk t).view.emb (ix2 k o)) = _
  refine congrArg _ (funext fun a => Fin.ext ?_)
  obtain ⟨-, -, -, e3, e4, -⟩ := idx_facts t
  match a with
  | ⟨0, _⟩ => show win0_1.index t (0 : Fin 2) * 64 + 1 * k.val = k.val; omega
  | ⟨1, _⟩ => show win0_1.index t (1 : Fin 2) * 64 + 1 * o.val = o.val; omega

/-- The bias's block is the whole bias array. -/
theorem bblk_apply (c : Dev nD) (t : Fin cfg0.N) (o : Fin 64) :
    bblk m c t (ix1 o) = m ((c : Thread nD τ).loc main_arg3) (ix1 o) := by
  show m ((c : Thread nD τ).loc main_arg3) (((cfg0.win 2).blk t).view.emb (ix1 o)) = _
  refine congrArg _ (funext fun a => Fin.ext ?_)
  obtain ⟨-, -, -, -, -, e5, -⟩ := idx_facts t
  match a with
  | ⟨0, _⟩ => show win0_2.index t (0 : Fin 1) * 64 + 1 * o.val = o.val; omega

end Blocks

/-! ## The result window's blocks tile the result array -/

/-- An index of the result array is in point t's block iff each coordinate is in the block's range on its axis. -/
theorem mem_blk (t : Fin cfg0.N) (i : S4x4096x64.Idx) :
    i ∈ ((cfg0.win 3).blk t).view.set ↔ ∀ a : Fin 3, win0_3.index t a * S1x4096x64.size a ≤ (i a).val ∧ (i a).val < win0_3.index t a * S1x4096x64.size a + S1x4096x64.size a := by
  show i ∈ ((View.whole main_v0).slice (win0_3.rect t)).set ↔ _
  rw [View.set_slice_whole, Rect.mem_set_unit]
  exact Iff.rfl

/-- Every index of the result array is in the block of the point its batch coordinate names. -/
theorem cover (i : S4x4096x64.Idx) :
    ∃ t : Fin cfg0.N, (cfg0.win 3).flush t = true ∧ i ∈ ((cfg0.win 3).blk t).view.set := by
  have h0 : (i 0).val < 4 := (i 0).isLt
  have h1 : (i 1).val < 4096 := (i 1).isLt
  have h2 : (i 2).val < 64 := (i 2).isLt
  obtain ⟨t, ht⟩ : ∃ t : Fin cfg0.N, t.val = (i 0).val := ⟨⟨(i 0).val, lt_of_lt_of_eq h0 N_0.symm⟩, rfl⟩
  refine ⟨t, flush0_3 t, ?_⟩
  rw [mem_blk]
  obtain ⟨-, -, -, -, -, -, e6, e7, e8, -⟩ := idx_facts t
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 4096 ≤ (i 1).val ∧ (i 1).val < win0_3.index t (1 : Fin 3) * 4096 + 4096; omega
  | ⟨2, _⟩ => show win0_3.index t (2 : Fin 3) * 64 ≤ (i 2).val ∧ (i 2).val < win0_3.index t (2 : Fin 3) * 64 + 64; omega

/-! ## What each point writes back, and the array after the run -/

section
variable (m : (ℓ : Loc nD τ sig) → Buf (Elt Ideal) ℓ) (ρ : Dev nD → PrngReg)
variable (x : Dev nD → Fin 4 → Fin 4096 → Fin 64 → ℝ) (H : Dev nD → Fin 4 → Fin 4096 → Fin 2048 → ℝ)
  (θ : Dev nD → Fin 64 → Fin 64 → ℝ) (b : Dev nD → Fin 64 → ℝ)

/-- THE BODY'S OUTPUT BLOCK at point t, entry (0, v, o), is the specification at batch element t: the point's input
    blocks are batch element t of the features, the whole weights and the whole bias, and the array left in memory is
    read at batch element t. -/
theorem out_entry
    (hx : ∀ (c : Dev nD) n v k, m ((c : Thread nD τ).loc main_arg0) (ix3 n v k) = (x c n v k : EReal))
    (hH : ∀ (c : Dev nD) n v e, m ((c : Thread nD τ).loc main_arg1) (ix3 n v e) = (H c n v e : EReal))
    (hθ : ∀ (c : Dev nD) k o, m ((c : Thread nD τ).loc main_arg2) (ix2 k o) = (θ c k o : EReal))
    (hb : ∀ (c : Dev nD) o, m ((c : Thread nD τ).loc main_arg3) (ix1 o) = (b c o : EReal))
    (c : Dev nD) (t : Fin cfg0.N) (v : Fin 4096) (o : Fin 64) :
    out0_A_3 c (grid0.coords t) (ms0_0 t) (hs0_0 t) (ms0_1 t) (hs0_1 t) (ms0_2 t) (hs0_2 t) (ms0_3 t) (hs0_3 t)
        scM0_0 (Memref.isWhole_whole cc0_scratch0) scM0_1 (Memref.isWhole_whole cc0_scratch1) scM0_2 (Memref.isWhole_whole cc0_scratch2) scM0_3 (Memref.isWhole_whole cc0_scratch3)
        (xblk m c t) (wblk m c t) (bblk m c t) (V m c main_arg1) (ix3 (0 : Fin 1) v o)
      = resArr (x c) (H c) (θ c) (b c) (ix3 (pt t) v o) := by
  obtain ⟨-, -, -, -, -, -, -, -, -, e9⟩ := idx_facts t
  refine (Cert.Hgnn.KernelSide.out_block c (grid0.coords t) (ms0_0 t) (hs0_0 t) (ms0_1 t) (hs0_1 t) (ms0_2 t) (hs0_2 t) (ms0_3 t) (hs0_3 t)
        scM0_0 (Memref.isWhole_whole cc0_scratch0) scM0_1 (Memref.isWhole_whole cc0_scratch1) scM0_2 (Memref.isWhole_whole cc0_scratch2) scM0_3 (Memref.isWhole_whole cc0_scratch3)
        (xblk m c t) (wblk m c t) (bblk m c t) (V m c main_arg1)
    (pt t) e9 (x c (pt t)) (H c (pt t)) (θ c) (b c)
    (fun v k => (xblk_apply m c t v k).trans (hx c (pt t) v k))
    (fun k o => (wblk_apply m c t k o).trans (hθ c k o))
    (fun o => (bblk_apply m c t o).trans (hb c o))
    (fun v e => hH c (pt t) v e) v o).trans ?_
  rfl

/-- The same at any index of the block, against the result array where the result window's block t places that index. -/
theorem out_at
    (hx : ∀ (c : Dev nD) n v k, m ((c : Thread nD τ).loc main_arg0) (ix3 n v k) = (x c n v k : EReal))
    (hH : ∀ (c : Dev nD) n v e, m ((c : Thread nD τ).loc main_arg1) (ix3 n v e) = (H c n v e : EReal))
    (hθ : ∀ (c : Dev nD) k o, m ((c : Thread nD τ).loc main_arg2) (ix2 k o) = (θ c k o : EReal))
    (hb : ∀ (c : Dev nD) o, m ((c : Thread nD τ).loc main_arg3) (ix1 o) = (b c o : EReal))
    (c : Dev nD) (t : Fin cfg0.N) (y : S1x4096x64.Idx) :
    out0_A_3 c (grid0.coords t) (ms0_0 t) (hs0_0 t) (ms0_1 t) (hs0_1 t) (ms0_2 t) (hs0_2 t) (ms0_3 t) (hs0_3 t)
        scM0_0 (Memref.isWhole_whole cc0_scratch0) scM0_1 (Memref.isWhole_whole cc0_scratch1) scM0_2 (Memref.isWhole_whole cc0_scratch2) scM0_3 (Memref.isWhole_whole cc0_scratch3)
        (xblk m c t) (wblk m c t) (bblk m c t) (V m c main_arg1) y
      = resArr (x c) (H c) (θ c) (b c) (((cfg0.win 3).blk t).view.emb y) := by
  obtain ⟨a, v, o, rfl⟩ : ∃ (a : Fin 1) (v : Fin 4096) (o : Fin 64), y = ix3 a v o := ⟨y 0, y 1, y 2, eq_ix3 y⟩
  obtain rfl : a = 0 := Subsingleton.elim _ _
  refine (out_entry m x H θ b hx hH hθ hb c t v o).trans ?_
  show resArr (x c) (H c) (θ c) (b c) (ix3 (pt t) v o)
    = resArr (x c) (H c) (θ c) (b c) (((cfg0.win 3).blk t).view.emb (ix3 (0 : Fin 1) v o))
  refine congrArg _ (funext fun a => Fin.ext ?_)
  obtain ⟨-, -, -, -, -, -, e6, e7, e8, -⟩ := idx_facts t
  match a with
  | ⟨0, _⟩ => show t.val = win0_3.index t (0 : Fin 3) * 1 + 1 * 0; omega
  | ⟨1, _⟩ => show v.val = win0_3.index t (1 : Fin 3) * 4096 + 1 * v.val; omega
  | ⟨2, _⟩ => show o.val = win0_3.index t (2 : Fin 3) * 64 + 1 * o.val; omega

/-- WHAT POINT t WRITES BACK is block t of the specification's result array. -/
theorem flushed_eq
    (hx : ∀ (c : Dev nD) n v k, m ((c : Thread nD τ).loc main_arg0) (ix3 n v k) = (x c n v k : EReal))
    (hH : ∀ (c : Dev nD) n v e, m ((c : Thread nD τ).loc main_arg1) (ix3 n v e) = (H c n v e : EReal))
    (hθ : ∀ (c : Dev nD) k o, m ((c : Thread nD τ).loc main_arg2) (ix2 k o) = (θ c k o : EReal))
    (hb : ∀ (c : Dev nD) o, m ((c : Thread nD τ).loc main_arg3) (ix1 o) = (b c o : EReal))
    (c : Dev nD) (t : Fin cfg0.N) :
    (dats m 0 c).flushed 3 t = ((cfg0.win 3).blk t).view.read (Elt Ideal) (resArr (x c) (H c) (θ c) (b c)) := by
  rw [flushed3_A]
  funext y
  exact out_at m x H θ b hx hH hθ hb c t y

/-- THE RESULT ARRAY AFTER THE RUN is the specification's result: every point writes back its block of it, and the four
    blocks tile the array. -/
theorem final
    (hx : ∀ (c : Dev nD) n v k, m ((c : Thread nD τ).loc main_arg0) (ix3 n v k) = (x c n v k : EReal))
    (hH : ∀ (c : Dev nD) n v e, m ((c : Thread nD τ).loc main_arg1) (ix3 n v e) = (H c n v e : EReal))
    (hθ : ∀ (c : Dev nD) k o, m ((c : Thread nD τ).loc main_arg2) (ix2 k o) = (θ c k o : EReal))
    (hb : ∀ (c : Dev nD) o, m ((c : Thread nD τ).loc main_arg3) (ix1 o) = (b c o : EReal))
    (c : Dev nD) : (dats m 0 c).arrAt 3 cfg0.N = resArr (x c) (H c) (θ c) (b c) :=
  (dats m 0 c).arrAt_eq_of_cover 3 (resArr (x c) (H c) (θ c) (b c))
    (fun t _ => flushed_eq m x H θ b hx hH hθ hb c t) cover

/-- THE RUN: every weakly fair execution of the idealized kernel terminates with the result array at the specification's
    result and the four arguments unchanged. -/
theorem run
    (hx : ∀ (c : Dev nD) n v k, m ((c : Thread nD τ).loc main_arg0) (ix3 n v k) = (x c n v k : EReal))
    (hH : ∀ (c : Dev nD) n v e, m ((c : Thread nD τ).loc main_arg1) (ix3 n v e) = (H c n v e : EReal))
    (hθ : ∀ (c : Dev nD) k o, m ((c : Thread nD τ).loc main_arg2) (ix2 k o) = (θ c k o : EReal))
    (hb : ∀ (c : Dev nD) o, m ((c : Thread nD τ).loc main_arg3) (ix1 o) = (b c o : EReal)) :
    θ_run defs (onTc (τ := τ) (main (F := Ideal))) ⟨m, fun _ => 0, ρ⟩ fun r => ∀ c : Dev nD,
      r.2.mem ((c : Thread nD τ).loc main_v0) = resArr (x c) (H c) (θ c) (b c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m x H θ b hx hH hθ hb c), (h c).2⟩) (run_blocks m ρ)

end

end Cert.Hgnn.KernelArray

end
-- ==== Proof.lean ====
/-
  The certificate: the fused hypergraph-convolution kernel against its reference, over the extended reals.

  Both programs compute, for each batch element n with incidence matrix h = H n (entries 0 or 1), y = x n · θ,
      out n v o = vertMean h (edgeMean h (y · o)) v + b o,
  where edgeMean averages a vertex signal over each hyperedge's members and vertMean averages a hyperedge signal
  over each vertex's hyperedges, each mean dividing by the degree clamped below by one (Spec).
  * The kernel keeps h resident, appends a column of ones to the right-hand operands so that the degrees come out
    as column 64 of its two contractions, and divides AFTER each contraction by the degree clamped below by one.
  * The reference scales h by the unclamped reciprocal degrees BEFORE each contraction.
  The precondition says every argument is finite and every incidence entry is 0 or 1. Finiteness makes every sum
  and product a real number, so that moving the division across the sums is plain real algebra; the 0/1 entries make
  the clamp inert exactly where the incidence is not zero, and make both sides zero where it is (Spec:
  vertMean_edgeMean, incidence_scaled).
  The frames of the two kernel programs are the generated frame runs; the reference's frame is its generated run with
  the result forgotten; the ideal pass rewrote nothing, so preserves is trivial.
-/
import proofs.«414075_j24292335026750_3_alg».proof.Defs
import proofs.«414075_j24292335026750_3_alg».proof.Proof.Gen.Kernel
import proofs.«414075_j24292335026750_3_alg».proof.Proof.Gen.KernelIdeal
import proofs.«414075_j24292335026750_3_alg».proof.Proof.Gen.ReferenceIdeal
import proofs.«414075_j24292335026750_3_alg».proof.Proof.Gen.Pre_finite_inputs
import proofs.«414075_j24292335026750_3_alg».proof.Proof.Gen.ReferenceIdeal.Run
import proofs.«414075_j24292335026750_3_alg».proof.Proof.Gen.ReferenceIdeal.Read
import proofs.«414075_j24292335026750_3_alg».proof.Proof.KernelFrame
import proofs.«414075_j24292335026750_3_alg».proof.Proof.KernelIdealFrame
import proofs.«414075_j24292335026750_3_alg».proof.Proof.KernelIdealValue
import proofs.«414075_j24292335026750_3_alg».proof.Proof.PreDecode
import proofs.«414075_j24292335026750_3_alg».proof.Proof.RefSide
import proofs.«414075_j24292335026750_3_alg».proof.Proof.KernelArray
import Idealize.ShloMosaic.Adequacy
import Idealize.ShloMosaic.Init

noncomputable section

namespace Cert.Proof

open Idealize.ShloMosaic Idealize.ShloMosaic.ValueIdx Idealize.SL.Sem

/-- The reference's frame: its run, the result forgotten. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- Both idealized programs end with the specification's result array, from arguments that agree. -/
theorem algebraic : @Cert.algebraic_KernelIdeal_ReferenceIdeal Cert.KernelIdeal.Gen.facts Cert.ReferenceIdeal.Gen.facts
    Cert.Pre_finite_inputs.Gen.facts := by
  intro m ρ m' ρ' hpre hagree
  -- every argument entry is a real number, every incidence entry is 0 or 1
  have hdec := fun c => @Cert.Hgnn.PreDecode.decode Cert.Pre_finite_inputs.Gen.facts _ _ _ _ (hpre c)
  choose x0 hx0 using fun c => (hdec c).1
  choose x1 hx1 using fun c => (hdec c).2.1
  choose x2 hx2 using fun c => (hdec c).2.2.1
  choose x3 hx3 using fun c => (hdec c).2.2.2.1
  have h01 := fun c => (hdec c).2.2.2.2
  -- the real data, by coordinates
  let x : Dev Cert.KernelIdeal.nD → Fin 4 → Fin 4096 → Fin 64 → ℝ := fun c n v k => x0 c (ix3 n v k)
  let H : Dev Cert.KernelIdeal.nD → Fin 4 → Fin 4096 → Fin 2048 → ℝ := fun c n v e => x1 c (ix3 n v e)
  let θ : Dev Cert.KernelIdeal.nD → Fin 64 → Fin 64 → ℝ := fun c k o => x2 c (ix2 k o)
  let b : Dev Cert.KernelIdeal.nD → Fin 64 → ℝ := fun c o => x3 c (ix1 o)
  have hH01 : ∀ c n v e, H c n v e = 0 ∨ H c n v e = 1 := fun c n v e => by
    have := h01 c (ix3 n v e)
    rw [hx1 c (ix3 n v e)] at this
    rcases this with h | h
    · exact Or.inl (by exact_mod_cast h)
    · exact Or.inr (by exact_mod_cast h)
  refine ⟨fun c => Cert.Hgnn.KernelArray.resArr (x c) (H c) (θ c) (b c),
    Cert.Hgnn.KernelArray.run m ρ x H θ b (fun c n v k => hx0 c _) (fun c n v e => hx1 c _) (fun c k o => hx2 c _)
      (fun c o => hx3 c _), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  refine (Cert.ReferenceIdeal.Read.val_main_v17_eq _ _ _ _).trans ?_
  funext i
  rw [eq_ix3 i]
  exact Cert.Hgnn.RefSide.reference_eq _ _ _ _ (x c) (H c) (θ c) (b c) (fun n v k => hx0 c _) (fun n v e => hx1 c _)
    (fun k o => hx2 c _) (fun o => hx3 c _) (hH01 c) _ _ _

theorem claim : Cert.Claim := ⟨Cert.Kernel.Gen.facts, Cert.KernelIdeal.Gen.facts, Cert.ReferenceIdeal.Gen.facts, Cert.Pre_finite_inputs.Gen.facts,
  fun m ρ _ => Cert.Kernel.GenP.frame m ρ,
  fun m ρ _ => Cert.KernelIdeal.GenP.frame m ρ,
  frame_reference,
  trivial,
  algebraic⟩

end Cert.Proof

end
